-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x80x80 : Shape := ⟨4, ![4, 128, 80, 80]⟩
abbrev S64x128 : Shape := ⟨2, ![64, 128]⟩
abbrev S64 : Shape := ⟨1, ![64]⟩
abbrev S1 : Shape := ⟨1, ![1]⟩
abbrev S128x128 : Shape := ⟨2, ![128, 128]⟩
abbrev S128 : Shape := ⟨1, ![128]⟩
abbrev S_ : Shape := ⟨0, ![]⟩

class Facts : Prop where
  bcast_S_S4x128x80x80 : S_.BroadcastsInDim S4x128x80x80 (![] : Fin 0 → Fin S4x128x80x80.rank)
  reducesTo_S4x128x80x80_S_d0_1_2_3 : S4x128x80x80.ReducesTo [0, 1, 2, 3] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128x128 .f32) (main_arg8 : FVec F S128 .f32) (main_arg9 : FVec F S1 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S64x128 .f32) (main_arg5 : FVec F S64 .f32) (main_arg6 : FVec F S1 .f32) (main_arg7 : FVec F S128x128 .f32) (main_arg8 : FVec F S128 .f32) (main_arg9 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_arg9 main_v33

def fn {F : FTy → Type} [FloatOps F] (main_arg0 : FVec F S4x128x80x80 .f32) (main_arg1 : FVec F S64x128 .f32) (main_arg2 : FVec F S64 .f32) (main_arg3 : FVec F S1 .f32) (main_arg4 : FVec F S64x128 .f32) (main_arg5 : FVec F S64 .f32) (main_arg6 : FVec F S1 .f32) (main_arg7 : FVec F S128x128 .f32) (main_arg8 : FVec F S128 .f32) (main_arg9 : FVec F S1 .f32) : IVec S_ 1 :=
  let main_v0 : FVec F S4x128x80x80 .f32 := Host.absf main_arg0
  let main_cst : FVec F S_ .f32 := constant S_ .f32 0x7F800000#32
  let main_v1 : FVec F S4x128x80x80 .f32 := broadcastInDim S4x128x80x80 ![] bcast_S_S4x128x80x80 main_cst
  let main_v2 : IVec S4x128x80x80 1 := cmpf .olt main_v0 main_v1
  let main_c : IVec S_ 1 := constantI S_ 1 1#1
  let main_v3 : IVec S_ 1 := (fun x v => Host.reduce IntOp.andi x v reducesTo_S4x128x80x80_S_d0_1_2_3 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_arg5 main_arg6 main_arg7 main_arg8 main_arg9 main_v13 main_v16
-- ==== Kernel.lean ====
abbrev S4x128x80x80 : Shape := ⟨4, ![4, 128, 80, 80]⟩
abbrev S64x128 : Shape := ⟨2, ![64, 128]⟩
abbrev S64 : Shape := ⟨1, ![64]⟩
abbrev S1 : Shape := ⟨1, ![1]⟩
abbrev S128x128 : Shape := ⟨2, ![128, 128]⟩
abbrev S128 : Shape := ⟨1, ![128]⟩
abbrev S4x128x6400 : Shape := ⟨3, ![4, 128, 6400]⟩
abbrev S128x64 : Shape := ⟨2, ![128, 64]⟩
abbrev S1x64 : Shape := ⟨2, ![1, 64]⟩
abbrev S1x1 : Shape := ⟨2, ![1, 1]⟩
abbrev S1x128 : Shape := ⟨2, ![1, 128]⟩
abbrev S1x128x3200 : Shape := ⟨3, ![1, 128, 3200]⟩
abbrev S1x128x1280 : Shape := ⟨3, ![1, 128, 1280]⟩
abbrev S3200x1 : Shape := ⟨2, ![3200, 1]⟩
abbrev S3200x128 : Shape := ⟨2, ![3200, 128]⟩
abbrev S3200x64 : Shape := ⟨2, ![3200, 64]⟩
abbrev S128x3200 : Shape := ⟨2, ![128, 3200]⟩
abbrev S128x1280 : Shape := ⟨2, ![128, 1280]⟩
abbrev S1280x128 : Shape := ⟨2, ![1280, 128]⟩
abbrev S1280x64 : Shape := ⟨2, ![1280, 64]⟩
abbrev S3200x1280 : Shape := ⟨2, ![3200, 1280]⟩
abbrev S3200 : Shape := ⟨1, ![3200]⟩

abbrev nBuf : Space → Nat
  | .hbm => 25
  | .vmem => 19
  | .smem => 0
  | _ => 0

abbrev bufTy : (tb : Table) → Fin (tcTables nBuf tb) → BufTy
  | .hbm, ⟨0, _⟩ => ⟨S4x128x80x80, .f32⟩
  | .hbm, ⟨1, _⟩ => ⟨S64x128, .f32⟩
  | .hbm, ⟨2, _⟩ => ⟨S64, .f32⟩
  | .hbm, ⟨3, _⟩ => ⟨S1, .f32⟩
  | .hbm, ⟨4, _⟩ => ⟨S64x128, .f32⟩
  | .hbm, ⟨5, _⟩ => ⟨S64, .f32⟩
  | .hbm, ⟨6, _⟩ => ⟨S1, .f32⟩
  | .hbm, ⟨7, _⟩ => ⟨S128x128, .f32⟩
  | .hbm, ⟨8, _⟩ => ⟨S128, .f32⟩
  | .hbm, ⟨9, _⟩ => ⟨S1, .f32⟩
  | .hbm, ⟨10, _⟩ => ⟨S4x128x6400, .f32⟩
  | .hbm, ⟨11, _⟩ => ⟨S128x64, .f32⟩
  | .hbm, ⟨12, _⟩ => ⟨S128x64, .bf16⟩
  | .hbm, ⟨13, _⟩ => ⟨S128x64, .f32⟩
  | .hbm, ⟨14, _⟩ => ⟨S128x64, .bf16⟩
  | .hbm, ⟨15, _⟩ => ⟨S128x128, .f32⟩
  | .hbm, ⟨16, _⟩ => ⟨S128x128, .bf16⟩
  | .hbm, ⟨17, _⟩ => ⟨S1x64, .f32⟩
  | .hbm, ⟨18, _⟩ => ⟨S1x1, .f32⟩
  | .hbm, ⟨19, _⟩ => ⟨S1x64, .f32⟩
  | .hbm, ⟨20, _⟩ => ⟨S1x1, .f32⟩
  | .hbm, ⟨21, _⟩ => ⟨S1x128, .f32⟩
  | .hbm, ⟨22, _⟩ => ⟨S1x1, .f32⟩
  | .hbm, ⟨23, _⟩ => ⟨S4x128x6400, .f32⟩
  | .hbm, ⟨24, _⟩ => ⟨S4x128x80x80, .f32⟩
  | .local _ .vmem, ⟨0, _⟩ => ⟨S1x128x3200, .f32⟩
  | .local _ .vmem, ⟨1, _⟩ => ⟨S1x128x3200, .f32⟩
  | .local _ .vmem, ⟨2, _⟩ => ⟨S1x128x1280, .f32⟩
  | .local _ .vmem, ⟨3, _⟩ => ⟨S1x128x1280, .f32⟩
  | .local _ .vmem, ⟨4, _⟩ => ⟨S128x64, .bf16⟩
  | .local _ .vmem, ⟨5, _⟩ => ⟨S1x64, .f32⟩
  | .local _ .vmem, ⟨6, _⟩ => ⟨S1x1, .f32⟩
  | .local _ .vmem, ⟨7, _⟩ => ⟨S128x64, .bf16⟩
  | .local _ .vmem, ⟨8, _⟩ => ⟨S1x64, .f32⟩
  | .local _ .vmem, ⟨9, _⟩ => ⟨S1x1, .f32⟩
  | .local _ .vmem, ⟨10, _⟩ => ⟨S128x128, .bf16⟩
  | .local _ .vmem, ⟨11, _⟩ => ⟨S1x128, .f32⟩
  | .local _ .vmem, ⟨12, _⟩ => ⟨S1x1, .f32⟩
  | .local _ .vmem, ⟨13, _⟩ => ⟨S1x128x3200, .f32⟩
  | .local _ .vmem, ⟨14, _⟩ => ⟨S1x128x3200, .f32⟩
  | .local _ .vmem, ⟨15, _⟩ => ⟨S3200x1, .f32⟩
  | .local _ .vmem, ⟨16, _⟩ => ⟨S3200x1, .f32⟩
  | .local _ .vmem, ⟨17, _⟩ => ⟨S3200x128, .f32⟩
  | .local _ .vmem, ⟨18, _⟩ => ⟨S3200x64, .bf16⟩
  | _, _ => ⟨S4x128x80x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨3, ![4, 2, 5], ![false, false, false]⟩

def k0_cond2 (i : grid0.Coords) : BitVec 1 :=
  let arg2 : BitVec 32 := BitVec.ofNat 32 (i 2).val
  let c4_i32 : BitVec 32 := 4#32
  let v69 : BitVec 1 := Scalar.cmpi .eq arg2 c4_i32
  let v70 : BitVec 32 := Scalar.extui v69
  let c0_i32_38 : BitVec 32 := 0#32
  let v71 : BitVec 1 := Scalar.cmpi .ne v70 c0_i32_38
  v71

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x128x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S1x128x3200 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

class Facts₀ : Prop where
  shapeCasts_S4x128x80x80_S4x128x6400 : S4x128x80x80.ShapeCasts S4x128x6400
  transposes_S64x128_S128x64_1_0 : S64x128.Transposes [1, 0] S128x64
  bitsLt_bf16_f32 : FTy.bits .bf16 < FTy.bits .f32
  transposes_S128x128_S128x128_1_0 : S128x128.Transposes [1, 0] S128x128
  shapeCasts_S64_S1x64 : S64.ShapeCasts S1x64
  shapeCasts_S1_S1x1 : S1.ShapeCasts S1x1
  shapeCasts_S128_S1x128 : S128.ShapeCasts S1x128
  inb_S1x128x3200_S1x128x3200_0_0_0 : ∀ a, (![0, 0, 0] : Fin 3 → Nat) a + S1x128x3200.size a ≤ S1x128x3200.size a
  h_S1x128x3200 : 0 < S1x128x3200.numel
  shapeCasts_S1x128x3200_S128x3200 : S1x128x3200.ShapeCasts S128x3200
  transposes_S128x3200_p1_0_S3200x128 : S128x3200.Transposes [1, 0] S3200x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  broadcasts_S1x64_S3200x64 : S1x64.Broadcasts S3200x64
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  packedbf16_S3200x64_S3200x64_0_0 : (Rect.unit (s := S3200x64) ![0, 0] S3200x64.size inb_S3200x64_S3200x64_0_0).PackedRows (EltTy.packing .bf16)
  inb_S3200x1_S3200x1_0_0 : ∀ a, (![0, 0] : Fin 2 → Nat) a + S3200x1.size a ≤ S3200x1.size a
  h_S3200x1 : 0 < S3200x1.numel
  shapeCasts_S3200x1_S3200x1 : S3200x1.ShapeCasts S3200x1
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S1x128x1280_S1x128x1280_0_0_0 : ∀ a, (![0, 0, 0] : Fin 3 → Nat) a + S1x128x1280.size a ≤ S1x128x1280.size a
  h_S1x128x1280 : 0 < S1x128x1280.numel
  shapeCasts_S1x128x1280_S128x1280 : S1x128x1280.ShapeCasts S128x1280
  transposes_S128x1280_p1_0_S1280x128 : S128x1280.Transposes [1, 0] S1280x128
  broadcasts_S1x64_S1280x64 : S1x64.Broadcasts S1280x64
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1280x128 : S1x128.Broadcasts S1280x128
  reduces_S3200x1280_S3200 : S3200x1280.Reduces [1] S3200
  shapeCasts_S3200_S3200x1 : S3200.ShapeCasts S3200x1
  broadcasts_S3200x1_S3200x1280 : S3200x1.Broadcasts S3200x1280
  broadcasts_S3200x1_S3200x128 : S3200x1.Broadcasts S3200x128
  transposes_S3200x128_p1_0_S128x3200 : S3200x128.Transposes [1, 0] S128x3200
  shapeCasts_S128x3200_S1x128x3200 : S128x3200.ShapeCasts S1x128x3200
  shapeCasts_S4x128x6400_S4x128x80x80 : S4x128x6400.ShapeCasts S4x128x80x80
  dot_S3200x128_S128x64_S3200x64_1_0_0_1_n_n_wf : DotDims.WF S3200x128 S128x64 S3200x64 [1] [0] [0] [1] [] []
  dot_S1280x128_S128x64_S1280x64_1_0_0_1_n_n_wf : DotDims.WF S1280x128 S128x64 S1280x64 [1] [0] [0] [1] [] []
  dot_S1280x128_S128x128_S1280x128_1_0_0_1_n_n_wf : DotDims.WF S1280x128 S128x128 S1280x128 [1] [0] [0] [1] [] []
  dot_S3200x64_S1280x64_S3200x1280_1_1_0_0_n_n_wf : DotDims.WF S3200x64 S1280x64 S3200x1280 [1] [1] [0] [0] [] []
  dot_S3200x1280_S1280x128_S3200x128_1_0_0_1_n_n_wf : DotDims.WF S3200x1280 S1280x128 S3200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x3200.size a ≤ S4x128x6400.size a
  hwx0_0 : ∀ i : grid0.Coords, EltTy.bits .f32 = 32 ∨ (Rect.block (s := S4x128x6400) S1x128x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1280.size a ≤ S4x128x6400.size a
  hwx0_1 : ∀ i : grid0.Coords, EltTy.bits .f32 = 32 ∨ (Rect.block (s := S4x128x6400) S1x128x1280.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .bf16 = 32 ∨ (Rect.block (s := S128x64) S128x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .bf16 = 32 ∨ (Rect.block (s := S128x64) S128x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x128x3200.size a ≤ S4x128x6400.size a
  hwx0_11 : ∀ i : grid0.Coords, EltTy.bits .f32 = 32 ∨ (Rect.block (s := S4x128x6400) S1x128x3200.size (cc0_transform_11 i) (hinb0_11 i)).WholeWords (EltTy.packing .f32)

variable [Facts₀]

def dot_S3200x128_S128x64_S3200x64_1_0_0_1_n_n : DotDims S3200x128 S128x64 S3200x64 where
  lhsContracting := [1]
  rhsContracting := [0]
  lhsNonContracting := [0]
  rhsNonContracting := [1]
  lhsBatch := []
  rhsBatch := []
  wf := dot_S3200x128_S128x64_S3200x64_1_0_0_1_n_n_wf
def dot_S1280x128_S128x64_S1280x64_1_0_0_1_n_n : DotDims S1280x128 S128x64 S1280x64 where
  lhsContracting := [1]
  rhsContracting := [0]
  lhsNonContracting := [0]
  rhsNonContracting := [1]
  lhsBatch := []
  rhsBatch := []
  wf := dot_S1280x128_S128x64_S1280x64_1_0_0_1_n_n_wf
def dot_S1280x128_S128x128_S1280x128_1_0_0_1_n_n : DotDims S1280x128 S128x128 S1280x128 where
  lhsContracting := [1]
  rhsContracting := [0]
  lhsNonContracting := [0]
  rhsNonContracting := [1]
  lhsBatch := []
  rhsBatch := []
  wf := dot_S1280x128_S128x128_S1280x128_1_0_0_1_n_n_wf
def dot_S3200x64_S1280x64_S3200x1280_1_1_0_0_n_n : DotDims S3200x64 S1280x64 S3200x1280 where
  lhsContracting := [1]
  rhsContracting := [1]
  lhsNonContracting := [0]
  rhsNonContracting := [0]
  lhsBatch := []
  rhsBatch := []
  wf := dot_S3200x64_S1280x64_S3200x1280_1_1_0_0_n_n_wf
def dot_S3200x1280_S1280x128_S3200x128_1_0_0_1_n_n : DotDims S3200x1280 S1280x128 S3200x128 where
  lhsContracting := [1]
  rhsContracting := [0]
  lhsNonContracting := [0]
  rhsNonContracting := [1]
  lhsBatch := []
  rhsBatch := []
  wf := dot_S3200x1280_S1280x128_S3200x128_1_0_0_1_n_n_wf

abbrev win0_0 : Pipeline.Window sig grid0 :=
  Pipeline.Window.ofSpec (Memref.whole main_v0) S1x128x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S1x128x3200.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | ⟨_ + 12, h⟩ => absurd h (Nat.not_lt.2 (Nat.le_add_left _ _))

class Facts : Prop extends Facts₀ where

variable [Facts]
-- ==== ReferenceIdeal.lean ====
abbrev S4x128x80x80 : Shape := ⟨4, ![4, 128, 80, 80]⟩
abbrev S64x128 : Shape := ⟨2, ![64, 128]⟩
abbrev S64 : Shape := ⟨1, ![64]⟩
abbrev S1 : Shape := ⟨1, ![1]⟩
abbrev S128x128 : Shape := ⟨2, ![128, 128]⟩
abbrev S128 : Shape := ⟨1, ![128]⟩
abbrev S4x80x80x128 : Shape := ⟨4, ![4, 80, 80, 128]⟩
abbrev S4x6400x128 : Shape := ⟨3, ![4, 6400, 128]⟩
abbrev S4x6400x64 : Shape := ⟨3, ![4, 6400, 64]⟩
abbrev S1x1x64 : Shape := ⟨3, ![1, 1, 64]⟩
abbrev S_ : Shape := ⟨0, ![]⟩
abbrev S1x1x1 : Shape := ⟨3, ![1, 1, 1]⟩
abbrev S1x1x128 : Shape := ⟨3, ![1, 1, 128]⟩
abbrev S4x6400x6400 : Shape := ⟨3, ![4, 6400, 6400]⟩
abbrev S4x6400 : Shape := ⟨2, ![4, 6400]⟩
abbrev S4x6400x1 : Shape := ⟨3, ![4, 6400, 1]⟩
abbrev S4x128x6400 : Shape := ⟨3, ![4, 128, 6400]⟩

abbrev nBuf : Space → Nat
  | .hbm => 63
  | .vmem => 0
  | .smem => 0
  | _ => 0

abbrev bufTy : (tb : Table) → Fin (tcTables nBuf tb) → BufTy
  | .hbm, ⟨0, _⟩ => ⟨S4x128x80x80, .f32⟩
  | .hbm, ⟨1, _⟩ => ⟨S64x128, .f32⟩
  | .hbm, ⟨2, _⟩ => ⟨S64, .f32⟩
  | .hbm, ⟨3, _⟩ => ⟨S1, .f32⟩
  | .hbm, ⟨4, _⟩ => ⟨S64x128, .f32⟩
  | .hbm, ⟨5, _⟩ => ⟨S64, .f32⟩
  | .hbm, ⟨6, _⟩ => ⟨S1, .f32⟩
  | .hbm, ⟨7, _⟩ => ⟨S128x128, .f32⟩
  | .hbm, ⟨8, _⟩ => ⟨S128, .f32⟩
  | .hbm, ⟨9, _⟩ => ⟨S1, .f32⟩
  | .hbm, ⟨10, _⟩ => ⟨S4x80x80x128, .f32⟩
  | .hbm, ⟨11, _⟩ => ⟨S4x6400x128, .f32⟩
  | .hbm, ⟨12, _⟩ => ⟨S4x6400x64, .f32⟩
  | .hbm, ⟨13, _⟩ => ⟨S1x1x64, .f32⟩
  | .hbm, ⟨14, _⟩ => ⟨S4x6400x64, .f32⟩
  | .hbm, ⟨15, _⟩ => ⟨S4x6400x64, .f32⟩
  | .hbm, ⟨16, _⟩ => ⟨S_, .f32⟩
  | .hbm, ⟨17, _⟩ => ⟨S4x6400x64, .f32⟩
  | .hbm, ⟨18, _⟩ => ⟨S4x6400x64, .i1⟩
  | .hbm, ⟨19, _⟩ => ⟨S1x1x1, .f32⟩
  | .hbm, ⟨20, _⟩ => ⟨S4x6400x64, .f32⟩
  | .hbm, ⟨21, _⟩ => ⟨S4x6400x64, .f32⟩
  | .hbm, ⟨22, _⟩ => ⟨S4x6400x64, .f32⟩
  | .hbm, ⟨23, _⟩ => ⟨S4x6400x64, .f32⟩
  | .hbm, ⟨24, _⟩ => ⟨S1x1x64, .f32⟩
  | .hbm, ⟨25, _⟩ => ⟨S4x6400x64, .f32⟩
  | .hbm, ⟨26, _⟩ => ⟨S4x6400x64, .f32⟩
  | .hbm, ⟨27, _⟩ => ⟨S_, .f32⟩
  | .hbm, ⟨28, _⟩ => ⟨S4x6400x64, .f32⟩
  | .hbm, ⟨29, _⟩ => ⟨S4x6400x64, .i1⟩
  | .hbm, ⟨30, _⟩ => ⟨S1x1x1, .f32⟩
  | .hbm, ⟨31, _⟩ => ⟨S4x6400x64, .f32⟩
  | .hbm, ⟨32, _⟩ => ⟨S4x6400x64, .f32⟩
  | .hbm, ⟨33, _⟩ => ⟨S4x6400x64, .f32⟩
  | .hbm, ⟨34, _⟩ => ⟨S4x6400x128, .f32⟩
  | .hbm, ⟨35, _⟩ => ⟨S1x1x128, .f32⟩
  | .hbm, ⟨36, _⟩ => ⟨S4x6400x128, .f32⟩
  | .hbm, ⟨37, _⟩ => ⟨S4x6400x128, .f32⟩
  | .hbm, ⟨38, _⟩ => ⟨S_, .f32⟩
  | .hbm, ⟨39, _⟩ => ⟨S4x6400x128, .f32⟩
  | .hbm, ⟨40, _⟩ => ⟨S4x6400x128, .i1⟩
  | .hbm, ⟨41, _⟩ => ⟨S1x1x1, .f32⟩
  | .hbm, ⟨42, _⟩ => ⟨S4x6400x128, .f32⟩
  | .hbm, ⟨43, _⟩ => ⟨S4x6400x128, .f32⟩
  | .hbm, ⟨44, _⟩ => ⟨S4x6400x128, .f32⟩
  | .hbm, ⟨45, _⟩ => ⟨S4x6400x6400, .f32⟩
  | .hbm, ⟨46, _⟩ => ⟨S_, .f32⟩
  | .hbm, ⟨47, _⟩ => ⟨S4x6400, .f32⟩
  | .hbm, ⟨48, _⟩ => ⟨S_, .f32⟩
  | .hbm, ⟨49, _⟩ => ⟨S4x6400, .f32⟩
  | .hbm, ⟨50, _⟩ => ⟨S4x6400, .f32⟩
  | .hbm, ⟨51, _⟩ => ⟨S4x6400x1, .f32⟩
  | .hbm, ⟨52, _⟩ => ⟨S4x6400x6400, .f32⟩
  | .hbm, ⟨53, _⟩ => ⟨S4x6400x6400, .f32⟩
  | .hbm, ⟨54, _⟩ => ⟨S4x6400x6400, .f32⟩
  | .hbm, ⟨55, _⟩ => ⟨S_, .f32⟩
  | .hbm, ⟨56, _⟩ => ⟨S4x6400, .f32⟩
  | .hbm, ⟨57, _⟩ => ⟨S4x6400x1, .f32⟩
  | .hbm, ⟨58, _⟩ => ⟨S4x6400x6400, .f32⟩
  | .hbm, ⟨59, _⟩ => ⟨S4x6400x6400, .f32⟩
  | .hbm, ⟨60, _⟩ => ⟨S4x6400x128, .f32⟩
  | .hbm, ⟨61, _⟩ => ⟨S4x128x6400, .f32⟩
  | .hbm, ⟨62, _⟩ => ⟨S4x128x80x80, .f32⟩
  | _, _ => ⟨S4x128x80x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]

class Facts₀ : Prop where
  transposes_S4x128x80x80_S4x80x80x128_0_2_3_1 : S4x128x80x80.Transposes [0, 2, 3, 1] S4x80x80x128
  shapeCasts_S4x80x80x128_S4x6400x128 : S4x80x80x128.ShapeCasts S4x6400x128
  bcast_S64_S1x1x64_2 : S64.BroadcastsInDim S1x1x64 (![2] : Fin 1 → Fin S1x1x64.rank)
  bcast_S1x1x64_S4x6400x64_0_1_2 : S1x1x64.BroadcastsInDim S4x6400x64 (![0, 1, 2] : Fin 3 → Fin S4x6400x64.rank)
  bcast_S_S4x6400x64 : S_.BroadcastsInDim S4x6400x64 (![] : Fin 0 → Fin S4x6400x64.rank)
  bcast_S1_S1x1x1_2 : S1.BroadcastsInDim S1x1x1 (![2] : Fin 1 → Fin S1x1x1.rank)
  bcast_S1x1x1_S4x6400x64_0_1_2 : S1x1x1.BroadcastsInDim S4x6400x64 (![0, 1, 2] : Fin 3 → Fin S4x6400x64.rank)
  bcast_S128_S1x1x128_2 : S128.BroadcastsInDim S1x1x128 (![2] : Fin 1 → Fin S1x1x128.rank)
  bcast_S1x1x128_S4x6400x128_0_1_2 : S1x1x128.BroadcastsInDim S4x6400x128 (![0, 1, 2] : Fin 3 → Fin S4x6400x128.rank)
  bcast_S_S4x6400x128 : S_.BroadcastsInDim S4x6400x128 (![] : Fin 0 → Fin S4x6400x128.rank)
  bcast_S1x1x1_S4x6400x128_0_1_2 : S1x1x1.BroadcastsInDim S4x6400x128 (![0, 1, 2] : Fin 3 → Fin S4x6400x128.rank)
  reducesTo_S4x6400x6400_S4x6400_d2 : S4x6400x6400.ReducesTo [2] S4x6400
  h_S_ : 0 < S_.numel
  bcast_S_S4x6400 : S_.BroadcastsInDim S4x6400 (![] : Fin 0 → Fin S4x6400.rank)
  bcast_S4x6400_S4x6400x1_0_1 : S4x6400.BroadcastsInDim S4x6400x1 (![0, 1] : Fin 2 → Fin S4x6400x1.rank)
  bcast_S4x6400x1_S4x6400x6400_0_1_2 : S4x6400x1.BroadcastsInDim S4x6400x6400 (![0, 1, 2] : Fin 3 → Fin S4x6400x6400.rank)
  transposes_S4x6400x128_S4x128x6400_0_2_1 : S4x6400x128.Transposes [0, 2, 1] S4x128x6400
  shapeCasts_S4x128x6400_S4x128x80x80 : S4x128x6400.ShapeCasts S4x128x80x80
  dot_S4x6400x128_S64x128_S4x6400x64_2_1_01_0_n_n_wf : DotDims.WF S4x6400x128 S64x128 S4x6400x64 [2] [1] [0, 1] [0] [] []
  dot_S4x6400x128_S128x128_S4x6400x128_2_1_01_0_n_n_wf : DotDims.WF S4x6400x128 S128x128 S4x6400x128 [2] [1] [0, 1] [0] [] []
  dot_S4x6400x64_S4x6400x64_S4x6400x6400_2_2_1_1_0_0_wf : DotDims.WF S4x6400x64 S4x6400x64 S4x6400x6400 [2] [2] [1] [1] [0] [0]
  dot_S4x6400x6400_S4x6400x128_S4x6400x128_2_1_1_2_0_0_wf : DotDims.WF S4x6400x6400 S4x6400x128 S4x6400x128 [2] [1] [1] [2] [0] [0]

variable [Facts₀]

def dot_S4x6400x128_S64x128_S4x6400x64_2_1_01_0_n_n : DotDims S4x6400x128 S64x128 S4x6400x64 where
  lhsContracting := [2]
  rhsContracting := [1]
  lhsNonContracting := [0, 1]
  rhsNonContracting := [0]
  lhsBatch := []
  rhsBatch := []
  wf := dot_S4x6400x128_S64x128_S4x6400x64_2_1_01_0_n_n_wf
def dot_S4x6400x128_S128x128_S4x6400x128_2_1_01_0_n_n : DotDims S4x6400x128 S128x128 S4x6400x128 where
  lhsContracting := [2]
  rhsContracting := [1]
  lhsNonContracting := [0, 1]
  rhsNonContracting := [0]
  lhsBatch := []
  rhsBatch := []
  wf := dot_S4x6400x128_S128x128_S4x6400x128_2_1_01_0_n_n_wf
def dot_S4x6400x64_S4x6400x64_S4x6400x6400_2_2_1_1_0_0 : DotDims S4x6400x64 S4x6400x64 S4x6400x6400 where
  lhsContracting := [2]
  rhsContracting := [2]
  lhsNonContracting := [1]
  rhsNonContracting := [1]
  lhsBatch := [0]
  rhsBatch := [0]
  wf := dot_S4x6400x64_S4x6400x64_S4x6400x6400_2_2_1_1_0_0_wf
def dot_S4x6400x6400_S4x6400x128_S4x6400x128_2_1_1_2_0_0 : DotDims S4x6400x6400 S4x6400x128 S4x6400x128 where
  lhsContracting := [2]
  rhsContracting := [1]
  lhsNonContracting := [1]
  rhsNonContracting := [2]
  lhsBatch := [0]
  rhsBatch := [0]
  wf := dot_S4x6400x6400_S4x6400x128_S4x6400x128_2_1_1_2_0_0_wf

class Facts : Prop extends Facts₀ where

variable [Facts]
-- ==== Proof.K.Base.lean ====
/- The launch-side vocabulary of the fused attention kernel, for any float instance: the arrays as the region finds
   them after the host lines that reshape and transpose the arguments, each window's block at a grid point, the two
   branch conditions of the body in closed form over the 40 points (the key-tile coordinate is the point modulo 5:
   the first tile resets the running maximum, sum and accumulator; the last tile divides and writes the block back),
   and the staging and scratch memrefs the body is called with. -/
import proofs.«404800_j8830452761398_3_alg».proof.Proof.Gen.Kernel.Launch
import proofs.«404800_j8830452761398_3_alg».proof.Proof.Gen.Kernel.Skeleton
import proofs.«404800_j8830452761398_3_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the thirteen host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines, the region, one more host line: it reduces to the region continued by that line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions over the grid -/

/-- The first `scf.if`: the key-tile coordinate is zero. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)

/-- The second `scf.if`: the key-tile coordinate is the last. -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
/-- Unless the key tile is the last the body stores nothing into the output window, and the pipeline does not write it back. -/
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel
theorem liveAt0_11 : ∀ t : Fin cfg0.N, cond0_1 (grid0.coords t) → cfg0.idle 11 (grid0.coords t) = false := by decide +kernel

/-! ## The memrefs the body is called with -/

/-- One staging buffer of the output window, through which its contents are stated. -/
abbrev VO0_11 : View sig .tc .vmem S1x128x3200 .f32 := (Memref.whole cc0_stg11_0 : Memref sig .tc .vmem S1x128x3200 .f32).view
abbrev ms0_0 (t : Fin cfg0.N) : Memref sig .tc .vmem S1x128x3200 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x1280 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x64 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128x3200 .f32 := win0_11.stage (cfg0.slots t 11)
abbrev hs0_11 (t : Fin cfg0.N) : (ms0_11 t).IsWhole := hstage0_11 ((cfg0.slots t 11).cast nbuf0_11)
/-- Scratch operand 0, a whole scoped buffer of the kernel's own, and the view its contents are stated through. -/
abbrev scM0_0 : Memref sig .tc .vmem S3200x1 .f32 := Memref.whole cc0_scratch0
abbrev VS0_0 : View sig .tc .vmem S3200x1 .f32 := scM0_0.view
/-- Scratch operand 1, a whole scoped buffer of the kernel's own, and the view its contents are stated through. -/
abbrev scM0_1 : Memref sig .tc .vmem S3200x1 .f32 := Memref.whole cc0_scratch1
abbrev VS0_1 : View sig .tc .vmem S3200x1 .f32 := scM0_1.view
/-- Scratch operand 2, a whole scoped buffer of the kernel's own, and the view its contents are stated through. -/
abbrev scM0_2 : Memref sig .tc .vmem S3200x128 .f32 := Memref.whole cc0_scratch2
abbrev VS0_2 : View sig .tc .vmem S3200x128 .f32 := scM0_2.view
/-- Scratch operand 3, a whole scoped buffer of the kernel's own, and the view its contents are stated through. -/
abbrev scM0_3 : Memref sig .tc .vmem S3200x64 .bf16 := Memref.whole cc0_scratch3
abbrev VS0_3 : View sig .tc .vmem S3200x64 .bf16 := scM0_3.view

/-- The class invariant with the four scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Hand

end
-- ==== Proof.K.RunA.lean ====
/- The body of the fused attention kernel run symbolically in the case where the key tile is the first of its row of tiles (and not the last): the queries' projection is stored, the running maximum, sum and accumulator are reset and then updated with the tile. The pieces each buffer ends with are found by the run. -/
import proofs.«404800_j8830452761398_3_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case A (first `scf.if` taken, second not): on whole memrefs — the eleven inputs' at their contents, the output's at contents
    handed back untouched, the four scratch at anything — the body runs to the continuation holding the inputs and the output as
    they were and each scratch with its pieces written. -/
noncomputable def kernelRun0_A (c : Dev nD) (i : grid0.Coords) (arg3 : Memref sig .tc .vmem S1x128x3200 .f32) (harg3 : arg3.IsWhole) (arg4 : Memref sig .tc .vmem S1x128x1280 .f32) (harg4 : arg4.IsWhole) (arg5 : Memref sig .tc .vmem S128x64 .bf16) (harg5 : arg5.IsWhole) (arg6 : Memref sig .tc .vmem S1x64 .f32) (harg6 : arg6.IsWhole) (arg7 : Memref sig .tc .vmem S1x1 .f32) (harg7 : arg7.IsWhole) (arg8 : Memref sig .tc .vmem S128x64 .bf16) (harg8 : arg8.IsWhole) (arg9 : Memref sig .tc .vmem S1x64 .f32) (harg9 : arg9.IsWhole) (arg10 : Memref sig .tc .vmem S1x1 .f32) (harg10 : arg10.IsWhole) (arg11 : Memref sig .tc .vmem S128x128 .bf16) (harg11 : arg11.IsWhole) (arg12 : Memref sig .tc .vmem S1x128 .f32) (harg12 : arg12.IsWhole) (arg13 : Memref sig .tc .vmem S1x1 .f32) (harg13 : arg13.IsWhole) (arg14 : Memref sig .tc .vmem S1x128x3200 .f32) (harg14 : arg14.IsWhole) (arg15 : Memref sig .tc .vmem S3200x1 .f32) (harg15 : arg15.IsWhole) (arg16 : Memref sig .tc .vmem S3200x1 .f32) (harg16 : arg16.IsWhole) (arg17 : Memref sig .tc .vmem S3200x128 .f32) (harg17 : arg17.IsWhole) (arg18 : Memref sig .tc .vmem S3200x64 .bf16) (harg18 : arg18.IsWhole) (hc0 : cond0_0 i) (hc1 : ¬cond0_1 i)
    (x0 : Vec F S1x128x3200 .f32) (x1 : Vec F S1x128x1280 .f32) (x2 : Vec F S128x64 .bf16) (x3 : Vec F S1x64 .f32) (x4 : Vec F S1x1 .f32) (x5 : Vec F S128x64 .bf16) (x6 : Vec F S1x64 .f32) (x7 : Vec F S1x1 .f32) (x8 : Vec F S128x128 .bf16) (x9 : Vec F S1x128 .f32) (x10 : Vec F S1x1 .f32) :
    Σ' (LS0 : List (View.Piece (Elt F) S3200x1 .f32)) (LS1 : List (View.Piece (Elt F) S3200x1 .f32)) (LS2 : List (View.Piece (Elt F) S3200x128 .f32)), { LS3 : List (View.Piece (Elt F) S3200x64 .bf16) //
      ∀ (xi11 : Vec F S1x128x3200 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare xi11
            ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare xi11
                ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ (∃ f, arg18.view.loc (c : Thread nD τ) ↦[arg18.view.set]{fullShare} arg18.view.writes (Elt F) f LS3)) -∗ K ⟨⟩))
          ⊢ wp frame (wpE (defs₀ (F := F)) Variants.none c none) E (cc0__fused_attn_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun xi11 E K => ?run⟩
  case run =>
    simp only [cc0__fused_attn_kernel_eq_skeleton]; unfold cc0__fused_attn_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    obtain rfl := harg14.eq_unread hf11
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [HS0]; · iexists _; iexact HS0
    isplitl [HS1]; · iexists _; iexact HS1
    isplitl [HS2]; · iexists _; iexact HS2
    iexists _; iexact HS3

end Cert.Kernel.Hand

end
-- ==== Proof.K.RunB.lean ====
/- The body of the fused attention kernel run symbolically in the case where the key tile is neither the first nor the last of its row of tiles: the running maximum, sum and accumulator, found as the tile before left them, are updated with the tile; the stored queries' projection is only read. The pieces each buffer ends with are found by the run. -/
import proofs.«404800_j8830452761398_3_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case B (neither `scf.if` taken): the inputs at their contents, the output's buffer handed back untouched, the three
    running scratch at what the tile before left (`xs0`, `xs1`, `xs2`) and ending with their pieces written, the stored
    queries' projection (`xs3`) read and left as it was. -/
noncomputable def kernelRun0_B (c : Dev nD) (i : grid0.Coords) (arg3 : Memref sig .tc .vmem S1x128x3200 .f32) (harg3 : arg3.IsWhole) (arg4 : Memref sig .tc .vmem S1x128x1280 .f32) (harg4 : arg4.IsWhole) (arg5 : Memref sig .tc .vmem S128x64 .bf16) (harg5 : arg5.IsWhole) (arg6 : Memref sig .tc .vmem S1x64 .f32) (harg6 : arg6.IsWhole) (arg7 : Memref sig .tc .vmem S1x1 .f32) (harg7 : arg7.IsWhole) (arg8 : Memref sig .tc .vmem S128x64 .bf16) (harg8 : arg8.IsWhole) (arg9 : Memref sig .tc .vmem S1x64 .f32) (harg9 : arg9.IsWhole) (arg10 : Memref sig .tc .vmem S1x1 .f32) (harg10 : arg10.IsWhole) (arg11 : Memref sig .tc .vmem S128x128 .bf16) (harg11 : arg11.IsWhole) (arg12 : Memref sig .tc .vmem S1x128 .f32) (harg12 : arg12.IsWhole) (arg13 : Memref sig .tc .vmem S1x1 .f32) (harg13 : arg13.IsWhole) (arg14 : Memref sig .tc .vmem S1x128x3200 .f32) (harg14 : arg14.IsWhole) (arg15 : Memref sig .tc .vmem S3200x1 .f32) (harg15 : arg15.IsWhole) (arg16 : Memref sig .tc .vmem S3200x1 .f32) (harg16 : arg16.IsWhole) (arg17 : Memref sig .tc .vmem S3200x128 .f32) (harg17 : arg17.IsWhole) (arg18 : Memref sig .tc .vmem S3200x64 .bf16) (harg18 : arg18.IsWhole) (hc0 : ¬cond0_0 i) (hc1 : ¬cond0_1 i)
    (x0 : Vec F S1x128x3200 .f32) (x1 : Vec F S1x128x1280 .f32) (x2 : Vec F S128x64 .bf16) (x3 : Vec F S1x64 .f32) (x4 : Vec F S1x1 .f32) (x5 : Vec F S128x64 .bf16) (x6 : Vec F S1x64 .f32) (x7 : Vec F S1x1 .f32) (x8 : Vec F S128x128 .bf16) (x9 : Vec F S1x128 .f32) (x10 : Vec F S1x1 .f32) (xs0 : Vec F S3200x1 .f32) (xs1 : Vec F S3200x1 .f32) (xs2 : Vec F S3200x128 .f32) (xs3 : Vec F S3200x64 .bf16) :
    Σ' (LS0 : List (View.Piece (Elt F) S3200x1 .f32)) (LS1 : List (View.Piece (Elt F) S3200x1 .f32)), { LS2 : List (View.Piece (Elt F) S3200x128 .f32) //
      ∀ (xi11 : Vec F S1x128x3200 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare xi11
            ∗ owns (c : Thread nD τ) arg15 fullShare xs0 ∗ owns (c : Thread nD τ) arg16 fullShare xs1 ∗ owns (c : Thread nD τ) arg17 fullShare xs2 ∗ owns (c : Thread nD τ) arg18 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare xi11
                ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ owns (c : Thread nD τ) arg18 fullShare xs3) -∗ K ⟨⟩))
          ⊢ wp frame (wpE (defs₀ (F := F)) Variants.none c none) E (cc0__fused_attn_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun xi11 E K => ?run⟩
  case run =>
    simp only [cc0__fused_attn_kernel_eq_skeleton]; unfold cc0__fused_attn_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    obtain rfl := harg14.eq_unread hf11
    obtain rfl := harg15.eq_unread hfs0; obtain rfl := harg16.eq_unread hfs1; obtain rfl := harg17.eq_unread hfs2; obtain rfl := harg18.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [HS0]; · iexists _; iexact HS0
    isplitl [HS1]; · iexists _; iexact HS1
    isplitl [HS2]; · iexists _; iexact HS2
    iexists _; isplitr; · ipureintro; exact harg18.read_unread _
    iexact HS3

end Cert.Kernel.Hand

end
-- ==== Proof.K.RunC.lean ====
/- The body of the fused attention kernel run symbolically in the case where the key tile is the last of its row of tiles (and not the first): the running state is updated with the tile, then the accumulator over the sum, transposed, is stored into the output block. The pieces each buffer ends with are found by the run. -/
import proofs.«404800_j8830452761398_3_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case C (first `scf.if` not taken, second taken): as case B, and the output's buffer, at anything, ends with its
    pieces written. -/
noncomputable def kernelRun0_C (c : Dev nD) (i : grid0.Coords) (arg3 : Memref sig .tc .vmem S1x128x3200 .f32) (harg3 : arg3.IsWhole) (arg4 : Memref sig .tc .vmem S1x128x1280 .f32) (harg4 : arg4.IsWhole) (arg5 : Memref sig .tc .vmem S128x64 .bf16) (harg5 : arg5.IsWhole) (arg6 : Memref sig .tc .vmem S1x64 .f32) (harg6 : arg6.IsWhole) (arg7 : Memref sig .tc .vmem S1x1 .f32) (harg7 : arg7.IsWhole) (arg8 : Memref sig .tc .vmem S128x64 .bf16) (harg8 : arg8.IsWhole) (arg9 : Memref sig .tc .vmem S1x64 .f32) (harg9 : arg9.IsWhole) (arg10 : Memref sig .tc .vmem S1x1 .f32) (harg10 : arg10.IsWhole) (arg11 : Memref sig .tc .vmem S128x128 .bf16) (harg11 : arg11.IsWhole) (arg12 : Memref sig .tc .vmem S1x128 .f32) (harg12 : arg12.IsWhole) (arg13 : Memref sig .tc .vmem S1x1 .f32) (harg13 : arg13.IsWhole) (arg14 : Memref sig .tc .vmem S1x128x3200 .f32) (harg14 : arg14.IsWhole) (arg15 : Memref sig .tc .vmem S3200x1 .f32) (harg15 : arg15.IsWhole) (arg16 : Memref sig .tc .vmem S3200x1 .f32) (harg16 : arg16.IsWhole) (arg17 : Memref sig .tc .vmem S3200x128 .f32) (harg17 : arg17.IsWhole) (arg18 : Memref sig .tc .vmem S3200x64 .bf16) (harg18 : arg18.IsWhole) (hc0 : ¬cond0_0 i) (hc1 : cond0_1 i)
    (x0 : Vec F S1x128x3200 .f32) (x1 : Vec F S1x128x1280 .f32) (x2 : Vec F S128x64 .bf16) (x3 : Vec F S1x64 .f32) (x4 : Vec F S1x1 .f32) (x5 : Vec F S128x64 .bf16) (x6 : Vec F S1x64 .f32) (x7 : Vec F S1x1 .f32) (x8 : Vec F S128x128 .bf16) (x9 : Vec F S1x128 .f32) (x10 : Vec F S1x1 .f32) (xs0 : Vec F S3200x1 .f32) (xs1 : Vec F S3200x1 .f32) (xs2 : Vec F S3200x128 .f32) (xs3 : Vec F S3200x64 .bf16) :
    Σ' (L11 : List (View.Piece (Elt F) S1x128x3200 .f32)) (LS0 : List (View.Piece (Elt F) S3200x1 .f32)) (LS1 : List (View.Piece (Elt F) S3200x1 .f32)), { LS2 : List (View.Piece (Elt F) S3200x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d)
            ∗ owns (c : Thread nD τ) arg15 fullShare xs0 ∗ owns (c : Thread nD τ) arg16 fullShare xs1 ∗ owns (c : Thread nD τ) arg17 fullShare xs2 ∗ owns (c : Thread nD τ) arg18 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ f, arg14.view.loc (c : Thread nD τ) ↦[arg14.view.set]{fullShare} arg14.view.writes (Elt F) f L11)
                ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ owns (c : Thread nD τ) arg18 fullShare xs3) -∗ K ⟨⟩))
          ⊢ wp frame (wpE (defs₀ (F := F)) Variants.none c none) E (cc0__fused_attn_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case run =>
    simp only [cc0__fused_attn_kernel_eq_skeleton]; unfold cc0__fused_attn_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    obtain rfl := harg15.eq_unread hfs0; obtain rfl := harg16.eq_unread hfs1; obtain rfl := harg17.eq_unread hfs2; obtain rfl := harg18.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]; · iexists _; iexact H11
    isplitl [HS0]; · iexists _; iexact HS0
    isplitl [HS1]; · iexists _; iexact HS1
    isplitl [HS2]; · iexists _; iexact HS2
    iexists _; isplitr; · ipureintro; exact harg18.read_unread _
    iexact HS3

end Cert.Kernel.Hand

end
-- ==== Proof.K.Outs.lean ====
/- What the kernel's buffers hold point by point, for any float instance. The four scratch buffers — the running maximum,
   the running sum of weights, the running weighted sum and the stored queries' projection — are carried from one key tile
   to the next: at a first tile they are what that case's run leaves, at a later tile what the run leaves over the contents
   the tile before left. The output block is stored at a last tile only, from the scratch the tile before left. With these
   the pipeline's proof data: every input window's buffer at its block, the output's at that block, the image array shared
   by the query window and the key window held at two half shares. -/
import proofs.«404800_j8830452761398_3_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three cases' runs at point `t`, on the memrefs the pipeline calls the body with and the input blocks there. -/
abbrev runA_at (c : Dev nD) (t : Fin cfg0.N) (hc0 : cond0_0 (grid0.coords t)) (hc1 : ¬cond0_1 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t)
abbrev runB_at (c : Dev nD) (t : Fin cfg0.N) (hc0 : ¬cond0_0 (grid0.coords t)) (hc1 : ¬cond0_1 (grid0.coords t)) (xs : Vec F S3200x1 .f32 × Vec F S3200x1 .f32 × Vec F S3200x128 .f32 × Vec F S3200x64 .bf16) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) xs.1 xs.2.1 xs.2.2.1 xs.2.2.2
abbrev runC_at (c : Dev nD) (t : Fin cfg0.N) (hc0 : ¬cond0_0 (grid0.coords t)) (hc1 : cond0_1 (grid0.coords t)) (xs : Vec F S3200x1 .f32 × Vec F S3200x1 .f32 × Vec F S3200x128 .f32 × Vec F S3200x64 .bf16) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) xs.1 xs.2.1 xs.2.2.1 xs.2.2.2

/-- What a first tile leaves in the four scratch buffers: its pieces read back. -/
def soutA (c : Dev nD) (t : Fin cfg0.N) (hc0 : cond0_0 (grid0.coords t)) (hc1 : ¬cond0_1 (grid0.coords t)) : Vec F S3200x1 .f32 × Vec F S3200x1 .f32 × Vec F S3200x128 .f32 × Vec F S3200x64 .bf16 :=
  (VS0_0.read (Elt F) (VS0_0.writes (Elt F) VS0_0.junk (runA_at m c t hc0 hc1).1), VS0_1.read (Elt F) (VS0_1.writes (Elt F) VS0_1.junk (runA_at m c t hc0 hc1).2.1),
   VS0_2.read (Elt F) (VS0_2.writes (Elt F) VS0_2.junk (runA_at m c t hc0 hc1).2.2.1), VS0_3.read (Elt F) (VS0_3.writes (Elt F) VS0_3.junk (runA_at m c t hc0 hc1).2.2.2.1))

/-- What a middle tile leaves over the contents `xs` the tile before left: the projection is kept. -/
def soutB (c : Dev nD) (t : Fin cfg0.N) (hc0 : ¬cond0_0 (grid0.coords t)) (hc1 : ¬cond0_1 (grid0.coords t)) (xs : Vec F S3200x1 .f32 × Vec F S3200x1 .f32 × Vec F S3200x128 .f32 × Vec F S3200x64 .bf16) : Vec F S3200x1 .f32 × Vec F S3200x1 .f32 × Vec F S3200x128 .f32 × Vec F S3200x64 .bf16 :=
  (VS0_0.read (Elt F) (VS0_0.writes (Elt F) VS0_0.junk (runB_at m c t hc0 hc1 xs).1), VS0_1.read (Elt F) (VS0_1.writes (Elt F) VS0_1.junk (runB_at m c t hc0 hc1 xs).2.1),
   VS0_2.read (Elt F) (VS0_2.writes (Elt F) VS0_2.junk (runB_at m c t hc0 hc1 xs).2.2.1), xs.2.2.2)

/-- What a last tile leaves in the scratch, -/
def soutC (c : Dev nD) (t : Fin cfg0.N) (hc0 : ¬cond0_0 (grid0.coords t)) (hc1 : cond0_1 (grid0.coords t)) (xs : Vec F S3200x1 .f32 × Vec F S3200x1 .f32 × Vec F S3200x128 .f32 × Vec F S3200x64 .bf16) : Vec F S3200x1 .f32 × Vec F S3200x1 .f32 × Vec F S3200x128 .f32 × Vec F S3200x64 .bf16 :=
  (VS0_0.read (Elt F) (VS0_0.writes (Elt F) VS0_0.junk (runC_at m c t hc0 hc1 xs).2.1), VS0_1.read (Elt F) (VS0_1.writes (Elt F) VS0_1.junk (runC_at m c t hc0 hc1 xs).2.2.1),
   VS0_2.read (Elt F) (VS0_2.writes (Elt F) VS0_2.junk (runC_at m c t hc0 hc1 xs).2.2.2.1), xs.2.2.2)
/-- and in the output's staging buffer. -/
def outC (c : Dev nD) (t : Fin cfg0.N) (hc0 : ¬cond0_0 (grid0.coords t)) (hc1 : cond0_1 (grid0.coords t)) (xs : Vec F S3200x1 .f32 × Vec F S3200x1 .f32 × Vec F S3200x128 .f32 × Vec F S3200x64 .bf16) : Vec F S1x128x3200 .f32 :=
  VO0_11.read (Elt F) (VO0_11.writes (Elt F) VO0_11.junk (runC_at m c t hc0 hc1 xs).1)

/-- The scratch after the body at position `n`. -/
def scAt0 (c : Dev nD) : (n : ℕ) → n < cfg0.N → Vec F S3200x1 .f32 × Vec F S3200x1 .f32 × Vec F S3200x128 .f32 × Vec F S3200x64 .bf16
  | 0, hn => soutA m c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 5 = 0 then
      soutA m c ⟨n + 1, hn⟩ ((hcond0_0 ⟨n + 1, hn⟩).mpr h0) (fun h => (fun h1 => by (try dsimp only at h1); omega) ((hcond0_1 ⟨n + 1, hn⟩).mp h))
    else
      if h1 : (n + 1) % 5 = 4 then
        soutC m c ⟨n + 1, hn⟩ (fun h => h0 ((hcond0_0 ⟨n + 1, hn⟩).mp h)) ((hcond0_1 ⟨n + 1, hn⟩).mpr h1) (scAt0 c n (Nat.lt_of_succ_lt hn))
      else
        soutB m c ⟨n + 1, hn⟩ (fun h => h0 ((hcond0_0 ⟨n + 1, hn⟩).mp h)) (fun h => h1 ((hcond0_1 ⟨n + 1, hn⟩).mp h)) (scAt0 c n (Nat.lt_of_succ_lt hn))

theorem scAt0_A (c : Dev nD) (t : Fin cfg0.N) (h0 : t.val % 5 = 0) (h1 : ¬t.val % 5 = 4) :
    scAt0 m c t.val t.isLt = soutA m c t ((hcond0_0 t).mpr h0) (fun h => h1 ((hcond0_1 t).mp h)) := by
  obtain ⟨n, hn⟩ := t
  cases n with
  | zero => exact rfl
  | succ n => exact (dif_pos h0).trans rfl

theorem scAt0_B (c : Dev nD) (t : Fin cfg0.N) (h0 : ¬t.val % 5 = 0) (h1 : ¬t.val % 5 = 4) :
    scAt0 m c t.val t.isLt = soutB m c t (fun h => h0 ((hcond0_0 t).mp h)) (fun h => h1 ((hcond0_1 t).mp h))
      (scAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem scAt0_C (c : Dev nD) (t : Fin cfg0.N) (h0 : ¬t.val % 5 = 0) (h1 : t.val % 5 = 4) :
    scAt0 m c t.val t.isLt = soutC m c t (fun h => h0 ((hcond0_0 t).mp h)) ((hcond0_1 t).mpr h1)
      (scAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output's staging buffer after the body at point `t`: at a last tile what that run leaves over the scratch the
    tile before left; elsewhere the body stores nothing there and nothing consults this placeholder. -/
def outAt0 (c : Dev nD) (t : Fin cfg0.N) : Vec F S1x128x3200 .f32 :=
  if h1 : t.val % 5 = 4 then
    outC m c t (fun h => by have := (hcond0_0 t).mp h; omega) ((hcond0_1 t).mpr h1) (scAt0 m c (t.val - 1) (Nat.lt_of_le_of_lt (Nat.sub_le _ _) t.isLt))
  else VO0_11.read (Elt F) VO0_11.junk

theorem outAt0_C (c : Dev nD) (t : Fin cfg0.N) (h0 : ¬t.val % 5 = 0) (h1 : t.val % 5 = 4) :
    outAt0 m c t = outC m c t (fun h => h0 ((hcond0_0 t).mp h)) ((hcond0_1 t).mpr h1) (scAt0 m c (t.val - 1) (Nat.lt_of_le_of_lt (Nat.sub_le _ _) t.isLt)) := by
  unfold outAt0; rw [dif_pos h1]

/-- The region invariant before position `n`: before the first point the class's (every scratch at anything); afterwards
    the four scratch at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((scAt0 m c n hn).1) ∗ owns (c : Thread nD τ) scM0_1 fullShare ((scAt0 m c n hn).2.1) ∗ owns (c : Thread nD τ) scM0_2 fullShare ((scAt0 m c n hn).2.2.1) ∗ owns (c : Thread nD τ) scM0_3 fullShare ((scAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((scAt0 m c n hn).1) ∗ owns (c : Thread nD τ) scM0_1 fullShare ((scAt0 m c n hn).2.1) ∗ owns (c : Thread nD τ) scM0_2 fullShare ((scAt0 m c n hn).2.2.1) ∗ owns (c : Thread nD τ) scM0_3 fullShare ((scAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((scAt0 m c (n - 1) (by omega)).1) ∗ owns (c : Thread nD τ) scM0_1 fullShare ((scAt0 m c (n - 1) (by omega)).2.1) ∗ owns (c : Thread nD τ) scM0_2 fullShare ((scAt0 m c (n - 1) (by omega)).2.2.1) ∗ owns (c : Thread nD τ) scM0_3 fullShare ((scAt0 m c (n - 1) (by omega)).2.2.2)) ∗ (∃ r, prngReg c r)) := by
  cases n with
  | zero => exact absurd rfl hz
  | succ n => rfl

/-! ## The pipeline's proof data -/

/-- The proof data on core `c`. The query window and the key window read one array: each holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outAt0 m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = outAt0 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

end Cert.Kernel.Hand

end
-- ==== Proof.K.Covers.lean ====
/- Each case's run leaves pieces that tile every buffer it stores into, so the pieces read back determine the buffer. -/
import proofs.«404800_j8830452761398_3_alg».proof.Proof.K.Outs
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The runs' pieces cover the buffers they store into -/

theorem scoverA_0 (c : Dev nD) (t : Fin cfg0.N) (hc0 : cond0_0 (grid0.coords t)) (hc1 : ¬cond0_1 (grid0.coords t)) (y : S3200x1.Idx) :
    ∃ pc ∈ (runA_at m c t hc0 hc1).1, y ∈ pc.1.set :=
  View.cover_of_tiledL (runA_at m c t hc0 hc1).1 S3200x1.size (by sl_kernel_rfl) y
theorem scoverA_1 (c : Dev nD) (t : Fin cfg0.N) (hc0 : cond0_0 (grid0.coords t)) (hc1 : ¬cond0_1 (grid0.coords t)) (y : S3200x1.Idx) :
    ∃ pc ∈ (runA_at m c t hc0 hc1).2.1, y ∈ pc.1.set :=
  View.cover_of_tiledL (runA_at m c t hc0 hc1).2.1 S3200x1.size (by sl_kernel_rfl) y
theorem scoverA_2 (c : Dev nD) (t : Fin cfg0.N) (hc0 : cond0_0 (grid0.coords t)) (hc1 : ¬cond0_1 (grid0.coords t)) (y : S3200x128.Idx) :
    ∃ pc ∈ (runA_at m c t hc0 hc1).2.2.1, y ∈ pc.1.set :=
  View.cover_of_tiledL (runA_at m c t hc0 hc1).2.2.1 S3200x128.size (by sl_kernel_rfl) y
theorem scoverA_3 (c : Dev nD) (t : Fin cfg0.N) (hc0 : cond0_0 (grid0.coords t)) (hc1 : ¬cond0_1 (grid0.coords t)) (y : S3200x64.Idx) :
    ∃ pc ∈ (runA_at m c t hc0 hc1).2.2.2.1, y ∈ pc.1.set :=
  View.cover_of_tiledL (runA_at m c t hc0 hc1).2.2.2.1 S3200x64.size (by sl_kernel_rfl) y
theorem scoverB_0 (c : Dev nD) (t : Fin cfg0.N) (hc0 : ¬cond0_0 (grid0.coords t)) (hc1 : ¬cond0_1 (grid0.coords t)) (xs : Vec F S3200x1 .f32 × Vec F S3200x1 .f32 × Vec F S3200x128 .f32 × Vec F S3200x64 .bf16) (y : S3200x1.Idx) :
    ∃ pc ∈ (runB_at m c t hc0 hc1 xs).1, y ∈ pc.1.set :=
  View.cover_of_tiledL (runB_at m c t hc0 hc1 xs).1 S3200x1.size (by sl_kernel_rfl) y
theorem scoverB_1 (c : Dev nD) (t : Fin cfg0.N) (hc0 : ¬cond0_0 (grid0.coords t)) (hc1 : ¬cond0_1 (grid0.coords t)) (xs : Vec F S3200x1 .f32 × Vec F S3200x1 .f32 × Vec F S3200x128 .f32 × Vec F S3200x64 .bf16) (y : S3200x1.Idx) :
    ∃ pc ∈ (runB_at m c t hc0 hc1 xs).2.1, y ∈ pc.1.set :=
  View.cover_of_tiledL (runB_at m c t hc0 hc1 xs).2.1 S3200x1.size (by sl_kernel_rfl) y
theorem scoverB_2 (c : Dev nD) (t : Fin cfg0.N) (hc0 : ¬cond0_0 (grid0.coords t)) (hc1 : ¬cond0_1 (grid0.coords t)) (xs : Vec F S3200x1 .f32 × Vec F S3200x1 .f32 × Vec F S3200x128 .f32 × Vec F S3200x64 .bf16) (y : S3200x128.Idx) :
    ∃ pc ∈ (runB_at m c t hc0 hc1 xs).2.2.1, y ∈ pc.1.set :=
  View.cover_of_tiledL (runB_at m c t hc0 hc1 xs).2.2.1 S3200x128.size (by sl_kernel_rfl) y
theorem coverC_11 (c : Dev nD) (t : Fin cfg0.N) (hc0 : ¬cond0_0 (grid0.coords t)) (hc1 : cond0_1 (grid0.coords t)) (xs : Vec F S3200x1 .f32 × Vec F S3200x1 .f32 × Vec F S3200x128 .f32 × Vec F S3200x64 .bf16) (y : S1x128x3200.Idx) :
    ∃ pc ∈ (runC_at m c t hc0 hc1 xs).1, y ∈ pc.1.set :=
  View.cover_of_tiledL (runC_at m c t hc0 hc1 xs).1 S1x128x3200.size (by sl_kernel_rfl) y
theorem scoverC_0 (c : Dev nD) (t : Fin cfg0.N) (hc0 : ¬cond0_0 (grid0.coords t)) (hc1 : cond0_1 (grid0.coords t)) (xs : Vec F S3200x1 .f32 × Vec F S3200x1 .f32 × Vec F S3200x128 .f32 × Vec F S3200x64 .bf16) (y : S3200x1.Idx) :
    ∃ pc ∈ (runC_at m c t hc0 hc1 xs).2.1, y ∈ pc.1.set :=
  View.cover_of_tiledL (runC_at m c t hc0 hc1 xs).2.1 S3200x1.size (by sl_kernel_rfl) y
theorem scoverC_1 (c : Dev nD) (t : Fin cfg0.N) (hc0 : ¬cond0_0 (grid0.coords t)) (hc1 : cond0_1 (grid0.coords t)) (xs : Vec F S3200x1 .f32 × Vec F S3200x1 .f32 × Vec F S3200x128 .f32 × Vec F S3200x64 .bf16) (y : S3200x1.Idx) :
    ∃ pc ∈ (runC_at m c t hc0 hc1 xs).2.2.1, y ∈ pc.1.set :=
  View.cover_of_tiledL (runC_at m c t hc0 hc1 xs).2.2.1 S3200x1.size (by sl_kernel_rfl) y
theorem scoverC_2 (c : Dev nD) (t : Fin cfg0.N) (hc0 : ¬cond0_0 (grid0.coords t)) (hc1 : cond0_1 (grid0.coords t)) (xs : Vec F S3200x1 .f32 × Vec F S3200x1 .f32 × Vec F S3200x128 .f32 × Vec F S3200x64 .bf16) (y : S3200x128.Idx) :
    ∃ pc ∈ (runC_at m c t hc0 hc1 xs).2.2.2.1, y ∈ pc.1.set :=
  View.cover_of_tiledL (runC_at m c t hc0 hc1 xs).2.2.2.1 S3200x128.size (by sl_kernel_rfl) y

end Cert.Kernel.Hand

end
-- ==== Proof.K.Body.lean ====
/- The body obligation of the fused attention kernel, for any float instance: at every grid point the closed forms of the two
   branch conditions say which of the three cases the point is in, the invariant hands the run the four scratch buffers at
   what the point before left (at anything before the first point), every input window's buffer holds its block, and the
   run's pieces, which cover each buffer it stores into, give the buffers back at the contents the proof data name. -/
import proofs.«404800_j8830452761398_3_alg».proof.Proof.K.Covers
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  have hN : t.val < 40 := lt_of_lt_of_eq t.isLt (show cfg0.N = 40 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  by_cases h0 : t.val % 5 = 0
  · have h1 : ¬t.val % 5 = 4 := by omega
    rw [Dat.leavesExact_idle (dats m 0 c) 11 t (idleAt0_11 t (fun h => h1 ((hcond0_1 t).mp h))) (noFlush0_11 t (fun h => h1 ((hcond0_1 t).mp h)))]
    rw [scAt0_A m c t h0 h1]
    unfold soutA; dsimp only
    by_cases hz : t.val = 0
    · rw [PhiS_castSucc m c t, PhiS_zero m c _ _ hz, PhiA0_eq]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runA_at m c t ((hcond0_0 t).mpr h0) (fun h => h1 ((hcond0_1 t).mp h))).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      isplitl [HS2]; · iexact HS2
      isplitl [HS3]; · iexact HS3
      iintro ⟨H0, H1, H2, H3, H4, H5, H6, H7, H8, H9, H10, H11, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scoverA_0 m c t _ _)
          isplitl [HS1]
          · unfold owns; iexists _; isplitr
            swap; · iexact HS1
            ipureintro; exact View.read_writes_of_cover _ _ _ _ _ (scoverA_1 m c t _ _)
          isplitl [HS2]
          · unfold owns; iexists _; isplitr
            swap; · iexact HS2
            ipureintro; exact View.read_writes_of_cover _ _ _ _ _ (scoverA_2 m c t _ _)
          unfold owns; iexists _; isplitr
          swap; · iexact HS3
          ipureintro; exact View.read_writes_of_cover _ _ _ _ _ (scoverA_3 m c t _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11
    · rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runA_at m c t ((hcond0_0 t).mpr h0) (fun h => h1 ((hcond0_1 t).mp h))).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, H8, H9, H10, H11, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scoverA_0 m c t _ _)
          isplitl [HS1]
          · unfold owns; iexists _; isplitr
            swap; · iexact HS1
            ipureintro; exact View.read_writes_of_cover _ _ _ _ _ (scoverA_1 m c t _ _)
          isplitl [HS2]
          · unfold owns; iexists _; isplitr
            swap; · iexact HS2
            ipureintro; exact View.read_writes_of_cover _ _ _ _ _ (scoverA_2 m c t _ _)
          unfold owns; iexists _; isplitr
          swap; · iexact HS3
          ipureintro; exact View.read_writes_of_cover _ _ _ _ _ (scoverA_3 m c t _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11
  · have hz : t.val ≠ 0 := fun hz => h0 (by rw [hz])
    by_cases h1 : t.val % 5 = 4
    · rw [show (dats m 0 c).leavesExact 11 t = owns (c : Thread nD τ) (ms0_11 t) fullShare ((dats m 0 c).after 11 t) from by
        unfold Dat.leavesExact; rw [liveAt0_11 t ((hcond0_1 t).mpr h1)], after0_11]
      rw [scAt0_C m c t h0 h1, outAt0_C m c t h0 h1]
      unfold soutC outC; dsimp only
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runC_at m c t (fun h => h0 ((hcond0_0 t).mp h)) ((hcond0_1 t).mpr h1) (scAt0 m c (t.val - 1) (Nat.lt_of_le_of_lt (Nat.sub_le _ _) t.isLt))).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      isplitl [HS1]; · iexact HS1
      isplitl [HS2]; · iexact HS2
      isplitl [HS3]; · iexact HS3
      iintro ⟨H0, H1, H2, H3, H4, H5, H6, H7, H8, H9, H10, ⟨%e11, H11⟩, ⟨%es0, HS0⟩, ⟨%es1, HS1⟩, ⟨%es2, HS2⟩, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scoverC_0 m c t _ _ _)
          isplitl [HS1]
          · unfold owns; iexists _; isplitr
            swap; · iexact HS1
            ipureintro; exact View.read_writes_of_cover _ _ _ _ _ (scoverC_1 m c t _ _ _)
          isplitl [HS2]
          · unfold owns; iexists _; isplitr
            swap; · iexact HS2
            ipureintro; exact View.read_writes_of_cover _ _ _ _ _ (scoverC_2 m c t _ _ _)
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (coverC_11 m c t _ _ _)
    · rw [Dat.leavesExact_idle (dats m 0 c) 11 t (idleAt0_11 t (fun h => h1 ((hcond0_1 t).mp h))) (noFlush0_11 t (fun h => h1 ((hcond0_1 t).mp h)))]
      rw [scAt0_B m c t h0 h1]
      unfold soutB; dsimp only
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runB_at m c t (fun h => h0 ((hcond0_0 t).mp h)) (fun h => h1 ((hcond0_1 t).mp h)) (scAt0 m c (t.val - 1) (Nat.lt_of_le_of_lt (Nat.sub_le _ _) t.isLt))).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      isplitl [HS2]; · iexact HS2
      isplitl [HS3]; · iexact HS3
      iintro ⟨H0, H1, H2, H3, H4, H5, H6, H7, H8, H9, H10, H11, ⟨%es0, HS0⟩, ⟨%es1, HS1⟩, ⟨%es2, HS2⟩, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scoverB_0 m c t _ _ _)
          isplitl [HS1]
          · unfold owns; iexists _; isplitr
            swap; · iexact HS1
            ipureintro; exact View.read_writes_of_cover _ _ _ _ _ (scoverB_1 m c t _ _ _)
          isplitl [HS2]
          · unfold owns; iexists _; isplitr
            swap; · iexact HS2
            ipureintro; exact View.read_writes_of_cover _ _ _ _ _ (scoverB_2 m c t _ _ _)
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the scratch's named contents are forgotten. -/
theorem hout (c : Dev nD) : (dats m 0 c).Φ (Fin.last cfg0.N) ⊢ Pipeline.ΦA spec0 c := by
  have hne : (Fin.last cfg0.N).val ≠ 0 := by rw [Fin.val_last]; have : cfg0.N = 40 := N_0; omega
  rw [show (dats m 0 c).Φ (Fin.last cfg0.N) = PhiS m c (Fin.last cfg0.N).val (Nat.le_of_lt_succ (Fin.last cfg0.N).isLt) from rfl,
    PhiS_pos m c _ _ hne, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

end Cert.Kernel.Hand

end
-- ==== Proof.K.Share.lean ====
/- The image array is handed to the kernel through two windows, the query tile's and the key tile's: the buffers behind the
   windows' arrays, each whole, are the windows' arrays at their shares — the image array's two halves — and back. -/
import proofs.«404800_j8830452761398_3_alg».proof.Proof.K.Outs
import Idealize.ShloMosaic.Lib.Pipeline.Launch
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the twelve windows' arrays, at contents `Vf`, are the twelve arrays at the proof data's shares
    at contents `Fw`, where `Fw` reads `Vf` at each window's array; and back. -/
theorem arrays_iff (c : Dev nD) (Vf : (b : Ref sig .tc) → Buf (Elt F) ((c.tc : Thread nD τ).loc b))
    (Fw : (w : Fin cfg0.W) → Buf (Elt F) ((cfg0.win w).arr.view.loc (c.tc : Thread nD τ)))
    (hF : ∀ w, Fw w = Vf (Pipeline.arrRef spec0 w)) :
    (Pipeline.arrBufs spec0 c Vf : sProp 𝕄) ⊣⊢ (dats m 0 c).arrays Fw := by
  have himg : (Finset.univ.image (Pipeline.arrRef spec0)) = [main_v0, main_v2, main_v7, main_v8, main_v4, main_v9, main_v10, main_v6, main_v11, main_v12, main_v13].toFinset := by decide
  have hL : (Pipeline.arrBufs spec0 c Vf : sProp 𝕄)
      = iprop(((c.tc : Thread nD τ).loc main_v0 ↦{fullShare} Vf main_v0)
        ∗ ((c.tc : Thread nD τ).loc main_v2 ↦{fullShare} Vf main_v2)
        ∗ ((c.tc : Thread nD τ).loc main_v7 ↦{fullShare} Vf main_v7)
        ∗ ((c.tc : Thread nD τ).loc main_v8 ↦{fullShare} Vf main_v8)
        ∗ ((c.tc : Thread nD τ).loc main_v4 ↦{fullShare} Vf main_v4)
        ∗ ((c.tc : Thread nD τ).loc main_v9 ↦{fullShare} Vf main_v9)
        ∗ ((c.tc : Thread nD τ).loc main_v10 ↦{fullShare} Vf main_v10)
        ∗ ((c.tc : Thread nD τ).loc main_v6 ↦{fullShare} Vf main_v6)
        ∗ ((c.tc : Thread nD τ).loc main_v11 ↦{fullShare} Vf main_v11)
        ∗ ((c.tc : Thread nD τ).loc main_v12 ↦{fullShare} Vf main_v12)
        ∗ ((c.tc : Thread nD τ).loc main_v13 ↦{fullShare} Vf main_v13)) :=
    bigSep_eq_bigSepL_of_eq [main_v0, main_v2, main_v7, main_v8, main_v4, main_v9, main_v10, main_v6, main_v11, main_v12, main_v13] himg (by decide) _
  rw [hL]
  unfold Dat.arrays
  rw [bigSep_W0]
  have hq0 : (dats m 0 c).share 0 = fullShare.left := by unfold Dat.share; rfl
  have hq1 : (dats m 0 c).share 1 = fullShare.right := by unfold Dat.share; rfl
  have hq2 : (dats m 0 c).share 2 = fullShare := by unfold Dat.share; rfl
  have hq3 : (dats m 0 c).share 3 = fullShare := by unfold Dat.share; rfl
  have hq4 : (dats m 0 c).share 4 = fullShare := by unfold Dat.share; rfl
  have hq5 : (dats m 0 c).share 5 = fullShare := by unfold Dat.share; rfl
  have hq6 : (dats m 0 c).share 6 = fullShare := by unfold Dat.share; rfl
  have hq7 : (dats m 0 c).share 7 = fullShare := by unfold Dat.share; rfl
  have hq8 : (dats m 0 c).share 8 = fullShare := by unfold Dat.share; rfl
  have hq9 : (dats m 0 c).share 9 = fullShare := by unfold Dat.share; rfl
  have hq10 : (dats m 0 c).share 10 = fullShare := by unfold Dat.share; rfl
  have hq11 : (dats m 0 c).share 11 = fullShare := by unfold Dat.share; rfl
  simp only [View.set_whole, hq0, hq1, hq2, hq3, hq4, hq5, hq6, hq7, hq8, hq9, hq10, hq11, hF]
  have hsh : (((c.tc : Thread nD τ).loc main_v0 ↦{fullShare} Vf main_v0) : sProp 𝕄) ⊣⊢ iprop(((c.tc : Thread nD τ).loc main_v0 ↦{fullShare.left} Vf main_v0) ∗ ((c.tc : Thread nD τ).loc main_v0 ↦{fullShare.right} Vf main_v0)) :=
    pointsTo_share (PosShare.mem_left_op_right fullShare)
  have hsplit := hsh.1
  have hjoin := hsh.2
  refine ⟨?_, ?_⟩
  · iintro ⟨H0, H2, H7, H8, H4, H9, H10, H6, H11, H12, H13⟩
    ihave Hh := hsplit $$ H0
    icases Hh with ⟨Hl, Hr⟩
    isplitl [Hl]; · iexact Hl
    isplitl [Hr]; · iexact Hr
    isplitl [H2]; · iexact H2
    isplitl [H7]; · iexact H7
    isplitl [H8]; · iexact H8
    isplitl [H4]; · iexact H4
    isplitl [H9]; · iexact H9
    isplitl [H10]; · iexact H10
    isplitl [H6]; · iexact H6
    isplitl [H11]; · iexact H11
    isplitl [H12]; · iexact H12
    iexact H13
  · iintro ⟨Hl, Hr, H2, H7, H8, H4, H9, H10, H6, H11, H12, H13⟩
    isplitl [Hl Hr]
    · iapply hjoin
      isplitl [Hl]; · iexact Hl
      iexact Hr
    isplitl [H2]; · iexact H2
    isplitl [H7]; · iexact H7
    isplitl [H8]; · iexact H8
    isplitl [H4]; · iexact H4
    isplitl [H9]; · iexact H9
    isplitl [H10]; · iexact H10
    isplitl [H6]; · iexact H6
    isplitl [H11]; · iexact H11
    isplitl [H12]; · iexact H12
    iexact H13

end Cert.Kernel.Hand

end
-- ==== Proof.K.Tail.lean ====
/- The host line after the region, for any float instance. The region leaves the result array at what the write-backs made
   of it and every other buffer as it found it; the one line after it reshapes the result array into the returned image. It
   runs holding every unscoped buffer whole, so the image array's two halves are joined before it and split again after. -/
import proofs.«404800_j8830452761398_3_alg».proof.Proof.K.Share
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is left: the result array at what the write-backs made of it, every other
    buffer as the region found it. -/
def W0 (c : Dev nD) : Valuation τ sig (Elt F) :=
  Function.update (V0 m c) (Proc.devRef .tc main_v13) ((dats m 0 c).arrAt 11 cfg0.N)

/-- And after the host line that follows the region. -/
def W1 (c : Dev nD) : Valuation τ sig (Elt F) := StableHlo.after hostOps1 (W0 m c)

/-- Every window's array after the run is what `W0` holds at it: an input's as the region found it, the output's by definition. -/
theorem arrAt_W0 (c : Dev nD) (w : Fin cfg0.W) :
    (dats m 0 c).arrAt w cfg0.N = W0 m c (Proc.devRef .tc (Pipeline.arrRef spec0 w)) := by
  match w with
  | ⟨0, _⟩ =>
    show (dats m 0 c).arrAt 0 cfg0.N = W0 m c (Proc.devRef .tc (Pipeline.arrRef spec0 0))
    rw [(dats m 0 c).arrAt_in 0 rfl _, A_eq]; unfold W0
    exact (Function.update_of_ne (StableHlo.devRef_ne_of_ne (by decide)) _ _).symm
  | ⟨1, _⟩ =>
    show (dats m 0 c).arrAt 1 cfg0.N = W0 m c (Proc.devRef .tc (Pipeline.arrRef spec0 1))
    rw [(dats m 0 c).arrAt_in 1 rfl _, A_eq]; unfold W0
    exact (Function.update_of_ne (StableHlo.devRef_ne_of_ne (by decide)) _ _).symm
  | ⟨2, _⟩ =>
    show (dats m 0 c).arrAt 2 cfg0.N = W0 m c (Proc.devRef .tc (Pipeline.arrRef spec0 2))
    rw [(dats m 0 c).arrAt_in 2 rfl _, A_eq]; unfold W0
    exact (Function.update_of_ne (StableHlo.devRef_ne_of_ne (by decide)) _ _).symm
  | ⟨3, _⟩ =>
    show (dats m 0 c).arrAt 3 cfg0.N = W0 m c (Proc.devRef .tc (Pipeline.arrRef spec0 3))
    rw [(dats m 0 c).arrAt_in 3 rfl _, A_eq]; unfold W0
    exact (Function.update_of_ne (StableHlo.devRef_ne_of_ne (by decide)) _ _).symm
  | ⟨4, _⟩ =>
    show (dats m 0 c).arrAt 4 cfg0.N = W0 m c (Proc.devRef .tc (Pipeline.arrRef spec0 4))
    rw [(dats m 0 c).arrAt_in 4 rfl _, A_eq]; unfold W0
    exact (Function.update_of_ne (StableHlo.devRef_ne_of_ne (by decide)) _ _).symm
  | ⟨5, _⟩ =>
    show (dats m 0 c).arrAt 5 cfg0.N = W0 m c (Proc.devRef .tc (Pipeline.arrRef spec0 5))
    rw [(dats m 0 c).arrAt_in 5 rfl _, A_eq]; unfold W0
    exact (Function.update_of_ne (StableHlo.devRef_ne_of_ne (by decide)) _ _).symm
  | ⟨6, _⟩ =>
    show (dats m 0 c).arrAt 6 cfg0.N = W0 m c (Proc.devRef .tc (Pipeline.arrRef spec0 6))
    rw [(dats m 0 c).arrAt_in 6 rfl _, A_eq]; unfold W0
    exact (Function.update_of_ne (StableHlo.devRef_ne_of_ne (by decide)) _ _).symm
  | ⟨7, _⟩ =>
    show (dats m 0 c).arrAt 7 cfg0.N = W0 m c (Proc.devRef .tc (Pipeline.arrRef spec0 7))
    rw [(dats m 0 c).arrAt_in 7 rfl _, A_eq]; unfold W0
    exact (Function.update_of_ne (StableHlo.devRef_ne_of_ne (by decide)) _ _).symm
  | ⟨8, _⟩ =>
    show (dats m 0 c).arrAt 8 cfg0.N = W0 m c (Proc.devRef .tc (Pipeline.arrRef spec0 8))
    rw [(dats m 0 c).arrAt_in 8 rfl _, A_eq]; unfold W0
    exact (Function.update_of_ne (StableHlo.devRef_ne_of_ne (by decide)) _ _).symm
  | ⟨9, _⟩ =>
    show (dats m 0 c).arrAt 9 cfg0.N = W0 m c (Proc.devRef .tc (Pipeline.arrRef spec0 9))
    rw [(dats m 0 c).arrAt_in 9 rfl _, A_eq]; unfold W0
    exact (Function.update_of_ne (StableHlo.devRef_ne_of_ne (by decide)) _ _).symm
  | ⟨10, _⟩ =>
    show (dats m 0 c).arrAt 10 cfg0.N = W0 m c (Proc.devRef .tc (Pipeline.arrRef spec0 10))
    rw [(dats m 0 c).arrAt_in 10 rfl _, A_eq]; unfold W0
    exact (Function.update_of_ne (StableHlo.devRef_ne_of_ne (by decide)) _ _).symm
  | ⟨11, _⟩ =>
    show (dats m 0 c).arrAt 11 cfg0.N = W0 m c (Proc.devRef .tc main_v13)
    unfold W0; exact (Function.update_self (Proc.devRef (τ := τ) .tc main_v13) _ (V0 m c)).symm

/-- The line after the region writes the returned image only: every other buffer is as the region left it. -/
theorem W1_keep (c : Dev nD) (b : Ref sig .tc) (hb : b ≠ main_v14) :
    W1 m c (Proc.devRef .tc b) = W0 m c (Proc.devRef .tc b) := by
  unfold W1
  refine StableHlo.after_of_forall_not_mem (b := Proc.devRef .tc b) _ _ (List.forall_iff_forall_mem.mp ?_)
  simp only [hostOps1, List.Forall, StableHlo.reshape_writes, Finset.mem_singleton]
  exact StableHlo.devRef_ne_of_ne hb

/-- The line after the region writes no window's array. -/
theorem W1_arr (c : Dev nD) (w : Fin cfg0.W) :
    W1 m c (Proc.devRef .tc (Pipeline.arrRef spec0 w)) = W0 m c (Proc.devRef .tc (Pipeline.arrRef spec0 w)) := by
  match w with
  | ⟨0, _⟩ =>
    show W1 m c (Proc.devRef .tc (Pipeline.arrRef spec0 0)) = W0 m c (Proc.devRef .tc (Pipeline.arrRef spec0 0))
    exact W1_keep m c _ (by decide)
  | ⟨1, _⟩ =>
    show W1 m c (Proc.devRef .tc (Pipeline.arrRef spec0 1)) = W0 m c (Proc.devRef .tc (Pipeline.arrRef spec0 1))
    exact W1_keep m c _ (by decide)
  | ⟨2, _⟩ =>
    show W1 m c (Proc.devRef .tc (Pipeline.arrRef spec0 2)) = W0 m c (Proc.devRef .tc (Pipeline.arrRef spec0 2))
    exact W1_keep m c _ (by decide)
  | ⟨3, _⟩ =>
    show W1 m c (Proc.devRef .tc (Pipeline.arrRef spec0 3)) = W0 m c (Proc.devRef .tc (Pipeline.arrRef spec0 3))
    exact W1_keep m c _ (by decide)
  | ⟨4, _⟩ =>
    show W1 m c (Proc.devRef .tc (Pipeline.arrRef spec0 4)) = W0 m c (Proc.devRef .tc (Pipeline.arrRef spec0 4))
    exact W1_keep m c _ (by decide)
  | ⟨5, _⟩ =>
    show W1 m c (Proc.devRef .tc (Pipeline.arrRef spec0 5)) = W0 m c (Proc.devRef .tc (Pipeline.arrRef spec0 5))
    exact W1_keep m c _ (by decide)
  | ⟨6, _⟩ =>
    show W1 m c (Proc.devRef .tc (Pipeline.arrRef spec0 6)) = W0 m c (Proc.devRef .tc (Pipeline.arrRef spec0 6))
    exact W1_keep m c _ (by decide)
  | ⟨7, _⟩ =>
    show W1 m c (Proc.devRef .tc (Pipeline.arrRef spec0 7)) = W0 m c (Proc.devRef .tc (Pipeline.arrRef spec0 7))
    exact W1_keep m c _ (by decide)
  | ⟨8, _⟩ =>
    show W1 m c (Proc.devRef .tc (Pipeline.arrRef spec0 8)) = W0 m c (Proc.devRef .tc (Pipeline.arrRef spec0 8))
    exact W1_keep m c _ (by decide)
  | ⟨9, _⟩ =>
    show W1 m c (Proc.devRef .tc (Pipeline.arrRef spec0 9)) = W0 m c (Proc.devRef .tc (Pipeline.arrRef spec0 9))
    exact W1_keep m c _ (by decide)
  | ⟨10, _⟩ =>
    show W1 m c (Proc.devRef .tc (Pipeline.arrRef spec0 10)) = W0 m c (Proc.devRef .tc (Pipeline.arrRef spec0 10))
    exact W1_keep m c _ (by decide)
  | ⟨11, _⟩ =>
    show W1 m c (Proc.devRef .tc (Pipeline.arrRef spec0 11)) = W0 m c (Proc.devRef .tc (Pipeline.arrRef spec0 11))
    exact W1_keep m c _ (by decide)

set_option backward.isDefEq.respectTransparency.types false in
/-- The line after the region, run from the region's exit — the windows' arrays at their shares, the other unscoped buffers
    whole — hands back the arrays and the other buffers at the contents after the line. -/
theorem htail (c : Dev nD) (Q' : PUnit → sProp 𝕄) :
    iprop((iprop((dats m 0 c).arrays ((dats m 0 c).arrAt · cfg0.N)
              ∗ Pipeline.unscopedRest (Ix := Unit) (Name := ℕ) (U := UR sig nD τ) (Lvl := ℕ) spec0 c (fun b => W1 m c (Proc.devRef .tc b))) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (fun q => (cfgs q).toPCfg (Val := Elt F)) (defs₀ (F := F))) (Variants.lift Variants.none) (c.tc : Thread nD τ) none) Set.univ
          (Pipeline.chain [StableHlo.seq (hostOps1 (F := F))]) Q' := by
  classical
  have hA0 := arrays_iff m c (fun b => W0 m c (Proc.devRef .tc b)) _ (arrAt_W0 m c)
  have hA1 := arrays_iff m c (fun b => W1 m c (Proc.devRef .tc b)) _ (fun w => (arrAt_W0 m c w).trans (W1_arr m c w).symm)
  have hR0 : (Pipeline.unscopedRest (Ix := Unit) (Name := ℕ) (U := UR sig nD τ) (Lvl := ℕ) spec0 c (V m c) : sProp 𝕄)
      = Pipeline.unscopedRest spec0 c (fun b => W0 m c (Proc.devRef .tc b)) := by
    unfold Pipeline.unscopedRest
    refine bigSep_congr fun b hb => ?_
    have hne : b ≠ main_v13 := fun e =>
      (Finset.mem_sdiff.mp hb).2 (Finset.mem_image.mpr ⟨11, Finset.mem_univ _, e.symm⟩)
    have hv : W0 m c (Proc.devRef .tc b) = V m c b := by
      unfold W0; exact Function.update_of_ne (StableHlo.devRef_ne_of_ne hne) _ _
    show (((c.tc : Thread nD τ).loc b) ↦{fullShare} V m c b : sProp 𝕄) = (((c.tc : Thread nD τ).loc b) ↦{fullShare} W0 m c (Proc.devRef .tc b))
    rw [hv]
  have hS0 := Pipeline.unscopedBufs_split₀ (Ix := Unit) (Name := ℕ) (U := UR sig nD τ) (Lvl := ℕ) cfgs 0 winFacts₀0.arr_unscoped c (fun b => W0 m c (Proc.devRef .tc b))
  have hS1 := Pipeline.unscopedBufs_split₀ (Ix := Unit) (Name := ℕ) (U := UR sig nD τ) (Lvl := ℕ) cfgs 0 winFacts₀0.arr_unscoped c (fun b => W1 m c (Proc.devRef .tc b))
  have hH0 : (unscopedBufs (Ix := Unit) (Name := ℕ) (U := UR sig nD τ) (Lvl := ℕ) c (fun b => W0 m c (Proc.devRef .tc b)) : sProp 𝕄)
      = StableHlo.held (c.tc : Thread nD τ) (Pipeline.ucRefs τ sig) (W0 m c) :=
    Pipeline.unscopedBufs_held (Ix := Unit) (Name := ℕ) (U := UR sig nD τ) (Lvl := ℕ) c (W0 m c)
  have hH1 : (unscopedBufs (Ix := Unit) (Name := ℕ) (U := UR sig nD τ) (Lvl := ℕ) c (fun b => W1 m c (Proc.devRef .tc b)) : sProp 𝕄)
      = StableHlo.held (c.tc : Thread nD τ) (Pipeline.ucRefs τ sig) (W1 m c) :=
    Pipeline.unscopedBufs_held (Ix := Unit) (Name := ℕ) (U := UR sig nD τ) (Lvl := ℕ) c (W1 m c)
  have hsub : ∀ ops ∈ ([hostOps1] : List (List (HloOp τ sig (Elt F)))), ∀ op ∈ ops, op.bufs ⊆ Pipeline.ucRefs τ sig := by
    intro ops hops op hop
    obtain rfl := List.mem_singleton.mp hops
    exact Pipeline.sub_ucRefs op ((List.forall_iff_forall_mem.mp hostOps1_sub) op hop)
  have hfresh : ∀ ops ∈ ([hostOps1] : List (List (HloOp τ sig (Elt F)))), ∀ op ∈ ops, op.fresh = ∅ := by
    intro ops hops op hop
    obtain rfl := List.mem_singleton.mp hops
    exact (List.forall_iff_forall_mem.mp hostOps1_fresh) op hop
  have hflat : StableHlo.after ([hostOps1] : List (List (HloOp τ sig (Elt F)))).flatten (W0 m c) = W1 m c := by
    simp only [List.flatten_cons, List.flatten_nil, List.append_nil]; rfl
  have hrun := Pipeline.wp_seqs_then (Ix := Unit) (Name := ℕ) (U := UR sig nD τ) (Lvl := ℕ) (fun q => (cfgs q).toPCfg (Val := Elt F)) (defs₀ (F := F)) Variants.none c (Pipeline.ucRefs τ sig) [] (K := Q')
    [hostOps1] hsub hfresh (W0 m c)
  rw [hflat, ← hH0, ← hH1, Pipeline.chain_nil, wp_pure, hS0, hS1] at hrun
  simp only [List.map_cons, List.map_nil, List.append_nil] at hrun
  rw [hR0]
  iintro ⟨Hk, Hb, Ha, HZ⟩
  ihave Ha := hA0.2 $$ Ha
  iapply hrun $$ [Hb Ha HZ]
  · isplitl [Hb]
    · iexact Hb
    isplitl [Ha]
    · iexact Ha
    iexact HZ
  iintro ⟨Hb, Ha, HZ⟩
  ihave Ha := hA1.1 $$ Ha
  imodintro
  iapply Hk
  isplitl [Ha]
  · iexact Ha
  iexact HZ

end Cert.Kernel.Hand

end
-- ==== Proof.K.Launch.lean ====
/- The launch of the fused attention kernel, for any float instance: from any memory with zero counters every weakly fair
   execution of @main terminates, and in every final state each unscoped buffer that is no window's array holds what the host
   line after the region leaves in it — the arguments what they held at launch, the returned image the reshaped result array.
   The launch theorem is the library's for a region continued by host lines whose windows may share an array; the image
   array's buffer is split between the query window and the key window at entry and joined again for the line after. -/
import proofs.«404800_j8830452761398_3_alg».proof.Proof.K.Body
import proofs.«404800_j8830452761398_3_alg».proof.Proof.K.Tail
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (Prefetch)

/-- What the run ends with: every unscoped buffer that is no window's array at the contents after the last host line. -/
def RunPost (r : PUnit × MemSt nD τ sig (Elt F)) : Prop :=
  ∀ c : Dev nD, ∀ b ∈ Pipeline.restRefsP sig Prefetch.none spec0, r.2.mem ((c.tc : Thread nD τ).loc b) = W1 m c (Proc.devRef .tc b)

set_option backward.isDefEq.respectTransparency.types false in
theorem run_main : θ_run defs (onTc (τ := τ) (main (F := F))) ⟨m, fun _ => 0, ρ⟩ (RunPost m) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (arrays_iff m c (V m c) _ (fun w => A_eq m c w)).1)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Prefetch.none spec0 c (V m c))
    (Z' := fun c => Pipeline.unscopedRestP (Ix := Unit) (Name := ℕ) (U := UR sig nD τ) (Lvl := ℕ) Prefetch.none spec0 c (fun b => W1 m c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => by
      rw [Pipeline.unscopedRestP_none, Pipeline.unscopedRestP_none]
      exact htail m c Q')
    (QY := fun c s => ∀ b ∈ Pipeline.restRefsP sig Prefetch.none spec0, s.mem ((c.tc : Thread nD τ).loc b) = W1 m c (Proc.devRef .tc b))
    (hY := fun c s' => by
      iintro ⟨-, HU, HSI⟩
      unfold Pipeline.unscopedRestP
      imodintro
      iapply (pointsTo_read_all (Pipeline.restRefsP sig Prefetch.none spec0) (fun b => (c.tc : Thread nD τ).loc b) (fun b => W1 m c (Proc.devRef .tc b)) s')
      isplitl [HU] <;> iassumption)
    (hQ := fun s h c => (h c).2.2)

end Cert.Kernel.Hand

end
-- ==== Proof.K.Post.lean ====
/- What the run's post says of the arguments and of the returned image, for any float instance: no host line and no
   write-back touches an argument, and the last host line writes the returned image as the reshaped result array. -/
import proofs.«404800_j8830452761398_3_alg».proof.Proof.K.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (Prefetch)

theorem mem_rest_arg0 : main_arg0 ∈ Pipeline.restRefsP sig Prefetch.none spec0 := by decide
theorem mem_rest_arg1 : main_arg1 ∈ Pipeline.restRefsP sig Prefetch.none spec0 := by decide
theorem mem_rest_arg2 : main_arg2 ∈ Pipeline.restRefsP sig Prefetch.none spec0 := by decide
theorem mem_rest_arg3 : main_arg3 ∈ Pipeline.restRefsP sig Prefetch.none spec0 := by decide
theorem mem_rest_arg4 : main_arg4 ∈ Pipeline.restRefsP sig Prefetch.none spec0 := by decide
theorem mem_rest_arg5 : main_arg5 ∈ Pipeline.restRefsP sig Prefetch.none spec0 := by decide
theorem mem_rest_arg6 : main_arg6 ∈ Pipeline.restRefsP sig Prefetch.none spec0 := by decide
theorem mem_rest_arg7 : main_arg7 ∈ Pipeline.restRefsP sig Prefetch.none spec0 := by decide
theorem mem_rest_arg8 : main_arg8 ∈ Pipeline.restRefsP sig Prefetch.none spec0 := by decide
theorem mem_rest_arg9 : main_arg9 ∈ Pipeline.restRefsP sig Prefetch.none spec0 := by decide
theorem mem_rest_v14 : main_v14 ∈ Pipeline.restRefsP sig Prefetch.none spec0 := by decide

/-- Argument 0 is written by no host line and is no window's result: it ends as launched. -/
theorem W1_arg0 (c : Dev nD) : W1 m c (Proc.devRef .tc main_arg0) = m ((c.tc : Thread nD τ).loc main_arg0) := by
  unfold W1
  rw [StableHlo.after_of_forall_not_mem (b := Proc.devRef .tc main_arg0) _ _ (List.forall_iff_forall_mem.mp (by
    simp only [hostOps1, List.Forall, StableHlo.reshape_writes, Finset.mem_singleton]
    exact StableHlo.devRef_ne_of_ne (by decide)))]
  unfold W0
  rw [Function.update_of_ne (StableHlo.devRef_ne_of_ne (by decide))]
  exact V_main_arg0 m c
/-- Argument 1 is written by no host line and is no window's result: it ends as launched. -/
theorem W1_arg1 (c : Dev nD) : W1 m c (Proc.devRef .tc main_arg1) = m ((c.tc : Thread nD τ).loc main_arg1) := by
  unfold W1
  rw [StableHlo.after_of_forall_not_mem (b := Proc.devRef .tc main_arg1) _ _ (List.forall_iff_forall_mem.mp (by
    simp only [hostOps1, List.Forall, StableHlo.reshape_writes, Finset.mem_singleton]
    exact StableHlo.devRef_ne_of_ne (by decide)))]
  unfold W0
  rw [Function.update_of_ne (StableHlo.devRef_ne_of_ne (by decide))]
  exact V_main_arg1 m c
/-- Argument 2 is written by no host line and is no window's result: it ends as launched. -/
theorem W1_arg2 (c : Dev nD) : W1 m c (Proc.devRef .tc main_arg2) = m ((c.tc : Thread nD τ).loc main_arg2) := by
  unfold W1
  rw [StableHlo.after_of_forall_not_mem (b := Proc.devRef .tc main_arg2) _ _ (List.forall_iff_forall_mem.mp (by
    simp only [hostOps1, List.Forall, StableHlo.reshape_writes, Finset.mem_singleton]
    exact StableHlo.devRef_ne_of_ne (by decide)))]
  unfold W0
  rw [Function.update_of_ne (StableHlo.devRef_ne_of_ne (by decide))]
  exact V_main_arg2 m c
/-- Argument 3 is written by no host line and is no window's result: it ends as launched. -/
theorem W1_arg3 (c : Dev nD) : W1 m c (Proc.devRef .tc main_arg3) = m ((c.tc : Thread nD τ).loc main_arg3) := by
  unfold W1
  rw [StableHlo.after_of_forall_not_mem (b := Proc.devRef .tc main_arg3) _ _ (List.forall_iff_forall_mem.mp (by
    simp only [hostOps1, List.Forall, StableHlo.reshape_writes, Finset.mem_singleton]
    exact StableHlo.devRef_ne_of_ne (by decide)))]
  unfold W0
  rw [Function.update_of_ne (StableHlo.devRef_ne_of_ne (by decide))]
  exact V_main_arg3 m c
/-- Argument 4 is written by no host line and is no window's result: it ends as launched. -/
theorem W1_arg4 (c : Dev nD) : W1 m c (Proc.devRef .tc main_arg4) = m ((c.tc : Thread nD τ).loc main_arg4) := by
  unfold W1
  rw [StableHlo.after_of_forall_not_mem (b := Proc.devRef .tc main_arg4) _ _ (List.forall_iff_forall_mem.mp (by
    simp only [hostOps1, List.Forall, StableHlo.reshape_writes, Finset.mem_singleton]
    exact StableHlo.devRef_ne_of_ne (by decide)))]
  unfold W0
  rw [Function.update_of_ne (StableHlo.devRef_ne_of_ne (by decide))]
  exact V_main_arg4 m c
/-- Argument 5 is written by no host line and is no window's result: it ends as launched. -/
theorem W1_arg5 (c : Dev nD) : W1 m c (Proc.devRef .tc main_arg5) = m ((c.tc : Thread nD τ).loc main_arg5) := by
  unfold W1
  rw [StableHlo.after_of_forall_not_mem (b := Proc.devRef .tc main_arg5) _ _ (List.forall_iff_forall_mem.mp (by
    simp only [hostOps1, List.Forall, StableHlo.reshape_writes, Finset.mem_singleton]
    exact StableHlo.devRef_ne_of_ne (by decide)))]
  unfold W0
  rw [Function.update_of_ne (StableHlo.devRef_ne_of_ne (by decide))]
  exact V_main_arg5 m c
/-- Argument 6 is written by no host line and is no window's result: it ends as launched. -/
theorem W1_arg6 (c : Dev nD) : W1 m c (Proc.devRef .tc main_arg6) = m ((c.tc : Thread nD τ).loc main_arg6) := by
  unfold W1
  rw [StableHlo.after_of_forall_not_mem (b := Proc.devRef .tc main_arg6) _ _ (List.forall_iff_forall_mem.mp (by
    simp only [hostOps1, List.Forall, StableHlo.reshape_writes, Finset.mem_singleton]
    exact StableHlo.devRef_ne_of_ne (by decide)))]
  unfold W0
  rw [Function.update_of_ne (StableHlo.devRef_ne_of_ne (by decide))]
  exact V_main_arg6 m c
/-- Argument 7 is written by no host line and is no window's result: it ends as launched. -/
theorem W1_arg7 (c : Dev nD) : W1 m c (Proc.devRef .tc main_arg7) = m ((c.tc : Thread nD τ).loc main_arg7) := by
  unfold W1
  rw [StableHlo.after_of_forall_not_mem (b := Proc.devRef .tc main_arg7) _ _ (List.forall_iff_forall_mem.mp (by
    simp only [hostOps1, List.Forall, StableHlo.reshape_writes, Finset.mem_singleton]
    exact StableHlo.devRef_ne_of_ne (by decide)))]
  unfold W0
  rw [Function.update_of_ne (StableHlo.devRef_ne_of_ne (by decide))]
  exact V_main_arg7 m c
/-- Argument 8 is written by no host line and is no window's result: it ends as launched. -/
theorem W1_arg8 (c : Dev nD) : W1 m c (Proc.devRef .tc main_arg8) = m ((c.tc : Thread nD τ).loc main_arg8) := by
  unfold W1
  rw [StableHlo.after_of_forall_not_mem (b := Proc.devRef .tc main_arg8) _ _ (List.forall_iff_forall_mem.mp (by
    simp only [hostOps1, List.Forall, StableHlo.reshape_writes, Finset.mem_singleton]
    exact StableHlo.devRef_ne_of_ne (by decide)))]
  unfold W0
  rw [Function.update_of_ne (StableHlo.devRef_ne_of_ne (by decide))]
  exact V_main_arg8 m c
/-- Argument 9 is written by no host line and is no window's result: it ends as launched. -/
theorem W1_arg9 (c : Dev nD) : W1 m c (Proc.devRef .tc main_arg9) = m ((c.tc : Thread nD τ).loc main_arg9) := by
  unfold W1
  rw [StableHlo.after_of_forall_not_mem (b := Proc.devRef .tc main_arg9) _ _ (List.forall_iff_forall_mem.mp (by
    simp only [hostOps1, List.Forall, StableHlo.reshape_writes, Finset.mem_singleton]
    exact StableHlo.devRef_ne_of_ne (by decide)))]
  unfold W0
  rw [Function.update_of_ne (StableHlo.devRef_ne_of_ne (by decide))]
  exact V_main_arg9 m c

/-- The returned image is the result array reshaped. -/
theorem W1_out (c : Dev nD) :
    W1 m c (Proc.devRef .tc main_v14)
      = shapeCast S4x128x80x80 ((dats m 0 c).arrAt 11 cfg0.N : FVec F S4x128x6400 .f32) shapeCasts_S4x128x6400_S4x128x80x80 := by
  unfold W1
  show StableHlo.after hostOps1 (W0 m c) (Proc.devRef .tc main_v14) = _
  after_results
  unfold W0
  rw [Function.update_self]
  rfl

/-- THE FRAME: the program runs and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c main_arg0 mem_rest_arg0).trans (W1_arg0 m c), (h c main_arg1 mem_rest_arg1).trans (W1_arg1 m c), (h c main_arg2 mem_rest_arg2).trans (W1_arg2 m c), (h c main_arg3 mem_rest_arg3).trans (W1_arg3 m c), (h c main_arg4 mem_rest_arg4).trans (W1_arg4 m c), (h c main_arg5 mem_rest_arg5).trans (W1_arg5 m c), (h c main_arg6 mem_rest_arg6).trans (W1_arg6 m c), (h c main_arg7 mem_rest_arg7).trans (W1_arg7 m c), (h c main_arg8 mem_rest_arg8).trans (W1_arg8 m c), (h c main_arg9 mem_rest_arg9).trans (W1_arg9 m c)⟩) (run_main m ρ)

/-- The run with the returned image named. -/
theorem run_out : θ_run defs (onTc (τ := τ) (main (F := F))) ⟨m, fun _ => 0, ρ⟩ (fun r => ∀ c : Dev nD,
      r.2.mem ((c.tc : Thread nD τ).loc main_v14)
        = shapeCast S4x128x80x80 ((dats m 0 c).arrAt 11 cfg0.N : FVec F S4x128x6400 .f32) shapeCasts_S4x128x6400_S4x128x80x80
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c main_v14 mem_rest_v14).trans (W1_out m c), (h c main_arg0 mem_rest_arg0).trans (W1_arg0 m c), (h c main_arg1 mem_rest_arg1).trans (W1_arg1 m c), (h c main_arg2 mem_rest_arg2).trans (W1_arg2 m c), (h c main_arg3 mem_rest_arg3).trans (W1_arg3 m c), (h c main_arg4 mem_rest_arg4).trans (W1_arg4 m c), (h c main_arg5 mem_rest_arg5).trans (W1_arg5 m c), (h c main_arg6 mem_rest_arg6).trans (W1_arg6 m c), (h c main_arg7 mem_rest_arg7).trans (W1_arg7 m c), (h c main_arg8 mem_rest_arg8).trans (W1_arg8 m c), (h c main_arg9 mem_rest_arg9).trans (W1_arg9 m c)⟩) (run_main m ρ)

end Cert.Kernel.Hand

end
-- ==== Proof.KI.Base.lean ====
/- The launch-side vocabulary of the fused attention kernel, for any float instance: the arrays as the region finds
   them after the host lines that reshape and transpose the arguments, each window's block at a grid point, the two
   branch conditions of the body in closed form over the 40 points (the key-tile coordinate is the point modulo 5:
   the first tile resets the running maximum, sum and accumulator; the last tile divides and writes the block back),
   and the staging and scratch memrefs the body is called with. -/
import proofs.«404800_j8830452761398_3_alg».proof.Proof.Gen.KernelIdeal.Launch
import proofs.«404800_j8830452761398_3_alg».proof.Proof.Gen.KernelIdeal.Skeleton
import proofs.«404800_j8830452761398_3_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the thirteen host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines, the region, one more host line: it reduces to the region continued by that line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions over the grid -/

/-- The first `scf.if`: the key-tile coordinate is zero. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)

/-- The second `scf.if`: the key-tile coordinate is the last. -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
/-- Unless the key tile is the last the body stores nothing into the output window, and the pipeline does not write it back. -/
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel
theorem liveAt0_11 : ∀ t : Fin cfg0.N, cond0_1 (grid0.coords t) → cfg0.idle 11 (grid0.coords t) = false := by decide +kernel

/-! ## The memrefs the body is called with -/

/-- One staging buffer of the output window, through which its contents are stated. -/
abbrev VO0_11 : View sig .tc .vmem S1x128x3200 .f32 := (Memref.whole cc0_stg11_0 : Memref sig .tc .vmem S1x128x3200 .f32).view
abbrev ms0_0 (t : Fin cfg0.N) : Memref sig .tc .vmem S1x128x3200 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x1280 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x64 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128x3200 .f32 := win0_11.stage (cfg0.slots t 11)
abbrev hs0_11 (t : Fin cfg0.N) : (ms0_11 t).IsWhole := hstage0_11 ((cfg0.slots t 11).cast nbuf0_11)
/-- Scratch operand 0, a whole scoped buffer of the kernel's own, and the view its contents are stated through. -/
abbrev scM0_0 : Memref sig .tc .vmem S3200x1 .f32 := Memref.whole cc0_scratch0
abbrev VS0_0 : View sig .tc .vmem S3200x1 .f32 := scM0_0.view
/-- Scratch operand 1, a whole scoped buffer of the kernel's own, and the view its contents are stated through. -/
abbrev scM0_1 : Memref sig .tc .vmem S3200x1 .f32 := Memref.whole cc0_scratch1
abbrev VS0_1 : View sig .tc .vmem S3200x1 .f32 := scM0_1.view
/-- Scratch operand 2, a whole scoped buffer of the kernel's own, and the view its contents are stated through. -/
abbrev scM0_2 : Memref sig .tc .vmem S3200x128 .f32 := Memref.whole cc0_scratch2
abbrev VS0_2 : View sig .tc .vmem S3200x128 .f32 := scM0_2.view
/-- Scratch operand 3, a whole scoped buffer of the kernel's own, and the view its contents are stated through. -/
abbrev scM0_3 : Memref sig .tc .vmem S3200x64 .bf16 := Memref.whole cc0_scratch3
abbrev VS0_3 : View sig .tc .vmem S3200x64 .bf16 := scM0_3.view

/-- The class invariant with the four scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.KI.RunA.lean ====
/- The body of the fused attention kernel run symbolically in the case where the key tile is the first of its row of tiles (and not the last): the queries' projection is stored, the running maximum, sum and accumulator are reset and then updated with the tile. The pieces each buffer ends with are found by the run. -/
import proofs.«404800_j8830452761398_3_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case A (first `scf.if` taken, second not): on whole memrefs — the eleven inputs' at their contents, the output's at contents
    handed back untouched, the four scratch at anything — the body runs to the continuation holding the inputs and the output as
    they were and each scratch with its pieces written. -/
noncomputable def kernelRun0_A (c : Dev nD) (i : grid0.Coords) (arg3 : Memref sig .tc .vmem S1x128x3200 .f32) (harg3 : arg3.IsWhole) (arg4 : Memref sig .tc .vmem S1x128x1280 .f32) (harg4 : arg4.IsWhole) (arg5 : Memref sig .tc .vmem S128x64 .bf16) (harg5 : arg5.IsWhole) (arg6 : Memref sig .tc .vmem S1x64 .f32) (harg6 : arg6.IsWhole) (arg7 : Memref sig .tc .vmem S1x1 .f32) (harg7 : arg7.IsWhole) (arg8 : Memref sig .tc .vmem S128x64 .bf16) (harg8 : arg8.IsWhole) (arg9 : Memref sig .tc .vmem S1x64 .f32) (harg9 : arg9.IsWhole) (arg10 : Memref sig .tc .vmem S1x1 .f32) (harg10 : arg10.IsWhole) (arg11 : Memref sig .tc .vmem S128x128 .bf16) (harg11 : arg11.IsWhole) (arg12 : Memref sig .tc .vmem S1x128 .f32) (harg12 : arg12.IsWhole) (arg13 : Memref sig .tc .vmem S1x1 .f32) (harg13 : arg13.IsWhole) (arg14 : Memref sig .tc .vmem S1x128x3200 .f32) (harg14 : arg14.IsWhole) (arg15 : Memref sig .tc .vmem S3200x1 .f32) (harg15 : arg15.IsWhole) (arg16 : Memref sig .tc .vmem S3200x1 .f32) (harg16 : arg16.IsWhole) (arg17 : Memref sig .tc .vmem S3200x128 .f32) (harg17 : arg17.IsWhole) (arg18 : Memref sig .tc .vmem S3200x64 .bf16) (harg18 : arg18.IsWhole) (hc0 : cond0_0 i) (hc1 : ¬cond0_1 i)
    (x0 : Vec F S1x128x3200 .f32) (x1 : Vec F S1x128x1280 .f32) (x2 : Vec F S128x64 .bf16) (x3 : Vec F S1x64 .f32) (x4 : Vec F S1x1 .f32) (x5 : Vec F S128x64 .bf16) (x6 : Vec F S1x64 .f32) (x7 : Vec F S1x1 .f32) (x8 : Vec F S128x128 .bf16) (x9 : Vec F S1x128 .f32) (x10 : Vec F S1x1 .f32) :
    Σ' (LS0 : List (View.Piece (Elt F) S3200x1 .f32)) (LS1 : List (View.Piece (Elt F) S3200x1 .f32)) (LS2 : List (View.Piece (Elt F) S3200x128 .f32)), { LS3 : List (View.Piece (Elt F) S3200x64 .bf16) //
      ∀ (xi11 : Vec F S1x128x3200 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare xi11
            ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare xi11
                ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ (∃ f, arg18.view.loc (c : Thread nD τ) ↦[arg18.view.set]{fullShare} arg18.view.writes (Elt F) f LS3)) -∗ K ⟨⟩))
          ⊢ wp frame (wpE (defs₀ (F := F)) Variants.none c none) E (cc0__fused_attn_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun xi11 E K => ?run⟩
  case run =>
    simp only [cc0__fused_attn_kernel_eq_skeleton]; unfold cc0__fused_attn_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    obtain rfl := harg14.eq_unread hf11
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [HS0]; · iexists _; iexact HS0
    isplitl [HS1]; · iexists _; iexact HS1
    isplitl [HS2]; · iexists _; iexact HS2
    iexists _; iexact HS3

end Cert.KernelIdeal.Hand

end
-- ==== Proof.KI.RunB.lean ====
/- The body of the fused attention kernel run symbolically in the case where the key tile is neither the first nor the last of its row of tiles: the running maximum, sum and accumulator, found as the tile before left them, are updated with the tile; the stored queries' projection is only read. The pieces each buffer ends with are found by the run. -/
import proofs.«404800_j8830452761398_3_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case B (neither `scf.if` taken): the inputs at their contents, the output's buffer handed back untouched, the three
    running scratch at what the tile before left (`xs0`, `xs1`, `xs2`) and ending with their pieces written, the stored
    queries' projection (`xs3`) read and left as it was. -/
noncomputable def kernelRun0_B (c : Dev nD) (i : grid0.Coords) (arg3 : Memref sig .tc .vmem S1x128x3200 .f32) (harg3 : arg3.IsWhole) (arg4 : Memref sig .tc .vmem S1x128x1280 .f32) (harg4 : arg4.IsWhole) (arg5 : Memref sig .tc .vmem S128x64 .bf16) (harg5 : arg5.IsWhole) (arg6 : Memref sig .tc .vmem S1x64 .f32) (harg6 : arg6.IsWhole) (arg7 : Memref sig .tc .vmem S1x1 .f32) (harg7 : arg7.IsWhole) (arg8 : Memref sig .tc .vmem S128x64 .bf16) (harg8 : arg8.IsWhole) (arg9 : Memref sig .tc .vmem S1x64 .f32) (harg9 : arg9.IsWhole) (arg10 : Memref sig .tc .vmem S1x1 .f32) (harg10 : arg10.IsWhole) (arg11 : Memref sig .tc .vmem S128x128 .bf16) (harg11 : arg11.IsWhole) (arg12 : Memref sig .tc .vmem S1x128 .f32) (harg12 : arg12.IsWhole) (arg13 : Memref sig .tc .vmem S1x1 .f32) (harg13 : arg13.IsWhole) (arg14 : Memref sig .tc .vmem S1x128x3200 .f32) (harg14 : arg14.IsWhole) (arg15 : Memref sig .tc .vmem S3200x1 .f32) (harg15 : arg15.IsWhole) (arg16 : Memref sig .tc .vmem S3200x1 .f32) (harg16 : arg16.IsWhole) (arg17 : Memref sig .tc .vmem S3200x128 .f32) (harg17 : arg17.IsWhole) (arg18 : Memref sig .tc .vmem S3200x64 .bf16) (harg18 : arg18.IsWhole) (hc0 : ¬cond0_0 i) (hc1 : ¬cond0_1 i)
    (x0 : Vec F S1x128x3200 .f32) (x1 : Vec F S1x128x1280 .f32) (x2 : Vec F S128x64 .bf16) (x3 : Vec F S1x64 .f32) (x4 : Vec F S1x1 .f32) (x5 : Vec F S128x64 .bf16) (x6 : Vec F S1x64 .f32) (x7 : Vec F S1x1 .f32) (x8 : Vec F S128x128 .bf16) (x9 : Vec F S1x128 .f32) (x10 : Vec F S1x1 .f32) (xs0 : Vec F S3200x1 .f32) (xs1 : Vec F S3200x1 .f32) (xs2 : Vec F S3200x128 .f32) (xs3 : Vec F S3200x64 .bf16) :
    Σ' (LS0 : List (View.Piece (Elt F) S3200x1 .f32)) (LS1 : List (View.Piece (Elt F) S3200x1 .f32)), { LS2 : List (View.Piece (Elt F) S3200x128 .f32) //
      ∀ (xi11 : Vec F S1x128x3200 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare xi11
            ∗ owns (c : Thread nD τ) arg15 fullShare xs0 ∗ owns (c : Thread nD τ) arg16 fullShare xs1 ∗ owns (c : Thread nD τ) arg17 fullShare xs2 ∗ owns (c : Thread nD τ) arg18 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare xi11
                ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ owns (c : Thread nD τ) arg18 fullShare xs3) -∗ K ⟨⟩))
          ⊢ wp frame (wpE (defs₀ (F := F)) Variants.none c none) E (cc0__fused_attn_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun xi11 E K => ?run⟩
  case run =>
    simp only [cc0__fused_attn_kernel_eq_skeleton]; unfold cc0__fused_attn_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    obtain rfl := harg14.eq_unread hf11
    obtain rfl := harg15.eq_unread hfs0; obtain rfl := harg16.eq_unread hfs1; obtain rfl := harg17.eq_unread hfs2; obtain rfl := harg18.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [HS0]; · iexists _; iexact HS0
    isplitl [HS1]; · iexists _; iexact HS1
    isplitl [HS2]; · iexists _; iexact HS2
    iexists _; isplitr; · ipureintro; exact harg18.read_unread _
    iexact HS3

end Cert.KernelIdeal.Hand

end
-- ==== Proof.KI.RunC.lean ====
/- The body of the fused attention kernel run symbolically in the case where the key tile is the last of its row of tiles (and not the first): the running state is updated with the tile, then the accumulator over the sum, transposed, is stored into the output block. The pieces each buffer ends with are found by the run. -/
import proofs.«404800_j8830452761398_3_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case C (first `scf.if` not taken, second taken): as case B, and the output's buffer, at anything, ends with its
    pieces written. -/
noncomputable def kernelRun0_C (c : Dev nD) (i : grid0.Coords) (arg3 : Memref sig .tc .vmem S1x128x3200 .f32) (harg3 : arg3.IsWhole) (arg4 : Memref sig .tc .vmem S1x128x1280 .f32) (harg4 : arg4.IsWhole) (arg5 : Memref sig .tc .vmem S128x64 .bf16) (harg5 : arg5.IsWhole) (arg6 : Memref sig .tc .vmem S1x64 .f32) (harg6 : arg6.IsWhole) (arg7 : Memref sig .tc .vmem S1x1 .f32) (harg7 : arg7.IsWhole) (arg8 : Memref sig .tc .vmem S128x64 .bf16) (harg8 : arg8.IsWhole) (arg9 : Memref sig .tc .vmem S1x64 .f32) (harg9 : arg9.IsWhole) (arg10 : Memref sig .tc .vmem S1x1 .f32) (harg10 : arg10.IsWhole) (arg11 : Memref sig .tc .vmem S128x128 .bf16) (harg11 : arg11.IsWhole) (arg12 : Memref sig .tc .vmem S1x128 .f32) (harg12 : arg12.IsWhole) (arg13 : Memref sig .tc .vmem S1x1 .f32) (harg13 : arg13.IsWhole) (arg14 : Memref sig .tc .vmem S1x128x3200 .f32) (harg14 : arg14.IsWhole) (arg15 : Memref sig .tc .vmem S3200x1 .f32) (harg15 : arg15.IsWhole) (arg16 : Memref sig .tc .vmem S3200x1 .f32) (harg16 : arg16.IsWhole) (arg17 : Memref sig .tc .vmem S3200x128 .f32) (harg17 : arg17.IsWhole) (arg18 : Memref sig .tc .vmem S3200x64 .bf16) (harg18 : arg18.IsWhole) (hc0 : ¬cond0_0 i) (hc1 : cond0_1 i)
    (x0 : Vec F S1x128x3200 .f32) (x1 : Vec F S1x128x1280 .f32) (x2 : Vec F S128x64 .bf16) (x3 : Vec F S1x64 .f32) (x4 : Vec F S1x1 .f32) (x5 : Vec F S128x64 .bf16) (x6 : Vec F S1x64 .f32) (x7 : Vec F S1x1 .f32) (x8 : Vec F S128x128 .bf16) (x9 : Vec F S1x128 .f32) (x10 : Vec F S1x1 .f32) (xs0 : Vec F S3200x1 .f32) (xs1 : Vec F S3200x1 .f32) (xs2 : Vec F S3200x128 .f32) (xs3 : Vec F S3200x64 .bf16) :
    Σ' (L11 : List (View.Piece (Elt F) S1x128x3200 .f32)) (LS0 : List (View.Piece (Elt F) S3200x1 .f32)) (LS1 : List (View.Piece (Elt F) S3200x1 .f32)), { LS2 : List (View.Piece (Elt F) S3200x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d)
            ∗ owns (c : Thread nD τ) arg15 fullShare xs0 ∗ owns (c : Thread nD τ) arg16 fullShare xs1 ∗ owns (c : Thread nD τ) arg17 fullShare xs2 ∗ owns (c : Thread nD τ) arg18 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ f, arg14.view.loc (c : Thread nD τ) ↦[arg14.view.set]{fullShare} arg14.view.writes (Elt F) f L11)
                ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ owns (c : Thread nD τ) arg18 fullShare xs3) -∗ K ⟨⟩))
          ⊢ wp frame (wpE (defs₀ (F := F)) Variants.none c none) E (cc0__fused_attn_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case run =>
    simp only [cc0__fused_attn_kernel_eq_skeleton]; unfold cc0__fused_attn_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    obtain rfl := harg15.eq_unread hfs0; obtain rfl := harg16.eq_unread hfs1; obtain rfl := harg17.eq_unread hfs2; obtain rfl := harg18.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]; · iexists _; iexact H11
    isplitl [HS0]; · iexists _; iexact HS0
    isplitl [HS1]; · iexists _; iexact HS1
    isplitl [HS2]; · iexists _; iexact HS2
    iexists _; isplitr; · ipureintro; exact harg18.read_unread _
    iexact HS3

end Cert.KernelIdeal.Hand

end
-- ==== Proof.KI.Outs.lean ====
/- What the kernel's buffers hold point by point, for any float instance. The four scratch buffers — the running maximum,
   the running sum of weights, the running weighted sum and the stored queries' projection — are carried from one key tile
   to the next: at a first tile they are what that case's run leaves, at a later tile what the run leaves over the contents
   the tile before left. The output block is stored at a last tile only, from the scratch the tile before left. With these
   the pipeline's proof data: every input window's buffer at its block, the output's at that block, the image array shared
   by the query window and the key window held at two half shares. -/
import proofs.«404800_j8830452761398_3_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three cases' runs at point `t`, on the memrefs the pipeline calls the body with and the input blocks there. -/
abbrev runA_at (c : Dev nD) (t : Fin cfg0.N) (hc0 : cond0_0 (grid0.coords t)) (hc1 : ¬cond0_1 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t)
abbrev runB_at (c : Dev nD) (t : Fin cfg0.N) (hc0 : ¬cond0_0 (grid0.coords t)) (hc1 : ¬cond0_1 (grid0.coords t)) (xs : Vec F S3200x1 .f32 × Vec F S3200x1 .f32 × Vec F S3200x128 .f32 × Vec F S3200x64 .bf16) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) xs.1 xs.2.1 xs.2.2.1 xs.2.2.2
abbrev runC_at (c : Dev nD) (t : Fin cfg0.N) (hc0 : ¬cond0_0 (grid0.coords t)) (hc1 : cond0_1 (grid0.coords t)) (xs : Vec F S3200x1 .f32 × Vec F S3200x1 .f32 × Vec F S3200x128 .f32 × Vec F S3200x64 .bf16) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) xs.1 xs.2.1 xs.2.2.1 xs.2.2.2

/-- What a first tile leaves in the four scratch buffers: its pieces read back. -/
def soutA (c : Dev nD) (t : Fin cfg0.N) (hc0 : cond0_0 (grid0.coords t)) (hc1 : ¬cond0_1 (grid0.coords t)) : Vec F S3200x1 .f32 × Vec F S3200x1 .f32 × Vec F S3200x128 .f32 × Vec F S3200x64 .bf16 :=
  (VS0_0.read (Elt F) (VS0_0.writes (Elt F) VS0_0.junk (runA_at m c t hc0 hc1).1), VS0_1.read (Elt F) (VS0_1.writes (Elt F) VS0_1.junk (runA_at m c t hc0 hc1).2.1),
   VS0_2.read (Elt F) (VS0_2.writes (Elt F) VS0_2.junk (runA_at m c t hc0 hc1).2.2.1), VS0_3.read (Elt F) (VS0_3.writes (Elt F) VS0_3.junk (runA_at m c t hc0 hc1).2.2.2.1))

/-- What a middle tile leaves over the contents `xs` the tile before left: the projection is kept. -/
def soutB (c : Dev nD) (t : Fin cfg0.N) (hc0 : ¬cond0_0 (grid0.coords t)) (hc1 : ¬cond0_1 (grid0.coords t)) (xs : Vec F S3200x1 .f32 × Vec F S3200x1 .f32 × Vec F S3200x128 .f32 × Vec F S3200x64 .bf16) : Vec F S3200x1 .f32 × Vec F S3200x1 .f32 × Vec F S3200x128 .f32 × Vec F S3200x64 .bf16 :=
  (VS0_0.read (Elt F) (VS0_0.writes (Elt F) VS0_0.junk (runB_at m c t hc0 hc1 xs).1), VS0_1.read (Elt F) (VS0_1.writes (Elt F) VS0_1.junk (runB_at m c t hc0 hc1 xs).2.1),
   VS0_2.read (Elt F) (VS0_2.writes (Elt F) VS0_2.junk (runB_at m c t hc0 hc1 xs).2.2.1), xs.2.2.2)

/-- What a last tile leaves in the scratch, -/
def soutC (c : Dev nD) (t : Fin cfg0.N) (hc0 : ¬cond0_0 (grid0.coords t)) (hc1 : cond0_1 (grid0.coords t)) (xs : Vec F S3200x1 .f32 × Vec F S3200x1 .f32 × Vec F S3200x128 .f32 × Vec F S3200x64 .bf16) : Vec F S3200x1 .f32 × Vec F S3200x1 .f32 × Vec F S3200x128 .f32 × Vec F S3200x64 .bf16 :=
  (VS0_0.read (Elt F) (VS0_0.writes (Elt F) VS0_0.junk (runC_at m c t hc0 hc1 xs).2.1), VS0_1.read (Elt F) (VS0_1.writes (Elt F) VS0_1.junk (runC_at m c t hc0 hc1 xs).2.2.1),
   VS0_2.read (Elt F) (VS0_2.writes (Elt F) VS0_2.junk (runC_at m c t hc0 hc1 xs).2.2.2.1), xs.2.2.2)
/-- and in the output's staging buffer. -/
def outC (c : Dev nD) (t : Fin cfg0.N) (hc0 : ¬cond0_0 (grid0.coords t)) (hc1 : cond0_1 (grid0.coords t)) (xs : Vec F S3200x1 .f32 × Vec F S3200x1 .f32 × Vec F S3200x128 .f32 × Vec F S3200x64 .bf16) : Vec F S1x128x3200 .f32 :=
  VO0_11.read (Elt F) (VO0_11.writes (Elt F) VO0_11.junk (runC_at m c t hc0 hc1 xs).1)

/-- The scratch after the body at position `n`. -/
def scAt0 (c : Dev nD) : (n : ℕ) → n < cfg0.N → Vec F S3200x1 .f32 × Vec F S3200x1 .f32 × Vec F S3200x128 .f32 × Vec F S3200x64 .bf16
  | 0, hn => soutA m c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 5 = 0 then
      soutA m c ⟨n + 1, hn⟩ ((hcond0_0 ⟨n + 1, hn⟩).mpr h0) (fun h => (fun h1 => by (try dsimp only at h1); omega) ((hcond0_1 ⟨n + 1, hn⟩).mp h))
    else
      if h1 : (n + 1) % 5 = 4 then
        soutC m c ⟨n + 1, hn⟩ (fun h => h0 ((hcond0_0 ⟨n + 1, hn⟩).mp h)) ((hcond0_1 ⟨n + 1, hn⟩).mpr h1) (scAt0 c n (Nat.lt_of_succ_lt hn))
      else
        soutB m c ⟨n + 1, hn⟩ (fun h => h0 ((hcond0_0 ⟨n + 1, hn⟩).mp h)) (fun h => h1 ((hcond0_1 ⟨n + 1, hn⟩).mp h)) (scAt0 c n (Nat.lt_of_succ_lt hn))

theorem scAt0_A (c : Dev nD) (t : Fin cfg0.N) (h0 : t.val % 5 = 0) (h1 : ¬t.val % 5 = 4) :
    scAt0 m c t.val t.isLt = soutA m c t ((hcond0_0 t).mpr h0) (fun h => h1 ((hcond0_1 t).mp h)) := by
  obtain ⟨n, hn⟩ := t
  cases n with
  | zero => exact rfl
  | succ n => exact (dif_pos h0).trans rfl

theorem scAt0_B (c : Dev nD) (t : Fin cfg0.N) (h0 : ¬t.val % 5 = 0) (h1 : ¬t.val % 5 = 4) :
    scAt0 m c t.val t.isLt = soutB m c t (fun h => h0 ((hcond0_0 t).mp h)) (fun h => h1 ((hcond0_1 t).mp h))
      (scAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem scAt0_C (c : Dev nD) (t : Fin cfg0.N) (h0 : ¬t.val % 5 = 0) (h1 : t.val % 5 = 4) :
    scAt0 m c t.val t.isLt = soutC m c t (fun h => h0 ((hcond0_0 t).mp h)) ((hcond0_1 t).mpr h1)
      (scAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output's staging buffer after the body at point `t`: at a last tile what that run leaves over the scratch the
    tile before left; elsewhere the body stores nothing there and nothing consults this placeholder. -/
def outAt0 (c : Dev nD) (t : Fin cfg0.N) : Vec F S1x128x3200 .f32 :=
  if h1 : t.val % 5 = 4 then
    outC m c t (fun h => by have := (hcond0_0 t).mp h; omega) ((hcond0_1 t).mpr h1) (scAt0 m c (t.val - 1) (Nat.lt_of_le_of_lt (Nat.sub_le _ _) t.isLt))
  else VO0_11.read (Elt F) VO0_11.junk

theorem outAt0_C (c : Dev nD) (t : Fin cfg0.N) (h0 : ¬t.val % 5 = 0) (h1 : t.val % 5 = 4) :
    outAt0 m c t = outC m c t (fun h => h0 ((hcond0_0 t).mp h)) ((hcond0_1 t).mpr h1) (scAt0 m c (t.val - 1) (Nat.lt_of_le_of_lt (Nat.sub_le _ _) t.isLt)) := by
  unfold outAt0; rw [dif_pos h1]

/-- The region invariant before position `n`: before the first point the class's (every scratch at anything); afterwards
    the four scratch at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((scAt0 m c n hn).1) ∗ owns (c : Thread nD τ) scM0_1 fullShare ((scAt0 m c n hn).2.1) ∗ owns (c : Thread nD τ) scM0_2 fullShare ((scAt0 m c n hn).2.2.1) ∗ owns (c : Thread nD τ) scM0_3 fullShare ((scAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((scAt0 m c n hn).1) ∗ owns (c : Thread nD τ) scM0_1 fullShare ((scAt0 m c n hn).2.1) ∗ owns (c : Thread nD τ) scM0_2 fullShare ((scAt0 m c n hn).2.2.1) ∗ owns (c : Thread nD τ) scM0_3 fullShare ((scAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((scAt0 m c (n - 1) (by omega)).1) ∗ owns (c : Thread nD τ) scM0_1 fullShare ((scAt0 m c (n - 1) (by omega)).2.1) ∗ owns (c : Thread nD τ) scM0_2 fullShare ((scAt0 m c (n - 1) (by omega)).2.2.1) ∗ owns (c : Thread nD τ) scM0_3 fullShare ((scAt0 m c (n - 1) (by omega)).2.2.2)) ∗ (∃ r, prngReg c r)) := by
  cases n with
  | zero => exact absurd rfl hz
  | succ n => rfl

/-! ## The pipeline's proof data -/

/-- The proof data on core `c`. The query window and the key window read one array: each holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outAt0 m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = outAt0 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

end Cert.KernelIdeal.Hand

end
-- ==== Proof.KI.Covers.lean ====
/- Each case's run leaves pieces that tile every buffer it stores into, so the pieces read back determine the buffer. -/
import proofs.«404800_j8830452761398_3_alg».proof.Proof.KI.Outs
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The runs' pieces cover the buffers they store into -/

theorem scoverA_0 (c : Dev nD) (t : Fin cfg0.N) (hc0 : cond0_0 (grid0.coords t)) (hc1 : ¬cond0_1 (grid0.coords t)) (y : S3200x1.Idx) :
    ∃ pc ∈ (runA_at m c t hc0 hc1).1, y ∈ pc.1.set :=
  View.cover_of_tiledL (runA_at m c t hc0 hc1).1 S3200x1.size (by sl_kernel_rfl) y
theorem scoverA_1 (c : Dev nD) (t : Fin cfg0.N) (hc0 : cond0_0 (grid0.coords t)) (hc1 : ¬cond0_1 (grid0.coords t)) (y : S3200x1.Idx) :
    ∃ pc ∈ (runA_at m c t hc0 hc1).2.1, y ∈ pc.1.set :=
  View.cover_of_tiledL (runA_at m c t hc0 hc1).2.1 S3200x1.size (by sl_kernel_rfl) y
theorem scoverA_2 (c : Dev nD) (t : Fin cfg0.N) (hc0 : cond0_0 (grid0.coords t)) (hc1 : ¬cond0_1 (grid0.coords t)) (y : S3200x128.Idx) :
    ∃ pc ∈ (runA_at m c t hc0 hc1).2.2.1, y ∈ pc.1.set :=
  View.cover_of_tiledL (runA_at m c t hc0 hc1).2.2.1 S3200x128.size (by sl_kernel_rfl) y
theorem scoverA_3 (c : Dev nD) (t : Fin cfg0.N) (hc0 : cond0_0 (grid0.coords t)) (hc1 : ¬cond0_1 (grid0.coords t)) (y : S3200x64.Idx) :
    ∃ pc ∈ (runA_at m c t hc0 hc1).2.2.2.1, y ∈ pc.1.set :=
  View.cover_of_tiledL (runA_at m c t hc0 hc1).2.2.2.1 S3200x64.size (by sl_kernel_rfl) y
theorem scoverB_0 (c : Dev nD) (t : Fin cfg0.N) (hc0 : ¬cond0_0 (grid0.coords t)) (hc1 : ¬cond0_1 (grid0.coords t)) (xs : Vec F S3200x1 .f32 × Vec F S3200x1 .f32 × Vec F S3200x128 .f32 × Vec F S3200x64 .bf16) (y : S3200x1.Idx) :
    ∃ pc ∈ (runB_at m c t hc0 hc1 xs).1, y ∈ pc.1.set :=
  View.cover_of_tiledL (runB_at m c t hc0 hc1 xs).1 S3200x1.size (by sl_kernel_rfl) y
theorem scoverB_1 (c : Dev nD) (t : Fin cfg0.N) (hc0 : ¬cond0_0 (grid0.coords t)) (hc1 : ¬cond0_1 (grid0.coords t)) (xs : Vec F S3200x1 .f32 × Vec F S3200x1 .f32 × Vec F S3200x128 .f32 × Vec F S3200x64 .bf16) (y : S3200x1.Idx) :
    ∃ pc ∈ (runB_at m c t hc0 hc1 xs).2.1, y ∈ pc.1.set :=
  View.cover_of_tiledL (runB_at m c t hc0 hc1 xs).2.1 S3200x1.size (by sl_kernel_rfl) y
theorem scoverB_2 (c : Dev nD) (t : Fin cfg0.N) (hc0 : ¬cond0_0 (grid0.coords t)) (hc1 : ¬cond0_1 (grid0.coords t)) (xs : Vec F S3200x1 .f32 × Vec F S3200x1 .f32 × Vec F S3200x128 .f32 × Vec F S3200x64 .bf16) (y : S3200x128.Idx) :
    ∃ pc ∈ (runB_at m c t hc0 hc1 xs).2.2.1, y ∈ pc.1.set :=
  View.cover_of_tiledL (runB_at m c t hc0 hc1 xs).2.2.1 S3200x128.size (by sl_kernel_rfl) y
theorem coverC_11 (c : Dev nD) (t : Fin cfg0.N) (hc0 : ¬cond0_0 (grid0.coords t)) (hc1 : cond0_1 (grid0.coords t)) (xs : Vec F S3200x1 .f32 × Vec F S3200x1 .f32 × Vec F S3200x128 .f32 × Vec F S3200x64 .bf16) (y : S1x128x3200.Idx) :
    ∃ pc ∈ (runC_at m c t hc0 hc1 xs).1, y ∈ pc.1.set :=
  View.cover_of_tiledL (runC_at m c t hc0 hc1 xs).1 S1x128x3200.size (by sl_kernel_rfl) y
theorem scoverC_0 (c : Dev nD) (t : Fin cfg0.N) (hc0 : ¬cond0_0 (grid0.coords t)) (hc1 : cond0_1 (grid0.coords t)) (xs : Vec F S3200x1 .f32 × Vec F S3200x1 .f32 × Vec F S3200x128 .f32 × Vec F S3200x64 .bf16) (y : S3200x1.Idx) :
    ∃ pc ∈ (runC_at m c t hc0 hc1 xs).2.1, y ∈ pc.1.set :=
  View.cover_of_tiledL (runC_at m c t hc0 hc1 xs).2.1 S3200x1.size (by sl_kernel_rfl) y
theorem scoverC_1 (c : Dev nD) (t : Fin cfg0.N) (hc0 : ¬cond0_0 (grid0.coords t)) (hc1 : cond0_1 (grid0.coords t)) (xs : Vec F S3200x1 .f32 × Vec F S3200x1 .f32 × Vec F S3200x128 .f32 × Vec F S3200x64 .bf16) (y : S3200x1.Idx) :
    ∃ pc ∈ (runC_at m c t hc0 hc1 xs).2.2.1, y ∈ pc.1.set :=
  View.cover_of_tiledL (runC_at m c t hc0 hc1 xs).2.2.1 S3200x1.size (by sl_kernel_rfl) y
theorem scoverC_2 (c : Dev nD) (t : Fin cfg0.N) (hc0 : ¬cond0_0 (grid0.coords t)) (hc1 : cond0_1 (grid0.coords t)) (xs : Vec F S3200x1 .f32 × Vec F S3200x1 .f32 × Vec F S3200x128 .f32 × Vec F S3200x64 .bf16) (y : S3200x128.Idx) :
    ∃ pc ∈ (runC_at m c t hc0 hc1 xs).2.2.2.1, y ∈ pc.1.set :=
  View.cover_of_tiledL (runC_at m c t hc0 hc1 xs).2.2.2.1 S3200x128.size (by sl_kernel_rfl) y

end Cert.KernelIdeal.Hand

end
-- ==== Proof.KI.Body.lean ====
/- The body obligation of the fused attention kernel, for any float instance: at every grid point the closed forms of the two
   branch conditions say which of the three cases the point is in, the invariant hands the run the four scratch buffers at
   what the point before left (at anything before the first point), every input window's buffer holds its block, and the
   run's pieces, which cover each buffer it stores into, give the buffers back at the contents the proof data name. -/
import proofs.«404800_j8830452761398_3_alg».proof.Proof.KI.Covers
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  have hN : t.val < 40 := lt_of_lt_of_eq t.isLt (show cfg0.N = 40 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  by_cases h0 : t.val % 5 = 0
  · have h1 : ¬t.val % 5 = 4 := by omega
    rw [Dat.leavesExact_idle (dats m 0 c) 11 t (idleAt0_11 t (fun h => h1 ((hcond0_1 t).mp h))) (noFlush0_11 t (fun h => h1 ((hcond0_1 t).mp h)))]
    rw [scAt0_A m c t h0 h1]
    unfold soutA; dsimp only
    by_cases hz : t.val = 0
    · rw [PhiS_castSucc m c t, PhiS_zero m c _ _ hz, PhiA0_eq]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runA_at m c t ((hcond0_0 t).mpr h0) (fun h => h1 ((hcond0_1 t).mp h))).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      isplitl [HS2]; · iexact HS2
      isplitl [HS3]; · iexact HS3
      iintro ⟨H0, H1, H2, H3, H4, H5, H6, H7, H8, H9, H10, H11, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scoverA_0 m c t _ _)
          isplitl [HS1]
          · unfold owns; iexists _; isplitr
            swap; · iexact HS1
            ipureintro; exact View.read_writes_of_cover _ _ _ _ _ (scoverA_1 m c t _ _)
          isplitl [HS2]
          · unfold owns; iexists _; isplitr
            swap; · iexact HS2
            ipureintro; exact View.read_writes_of_cover _ _ _ _ _ (scoverA_2 m c t _ _)
          unfold owns; iexists _; isplitr
          swap; · iexact HS3
          ipureintro; exact View.read_writes_of_cover _ _ _ _ _ (scoverA_3 m c t _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11
    · rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runA_at m c t ((hcond0_0 t).mpr h0) (fun h => h1 ((hcond0_1 t).mp h))).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, H8, H9, H10, H11, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scoverA_0 m c t _ _)
          isplitl [HS1]
          · unfold owns; iexists _; isplitr
            swap; · iexact HS1
            ipureintro; exact View.read_writes_of_cover _ _ _ _ _ (scoverA_1 m c t _ _)
          isplitl [HS2]
          · unfold owns; iexists _; isplitr
            swap; · iexact HS2
            ipureintro; exact View.read_writes_of_cover _ _ _ _ _ (scoverA_2 m c t _ _)
          unfold owns; iexists _; isplitr
          swap; · iexact HS3
          ipureintro; exact View.read_writes_of_cover _ _ _ _ _ (scoverA_3 m c t _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11
  · have hz : t.val ≠ 0 := fun hz => h0 (by rw [hz])
    by_cases h1 : t.val % 5 = 4
    · rw [show (dats m 0 c).leavesExact 11 t = owns (c : Thread nD τ) (ms0_11 t) fullShare ((dats m 0 c).after 11 t) from by
        unfold Dat.leavesExact; rw [liveAt0_11 t ((hcond0_1 t).mpr h1)], after0_11]
      rw [scAt0_C m c t h0 h1, outAt0_C m c t h0 h1]
      unfold soutC outC; dsimp only
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runC_at m c t (fun h => h0 ((hcond0_0 t).mp h)) ((hcond0_1 t).mpr h1) (scAt0 m c (t.val - 1) (Nat.lt_of_le_of_lt (Nat.sub_le _ _) t.isLt))).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      isplitl [HS1]; · iexact HS1
      isplitl [HS2]; · iexact HS2
      isplitl [HS3]; · iexact HS3
      iintro ⟨H0, H1, H2, H3, H4, H5, H6, H7, H8, H9, H10, ⟨%e11, H11⟩, ⟨%es0, HS0⟩, ⟨%es1, HS1⟩, ⟨%es2, HS2⟩, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scoverC_0 m c t _ _ _)
          isplitl [HS1]
          · unfold owns; iexists _; isplitr
            swap; · iexact HS1
            ipureintro; exact View.read_writes_of_cover _ _ _ _ _ (scoverC_1 m c t _ _ _)
          isplitl [HS2]
          · unfold owns; iexists _; isplitr
            swap; · iexact HS2
            ipureintro; exact View.read_writes_of_cover _ _ _ _ _ (scoverC_2 m c t _ _ _)
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (coverC_11 m c t _ _ _)
    · rw [Dat.leavesExact_idle (dats m 0 c) 11 t (idleAt0_11 t (fun h => h1 ((hcond0_1 t).mp h))) (noFlush0_11 t (fun h => h1 ((hcond0_1 t).mp h)))]
      rw [scAt0_B m c t h0 h1]
      unfold soutB; dsimp only
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runB_at m c t (fun h => h0 ((hcond0_0 t).mp h)) (fun h => h1 ((hcond0_1 t).mp h)) (scAt0 m c (t.val - 1) (Nat.lt_of_le_of_lt (Nat.sub_le _ _) t.isLt))).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      isplitl [HS2]; · iexact HS2
      isplitl [HS3]; · iexact HS3
      iintro ⟨H0, H1, H2, H3, H4, H5, H6, H7, H8, H9, H10, H11, ⟨%es0, HS0⟩, ⟨%es1, HS1⟩, ⟨%es2, HS2⟩, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scoverB_0 m c t _ _ _)
          isplitl [HS1]
          · unfold owns; iexists _; isplitr
            swap; · iexact HS1
            ipureintro; exact View.read_writes_of_cover _ _ _ _ _ (scoverB_1 m c t _ _ _)
          isplitl [HS2]
          · unfold owns; iexists _; isplitr
            swap; · iexact HS2
            ipureintro; exact View.read_writes_of_cover _ _ _ _ _ (scoverB_2 m c t _ _ _)
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the scratch's named contents are forgotten. -/
theorem hout (c : Dev nD) : (dats m 0 c).Φ (Fin.last cfg0.N) ⊢ Pipeline.ΦA spec0 c := by
  have hne : (Fin.last cfg0.N).val ≠ 0 := by rw [Fin.val_last]; have : cfg0.N = 40 := N_0; omega
  rw [show (dats m 0 c).Φ (Fin.last cfg0.N) = PhiS m c (Fin.last cfg0.N).val (Nat.le_of_lt_succ (Fin.last cfg0.N).isLt) from rfl,
    PhiS_pos m c _ _ hne, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

end Cert.KernelIdeal.Hand

end
-- ==== Proof.KI.Share.lean ====
/- The image array is handed to the kernel through two windows, the query tile's and the key tile's: the buffers behind the
   windows' arrays, each whole, are the windows' arrays at their shares — the image array's two halves — and back. -/
import proofs.«404800_j8830452761398_3_alg».proof.Proof.KI.Outs
import Idealize.ShloMosaic.Lib.Pipeline.Launch
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the twelve windows' arrays, at contents `Vf`, are the twelve arrays at the proof data's shares
    at contents `Fw`, where `Fw` reads `Vf` at each window's array; and back. -/
theorem arrays_iff (c : Dev nD) (Vf : (b : Ref sig .tc) → Buf (Elt F) ((c.tc : Thread nD τ).loc b))
    (Fw : (w : Fin cfg0.W) → Buf (Elt F) ((cfg0.win w).arr.view.loc (c.tc : Thread nD τ)))
    (hF : ∀ w, Fw w = Vf (Pipeline.arrRef spec0 w)) :
    (Pipeline.arrBufs spec0 c Vf : sProp 𝕄) ⊣⊢ (dats m 0 c).arrays Fw := by
  have himg : (Finset.univ.image (Pipeline.arrRef spec0)) = [main_v0, main_v2, main_v7, main_v8, main_v4, main_v9, main_v10, main_v6, main_v11, main_v12, main_v13].toFinset := by decide
  have hL : (Pipeline.arrBufs spec0 c Vf : sProp 𝕄)
      = iprop(((c.tc : Thread nD τ).loc main_v0 ↦{fullShare} Vf main_v0)
        ∗ ((c.tc : Thread nD τ).loc main_v2 ↦{fullShare} Vf main_v2)
        ∗ ((c.tc : Thread nD τ).loc main_v7 ↦{fullShare} Vf main_v7)
        ∗ ((c.tc : Thread nD τ).loc main_v8 ↦{fullShare} Vf main_v8)
        ∗ ((c.tc : Thread nD τ).loc main_v4 ↦{fullShare} Vf main_v4)
        ∗ ((c.tc : Thread nD τ).loc main_v9 ↦{fullShare} Vf main_v9)
        ∗ ((c.tc : Thread nD τ).loc main_v10 ↦{fullShare} Vf main_v10)
        ∗ ((c.tc : Thread nD τ).loc main_v6 ↦{fullShare} Vf main_v6)
        ∗ ((c.tc : Thread nD τ).loc main_v11 ↦{fullShare} Vf main_v11)
        ∗ ((c.tc : Thread nD τ).loc main_v12 ↦{fullShare} Vf main_v12)
        ∗ ((c.tc : Thread nD τ).loc main_v13 ↦{fullShare} Vf main_v13)) :=
    bigSep_eq_bigSepL_of_eq [main_v0, main_v2, main_v7, main_v8, main_v4, main_v9, main_v10, main_v6, main_v11, main_v12, main_v13] himg (by decide) _
  rw [hL]
  unfold Dat.arrays
  rw [bigSep_W0]
  have hq0 : (dats m 0 c).share 0 = fullShare.left := by unfold Dat.share; rfl
  have hq1 : (dats m 0 c).share 1 = fullShare.right := by unfold Dat.share; rfl
  have hq2 : (dats m 0 c).share 2 = fullShare := by unfold Dat.share; rfl
  have hq3 : (dats m 0 c).share 3 = fullShare := by unfold Dat.share; rfl
  have hq4 : (dats m 0 c).share 4 = fullShare := by unfold Dat.share; rfl
  have hq5 : (dats m 0 c).share 5 = fullShare := by unfold Dat.share; rfl
  have hq6 : (dats m 0 c).share 6 = fullShare := by unfold Dat.share; rfl
  have hq7 : (dats m 0 c).share 7 = fullShare := by unfold Dat.share; rfl
  have hq8 : (dats m 0 c).share 8 = fullShare := by unfold Dat.share; rfl
  have hq9 : (dats m 0 c).share 9 = fullShare := by unfold Dat.share; rfl
  have hq10 : (dats m 0 c).share 10 = fullShare := by unfold Dat.share; rfl
  have hq11 : (dats m 0 c).share 11 = fullShare := by unfold Dat.share; rfl
  simp only [View.set_whole, hq0, hq1, hq2, hq3, hq4, hq5, hq6, hq7, hq8, hq9, hq10, hq11, hF]
  have hsh : (((c.tc : Thread nD τ).loc main_v0 ↦{fullShare} Vf main_v0) : sProp 𝕄) ⊣⊢ iprop(((c.tc : Thread nD τ).loc main_v0 ↦{fullShare.left} Vf main_v0) ∗ ((c.tc : Thread nD τ).loc main_v0 ↦{fullShare.right} Vf main_v0)) :=
    pointsTo_share (PosShare.mem_left_op_right fullShare)
  have hsplit := hsh.1
  have hjoin := hsh.2
  refine ⟨?_, ?_⟩
  · iintro ⟨H0, H2, H7, H8, H4, H9, H10, H6, H11, H12, H13⟩
    ihave Hh := hsplit $$ H0
    icases Hh with ⟨Hl, Hr⟩
    isplitl [Hl]; · iexact Hl
    isplitl [Hr]; · iexact Hr
    isplitl [H2]; · iexact H2
    isplitl [H7]; · iexact H7
    isplitl [H8]; · iexact H8
    isplitl [H4]; · iexact H4
    isplitl [H9]; · iexact H9
    isplitl [H10]; · iexact H10
    isplitl [H6]; · iexact H6
    isplitl [H11]; · iexact H11
    isplitl [H12]; · iexact H12
    iexact H13
  · iintro ⟨Hl, Hr, H2, H7, H8, H4, H9, H10, H6, H11, H12, H13⟩
    isplitl [Hl Hr]
    · iapply hjoin
      isplitl [Hl]; · iexact Hl
      iexact Hr
    isplitl [H2]; · iexact H2
    isplitl [H7]; · iexact H7
    isplitl [H8]; · iexact H8
    isplitl [H4]; · iexact H4
    isplitl [H9]; · iexact H9
    isplitl [H10]; · iexact H10
    isplitl [H6]; · iexact H6
    isplitl [H11]; · iexact H11
    isplitl [H12]; · iexact H12
    iexact H13

end Cert.KernelIdeal.Hand

end
-- ==== Proof.KI.Tail.lean ====
/- The host line after the region, for any float instance. The region leaves the result array at what the write-backs made
   of it and every other buffer as it found it; the one line after it reshapes the result array into the returned image. It
   runs holding every unscoped buffer whole, so the image array's two halves are joined before it and split again after. -/
import proofs.«404800_j8830452761398_3_alg».proof.Proof.KI.Share
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is left: the result array at what the write-backs made of it, every other
    buffer as the region found it. -/
def W0 (c : Dev nD) : Valuation τ sig (Elt F) :=
  Function.update (V0 m c) (Proc.devRef .tc main_v13) ((dats m 0 c).arrAt 11 cfg0.N)

/-- And after the host line that follows the region. -/
def W1 (c : Dev nD) : Valuation τ sig (Elt F) := StableHlo.after hostOps1 (W0 m c)

/-- Every window's array after the run is what `W0` holds at it: an input's as the region found it, the output's by definition. -/
theorem arrAt_W0 (c : Dev nD) (w : Fin cfg0.W) :
    (dats m 0 c).arrAt w cfg0.N = W0 m c (Proc.devRef .tc (Pipeline.arrRef spec0 w)) := by
  match w with
  | ⟨0, _⟩ =>
    show (dats m 0 c).arrAt 0 cfg0.N = W0 m c (Proc.devRef .tc (Pipeline.arrRef spec0 0))
    rw [(dats m 0 c).arrAt_in 0 rfl _, A_eq]; unfold W0
    exact (Function.update_of_ne (StableHlo.devRef_ne_of_ne (by decide)) _ _).symm
  | ⟨1, _⟩ =>
    show (dats m 0 c).arrAt 1 cfg0.N = W0 m c (Proc.devRef .tc (Pipeline.arrRef spec0 1))
    rw [(dats m 0 c).arrAt_in 1 rfl _, A_eq]; unfold W0
    exact (Function.update_of_ne (StableHlo.devRef_ne_of_ne (by decide)) _ _).symm
  | ⟨2, _⟩ =>
    show (dats m 0 c).arrAt 2 cfg0.N = W0 m c (Proc.devRef .tc (Pipeline.arrRef spec0 2))
    rw [(dats m 0 c).arrAt_in 2 rfl _, A_eq]; unfold W0
    exact (Function.update_of_ne (StableHlo.devRef_ne_of_ne (by decide)) _ _).symm
  | ⟨3, _⟩ =>
    show (dats m 0 c).arrAt 3 cfg0.N = W0 m c (Proc.devRef .tc (Pipeline.arrRef spec0 3))
    rw [(dats m 0 c).arrAt_in 3 rfl _, A_eq]; unfold W0
    exact (Function.update_of_ne (StableHlo.devRef_ne_of_ne (by decide)) _ _).symm
  | ⟨4, _⟩ =>
    show (dats m 0 c).arrAt 4 cfg0.N = W0 m c (Proc.devRef .tc (Pipeline.arrRef spec0 4))
    rw [(dats m 0 c).arrAt_in 4 rfl _, A_eq]; unfold W0
    exact (Function.update_of_ne (StableHlo.devRef_ne_of_ne (by decide)) _ _).symm
  | ⟨5, _⟩ =>
    show (dats m 0 c).arrAt 5 cfg0.N = W0 m c (Proc.devRef .tc (Pipeline.arrRef spec0 5))
    rw [(dats m 0 c).arrAt_in 5 rfl _, A_eq]; unfold W0
    exact (Function.update_of_ne (StableHlo.devRef_ne_of_ne (by decide)) _ _).symm
  | ⟨6, _⟩ =>
    show (dats m 0 c).arrAt 6 cfg0.N = W0 m c (Proc.devRef .tc (Pipeline.arrRef spec0 6))
    rw [(dats m 0 c).arrAt_in 6 rfl _, A_eq]; unfold W0
    exact (Function.update_of_ne (StableHlo.devRef_ne_of_ne (by decide)) _ _).symm
  | ⟨7, _⟩ =>
    show (dats m 0 c).arrAt 7 cfg0.N = W0 m c (Proc.devRef .tc (Pipeline.arrRef spec0 7))
    rw [(dats m 0 c).arrAt_in 7 rfl _, A_eq]; unfold W0
    exact (Function.update_of_ne (StableHlo.devRef_ne_of_ne (by decide)) _ _).symm
  | ⟨8, _⟩ =>
    show (dats m 0 c).arrAt 8 cfg0.N = W0 m c (Proc.devRef .tc (Pipeline.arrRef spec0 8))
    rw [(dats m 0 c).arrAt_in 8 rfl _, A_eq]; unfold W0
    exact (Function.update_of_ne (StableHlo.devRef_ne_of_ne (by decide)) _ _).symm
  | ⟨9, _⟩ =>
    show (dats m 0 c).arrAt 9 cfg0.N = W0 m c (Proc.devRef .tc (Pipeline.arrRef spec0 9))
    rw [(dats m 0 c).arrAt_in 9 rfl _, A_eq]; unfold W0
    exact (Function.update_of_ne (StableHlo.devRef_ne_of_ne (by decide)) _ _).symm
  | ⟨10, _⟩ =>
    show (dats m 0 c).arrAt 10 cfg0.N = W0 m c (Proc.devRef .tc (Pipeline.arrRef spec0 10))
    rw [(dats m 0 c).arrAt_in 10 rfl _, A_eq]; unfold W0
    exact (Function.update_of_ne (StableHlo.devRef_ne_of_ne (by decide)) _ _).symm
  | ⟨11, _⟩ =>
    show (dats m 0 c).arrAt 11 cfg0.N = W0 m c (Proc.devRef .tc main_v13)
    unfold W0; exact (Function.update_self (Proc.devRef (τ := τ) .tc main_v13) _ (V0 m c)).symm

/-- The line after the region writes the returned image only: every other buffer is as the region left it. -/
theorem W1_keep (c : Dev nD) (b : Ref sig .tc) (hb : b ≠ main_v14) :
    W1 m c (Proc.devRef .tc b) = W0 m c (Proc.devRef .tc b) := by
  unfold W1
  refine StableHlo.after_of_forall_not_mem (b := Proc.devRef .tc b) _ _ (List.forall_iff_forall_mem.mp ?_)
  simp only [hostOps1, List.Forall, StableHlo.reshape_writes, Finset.mem_singleton]
  exact StableHlo.devRef_ne_of_ne hb

/-- The line after the region writes no window's array. -/
theorem W1_arr (c : Dev nD) (w : Fin cfg0.W) :
    W1 m c (Proc.devRef .tc (Pipeline.arrRef spec0 w)) = W0 m c (Proc.devRef .tc (Pipeline.arrRef spec0 w)) := by
  match w with
  | ⟨0, _⟩ =>
    show W1 m c (Proc.devRef .tc (Pipeline.arrRef spec0 0)) = W0 m c (Proc.devRef .tc (Pipeline.arrRef spec0 0))
    exact W1_keep m c _ (by decide)
  | ⟨1, _⟩ =>
    show W1 m c (Proc.devRef .tc (Pipeline.arrRef spec0 1)) = W0 m c (Proc.devRef .tc (Pipeline.arrRef spec0 1))
    exact W1_keep m c _ (by decide)
  | ⟨2, _⟩ =>
    show W1 m c (Proc.devRef .tc (Pipeline.arrRef spec0 2)) = W0 m c (Proc.devRef .tc (Pipeline.arrRef spec0 2))
    exact W1_keep m c _ (by decide)
  | ⟨3, _⟩ =>
    show W1 m c (Proc.devRef .tc (Pipeline.arrRef spec0 3)) = W0 m c (Proc.devRef .tc (Pipeline.arrRef spec0 3))
    exact W1_keep m c _ (by decide)
  | ⟨4, _⟩ =>
    show W1 m c (Proc.devRef .tc (Pipeline.arrRef spec0 4)) = W0 m c (Proc.devRef .tc (Pipeline.arrRef spec0 4))
    exact W1_keep m c _ (by decide)
  | ⟨5, _⟩ =>
    show W1 m c (Proc.devRef .tc (Pipeline.arrRef spec0 5)) = W0 m c (Proc.devRef .tc (Pipeline.arrRef spec0 5))
    exact W1_keep m c _ (by decide)
  | ⟨6, _⟩ =>
    show W1 m c (Proc.devRef .tc (Pipeline.arrRef spec0 6)) = W0 m c (Proc.devRef .tc (Pipeline.arrRef spec0 6))
    exact W1_keep m c _ (by decide)
  | ⟨7, _⟩ =>
    show W1 m c (Proc.devRef .tc (Pipeline.arrRef spec0 7)) = W0 m c (Proc.devRef .tc (Pipeline.arrRef spec0 7))
    exact W1_keep m c _ (by decide)
  | ⟨8, _⟩ =>
    show W1 m c (Proc.devRef .tc (Pipeline.arrRef spec0 8)) = W0 m c (Proc.devRef .tc (Pipeline.arrRef spec0 8))
    exact W1_keep m c _ (by decide)
  | ⟨9, _⟩ =>
    show W1 m c (Proc.devRef .tc (Pipeline.arrRef spec0 9)) = W0 m c (Proc.devRef .tc (Pipeline.arrRef spec0 9))
    exact W1_keep m c _ (by decide)
  | ⟨10, _⟩ =>
    show W1 m c (Proc.devRef .tc (Pipeline.arrRef spec0 10)) = W0 m c (Proc.devRef .tc (Pipeline.arrRef spec0 10))
    exact W1_keep m c _ (by decide)
  | ⟨11, _⟩ =>
    show W1 m c (Proc.devRef .tc (Pipeline.arrRef spec0 11)) = W0 m c (Proc.devRef .tc (Pipeline.arrRef spec0 11))
    exact W1_keep m c _ (by decide)

set_option backward.isDefEq.respectTransparency.types false in
/-- The line after the region, run from the region's exit — the windows' arrays at their shares, the other unscoped buffers
    whole — hands back the arrays and the other buffers at the contents after the line. -/
theorem htail (c : Dev nD) (Q' : PUnit → sProp 𝕄) :
    iprop((iprop((dats m 0 c).arrays ((dats m 0 c).arrAt · cfg0.N)
              ∗ Pipeline.unscopedRest (Ix := Unit) (Name := ℕ) (U := UR sig nD τ) (Lvl := ℕ) spec0 c (fun b => W1 m c (Proc.devRef .tc b))) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (fun q => (cfgs q).toPCfg (Val := Elt F)) (defs₀ (F := F))) (Variants.lift Variants.none) (c.tc : Thread nD τ) none) Set.univ
          (Pipeline.chain [StableHlo.seq (hostOps1 (F := F))]) Q' := by
  classical
  have hA0 := arrays_iff m c (fun b => W0 m c (Proc.devRef .tc b)) _ (arrAt_W0 m c)
  have hA1 := arrays_iff m c (fun b => W1 m c (Proc.devRef .tc b)) _ (fun w => (arrAt_W0 m c w).trans (W1_arr m c w).symm)
  have hR0 : (Pipeline.unscopedRest (Ix := Unit) (Name := ℕ) (U := UR sig nD τ) (Lvl := ℕ) spec0 c (V m c) : sProp 𝕄)
      = Pipeline.unscopedRest spec0 c (fun b => W0 m c (Proc.devRef .tc b)) := by
    unfold Pipeline.unscopedRest
    refine bigSep_congr fun b hb => ?_
    have hne : b ≠ main_v13 := fun e =>
      (Finset.mem_sdiff.mp hb).2 (Finset.mem_image.mpr ⟨11, Finset.mem_univ _, e.symm⟩)
    have hv : W0 m c (Proc.devRef .tc b) = V m c b := by
      unfold W0; exact Function.update_of_ne (StableHlo.devRef_ne_of_ne hne) _ _
    show (((c.tc : Thread nD τ).loc b) ↦{fullShare} V m c b : sProp 𝕄) = (((c.tc : Thread nD τ).loc b) ↦{fullShare} W0 m c (Proc.devRef .tc b))
    rw [hv]
  have hS0 := Pipeline.unscopedBufs_split₀ (Ix := Unit) (Name := ℕ) (U := UR sig nD τ) (Lvl := ℕ) cfgs 0 winFacts₀0.arr_unscoped c (fun b => W0 m c (Proc.devRef .tc b))
  have hS1 := Pipeline.unscopedBufs_split₀ (Ix := Unit) (Name := ℕ) (U := UR sig nD τ) (Lvl := ℕ) cfgs 0 winFacts₀0.arr_unscoped c (fun b => W1 m c (Proc.devRef .tc b))
  have hH0 : (unscopedBufs (Ix := Unit) (Name := ℕ) (U := UR sig nD τ) (Lvl := ℕ) c (fun b => W0 m c (Proc.devRef .tc b)) : sProp 𝕄)
      = StableHlo.held (c.tc : Thread nD τ) (Pipeline.ucRefs τ sig) (W0 m c) :=
    Pipeline.unscopedBufs_held (Ix := Unit) (Name := ℕ) (U := UR sig nD τ) (Lvl := ℕ) c (W0 m c)
  have hH1 : (unscopedBufs (Ix := Unit) (Name := ℕ) (U := UR sig nD τ) (Lvl := ℕ) c (fun b => W1 m c (Proc.devRef .tc b)) : sProp 𝕄)
      = StableHlo.held (c.tc : Thread nD τ) (Pipeline.ucRefs τ sig) (W1 m c) :=
    Pipeline.unscopedBufs_held (Ix := Unit) (Name := ℕ) (U := UR sig nD τ) (Lvl := ℕ) c (W1 m c)
  have hsub : ∀ ops ∈ ([hostOps1] : List (List (HloOp τ sig (Elt F)))), ∀ op ∈ ops, op.bufs ⊆ Pipeline.ucRefs τ sig := by
    intro ops hops op hop
    obtain rfl := List.mem_singleton.mp hops
    exact Pipeline.sub_ucRefs op ((List.forall_iff_forall_mem.mp hostOps1_sub) op hop)
  have hfresh : ∀ ops ∈ ([hostOps1] : List (List (HloOp τ sig (Elt F)))), ∀ op ∈ ops, op.fresh = ∅ := by
    intro ops hops op hop
    obtain rfl := List.mem_singleton.mp hops
    exact (List.forall_iff_forall_mem.mp hostOps1_fresh) op hop
  have hflat : StableHlo.after ([hostOps1] : List (List (HloOp τ sig (Elt F)))).flatten (W0 m c) = W1 m c := by
    simp only [List.flatten_cons, List.flatten_nil, List.append_nil]; rfl
  have hrun := Pipeline.wp_seqs_then (Ix := Unit) (Name := ℕ) (U := UR sig nD τ) (Lvl := ℕ) (fun q => (cfgs q).toPCfg (Val := Elt F)) (defs₀ (F := F)) Variants.none c (Pipeline.ucRefs τ sig) [] (K := Q')
    [hostOps1] hsub hfresh (W0 m c)
  rw [hflat, ← hH0, ← hH1, Pipeline.chain_nil, wp_pure, hS0, hS1] at hrun
  simp only [List.map_cons, List.map_nil, List.append_nil] at hrun
  rw [hR0]
  iintro ⟨Hk, Hb, Ha, HZ⟩
  ihave Ha := hA0.2 $$ Ha
  iapply hrun $$ [Hb Ha HZ]
  · isplitl [Hb]
    · iexact Hb
    isplitl [Ha]
    · iexact Ha
    iexact HZ
  iintro ⟨Hb, Ha, HZ⟩
  ihave Ha := hA1.1 $$ Ha
  imodintro
  iapply Hk
  isplitl [Ha]
  · iexact Ha
  iexact HZ

end Cert.KernelIdeal.Hand

end
-- ==== Proof.KI.Launch.lean ====
/- The launch of the fused attention kernel, for any float instance: from any memory with zero counters every weakly fair
   execution of @main terminates, and in every final state each unscoped buffer that is no window's array holds what the host
   line after the region leaves in it — the arguments what they held at launch, the returned image the reshaped result array.
   The launch theorem is the library's for a region continued by host lines whose windows may share an array; the image
   array's buffer is split between the query window and the key window at entry and joined again for the line after. -/
import proofs.«404800_j8830452761398_3_alg».proof.Proof.KI.Body
import proofs.«404800_j8830452761398_3_alg».proof.Proof.KI.Tail
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (Prefetch)

/-- What the run ends with: every unscoped buffer that is no window's array at the contents after the last host line. -/
def RunPost (r : PUnit × MemSt nD τ sig (Elt F)) : Prop :=
  ∀ c : Dev nD, ∀ b ∈ Pipeline.restRefsP sig Prefetch.none spec0, r.2.mem ((c.tc : Thread nD τ).loc b) = W1 m c (Proc.devRef .tc b)

set_option backward.isDefEq.respectTransparency.types false in
theorem run_main : θ_run defs (onTc (τ := τ) (main (F := F))) ⟨m, fun _ => 0, ρ⟩ (RunPost m) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (arrays_iff m c (V m c) _ (fun w => A_eq m c w)).1)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Prefetch.none spec0 c (V m c))
    (Z' := fun c => Pipeline.unscopedRestP (Ix := Unit) (Name := ℕ) (U := UR sig nD τ) (Lvl := ℕ) Prefetch.none spec0 c (fun b => W1 m c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => by
      rw [Pipeline.unscopedRestP_none, Pipeline.unscopedRestP_none]
      exact htail m c Q')
    (QY := fun c s => ∀ b ∈ Pipeline.restRefsP sig Prefetch.none spec0, s.mem ((c.tc : Thread nD τ).loc b) = W1 m c (Proc.devRef .tc b))
    (hY := fun c s' => by
      iintro ⟨-, HU, HSI⟩
      unfold Pipeline.unscopedRestP
      imodintro
      iapply (pointsTo_read_all (Pipeline.restRefsP sig Prefetch.none spec0) (fun b => (c.tc : Thread nD τ).loc b) (fun b => W1 m c (Proc.devRef .tc b)) s')
      isplitl [HU] <;> iassumption)
    (hQ := fun s h c => (h c).2.2)

end Cert.KernelIdeal.Hand

end
-- ==== Proof.KI.Post.lean ====
/- What the run's post says of the arguments and of the returned image, for any float instance: no host line and no
   write-back touches an argument, and the last host line writes the returned image as the reshaped result array. -/
import proofs.«404800_j8830452761398_3_alg».proof.Proof.KI.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (Prefetch)

theorem mem_rest_arg0 : main_arg0 ∈ Pipeline.restRefsP sig Prefetch.none spec0 := by decide
theorem mem_rest_arg1 : main_arg1 ∈ Pipeline.restRefsP sig Prefetch.none spec0 := by decide
theorem mem_rest_arg2 : main_arg2 ∈ Pipeline.restRefsP sig Prefetch.none spec0 := by decide
theorem mem_rest_arg3 : main_arg3 ∈ Pipeline.restRefsP sig Prefetch.none spec0 := by decide
theorem mem_rest_arg4 : main_arg4 ∈ Pipeline.restRefsP sig Prefetch.none spec0 := by decide
theorem mem_rest_arg5 : main_arg5 ∈ Pipeline.restRefsP sig Prefetch.none spec0 := by decide
theorem mem_rest_arg6 : main_arg6 ∈ Pipeline.restRefsP sig Prefetch.none spec0 := by decide
theorem mem_rest_arg7 : main_arg7 ∈ Pipeline.restRefsP sig Prefetch.none spec0 := by decide
theorem mem_rest_arg8 : main_arg8 ∈ Pipeline.restRefsP sig Prefetch.none spec0 := by decide
theorem mem_rest_arg9 : main_arg9 ∈ Pipeline.restRefsP sig Prefetch.none spec0 := by decide
theorem mem_rest_v14 : main_v14 ∈ Pipeline.restRefsP sig Prefetch.none spec0 := by decide

/-- Argument 0 is written by no host line and is no window's result: it ends as launched. -/
theorem W1_arg0 (c : Dev nD) : W1 m c (Proc.devRef .tc main_arg0) = m ((c.tc : Thread nD τ).loc main_arg0) := by
  unfold W1
  rw [StableHlo.after_of_forall_not_mem (b := Proc.devRef .tc main_arg0) _ _ (List.forall_iff_forall_mem.mp (by
    simp only [hostOps1, List.Forall, StableHlo.reshape_writes, Finset.mem_singleton]
    exact StableHlo.devRef_ne_of_ne (by decide)))]
  unfold W0
  rw [Function.update_of_ne (StableHlo.devRef_ne_of_ne (by decide))]
  exact V_main_arg0 m c
/-- Argument 1 is written by no host line and is no window's result: it ends as launched. -/
theorem W1_arg1 (c : Dev nD) : W1 m c (Proc.devRef .tc main_arg1) = m ((c.tc : Thread nD τ).loc main_arg1) := by
  unfold W1
  rw [StableHlo.after_of_forall_not_mem (b := Proc.devRef .tc main_arg1) _ _ (List.forall_iff_forall_mem.mp (by
    simp only [hostOps1, List.Forall, StableHlo.reshape_writes, Finset.mem_singleton]
    exact StableHlo.devRef_ne_of_ne (by decide)))]
  unfold W0
  rw [Function.update_of_ne (StableHlo.devRef_ne_of_ne (by decide))]
  exact V_main_arg1 m c
/-- Argument 2 is written by no host line and is no window's result: it ends as launched. -/
theorem W1_arg2 (c : Dev nD) : W1 m c (Proc.devRef .tc main_arg2) = m ((c.tc : Thread nD τ).loc main_arg2) := by
  unfold W1
  rw [StableHlo.after_of_forall_not_mem (b := Proc.devRef .tc main_arg2) _ _ (List.forall_iff_forall_mem.mp (by
    simp only [hostOps1, List.Forall, StableHlo.reshape_writes, Finset.mem_singleton]
    exact StableHlo.devRef_ne_of_ne (by decide)))]
  unfold W0
  rw [Function.update_of_ne (StableHlo.devRef_ne_of_ne (by decide))]
  exact V_main_arg2 m c
/-- Argument 3 is written by no host line and is no window's result: it ends as launched. -/
theorem W1_arg3 (c : Dev nD) : W1 m c (Proc.devRef .tc main_arg3) = m ((c.tc : Thread nD τ).loc main_arg3) := by
  unfold W1
  rw [StableHlo.after_of_forall_not_mem (b := Proc.devRef .tc main_arg3) _ _ (List.forall_iff_forall_mem.mp (by
    simp only [hostOps1, List.Forall, StableHlo.reshape_writes, Finset.mem_singleton]
    exact StableHlo.devRef_ne_of_ne (by decide)))]
  unfold W0
  rw [Function.update_of_ne (StableHlo.devRef_ne_of_ne (by decide))]
  exact V_main_arg3 m c
/-- Argument 4 is written by no host line and is no window's result: it ends as launched. -/
theorem W1_arg4 (c : Dev nD) : W1 m c (Proc.devRef .tc main_arg4) = m ((c.tc : Thread nD τ).loc main_arg4) := by
  unfold W1
  rw [StableHlo.after_of_forall_not_mem (b := Proc.devRef .tc main_arg4) _ _ (List.forall_iff_forall_mem.mp (by
    simp only [hostOps1, List.Forall, StableHlo.reshape_writes, Finset.mem_singleton]
    exact StableHlo.devRef_ne_of_ne (by decide)))]
  unfold W0
  rw [Function.update_of_ne (StableHlo.devRef_ne_of_ne (by decide))]
  exact V_main_arg4 m c
/-- Argument 5 is written by no host line and is no window's result: it ends as launched. -/
theorem W1_arg5 (c : Dev nD) : W1 m c (Proc.devRef .tc main_arg5) = m ((c.tc : Thread nD τ).loc main_arg5) := by
  unfold W1
  rw [StableHlo.after_of_forall_not_mem (b := Proc.devRef .tc main_arg5) _ _ (List.forall_iff_forall_mem.mp (by
    simp only [hostOps1, List.Forall, StableHlo.reshape_writes, Finset.mem_singleton]
    exact StableHlo.devRef_ne_of_ne (by decide)))]
  unfold W0
  rw [Function.update_of_ne (StableHlo.devRef_ne_of_ne (by decide))]
  exact V_main_arg5 m c
/-- Argument 6 is written by no host line and is no window's result: it ends as launched. -/
theorem W1_arg6 (c : Dev nD) : W1 m c (Proc.devRef .tc main_arg6) = m ((c.tc : Thread nD τ).loc main_arg6) := by
  unfold W1
  rw [StableHlo.after_of_forall_not_mem (b := Proc.devRef .tc main_arg6) _ _ (List.forall_iff_forall_mem.mp (by
    simp only [hostOps1, List.Forall, StableHlo.reshape_writes, Finset.mem_singleton]
    exact StableHlo.devRef_ne_of_ne (by decide)))]
  unfold W0
  rw [Function.update_of_ne (StableHlo.devRef_ne_of_ne (by decide))]
  exact V_main_arg6 m c
/-- Argument 7 is written by no host line and is no window's result: it ends as launched. -/
theorem W1_arg7 (c : Dev nD) : W1 m c (Proc.devRef .tc main_arg7) = m ((c.tc : Thread nD τ).loc main_arg7) := by
  unfold W1
  rw [StableHlo.after_of_forall_not_mem (b := Proc.devRef .tc main_arg7) _ _ (List.forall_iff_forall_mem.mp (by
    simp only [hostOps1, List.Forall, StableHlo.reshape_writes, Finset.mem_singleton]
    exact StableHlo.devRef_ne_of_ne (by decide)))]
  unfold W0
  rw [Function.update_of_ne (StableHlo.devRef_ne_of_ne (by decide))]
  exact V_main_arg7 m c
/-- Argument 8 is written by no host line and is no window's result: it ends as launched. -/
theorem W1_arg8 (c : Dev nD) : W1 m c (Proc.devRef .tc main_arg8) = m ((c.tc : Thread nD τ).loc main_arg8) := by
  unfold W1
  rw [StableHlo.after_of_forall_not_mem (b := Proc.devRef .tc main_arg8) _ _ (List.forall_iff_forall_mem.mp (by
    simp only [hostOps1, List.Forall, StableHlo.reshape_writes, Finset.mem_singleton]
    exact StableHlo.devRef_ne_of_ne (by decide)))]
  unfold W0
  rw [Function.update_of_ne (StableHlo.devRef_ne_of_ne (by decide))]
  exact V_main_arg8 m c
/-- Argument 9 is written by no host line and is no window's result: it ends as launched. -/
theorem W1_arg9 (c : Dev nD) : W1 m c (Proc.devRef .tc main_arg9) = m ((c.tc : Thread nD τ).loc main_arg9) := by
  unfold W1
  rw [StableHlo.after_of_forall_not_mem (b := Proc.devRef .tc main_arg9) _ _ (List.forall_iff_forall_mem.mp (by
    simp only [hostOps1, List.Forall, StableHlo.reshape_writes, Finset.mem_singleton]
    exact StableHlo.devRef_ne_of_ne (by decide)))]
  unfold W0
  rw [Function.update_of_ne (StableHlo.devRef_ne_of_ne (by decide))]
  exact V_main_arg9 m c

/-- The returned image is the result array reshaped. -/
theorem W1_out (c : Dev nD) :
    W1 m c (Proc.devRef .tc main_v14)
      = shapeCast S4x128x80x80 ((dats m 0 c).arrAt 11 cfg0.N : FVec F S4x128x6400 .f32) shapeCasts_S4x128x6400_S4x128x80x80 := by
  unfold W1
  show StableHlo.after hostOps1 (W0 m c) (Proc.devRef .tc main_v14) = _
  after_results
  unfold W0
  rw [Function.update_self]
  rfl

/-- THE FRAME: the program runs and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c main_arg0 mem_rest_arg0).trans (W1_arg0 m c), (h c main_arg1 mem_rest_arg1).trans (W1_arg1 m c), (h c main_arg2 mem_rest_arg2).trans (W1_arg2 m c), (h c main_arg3 mem_rest_arg3).trans (W1_arg3 m c), (h c main_arg4 mem_rest_arg4).trans (W1_arg4 m c), (h c main_arg5 mem_rest_arg5).trans (W1_arg5 m c), (h c main_arg6 mem_rest_arg6).trans (W1_arg6 m c), (h c main_arg7 mem_rest_arg7).trans (W1_arg7 m c), (h c main_arg8 mem_rest_arg8).trans (W1_arg8 m c), (h c main_arg9 mem_rest_arg9).trans (W1_arg9 m c)⟩) (run_main m ρ)

/-- The run with the returned image named. -/
theorem run_out : θ_run defs (onTc (τ := τ) (main (F := F))) ⟨m, fun _ => 0, ρ⟩ (fun r => ∀ c : Dev nD,
      r.2.mem ((c.tc : Thread nD τ).loc main_v14)
        = shapeCast S4x128x80x80 ((dats m 0 c).arrAt 11 cfg0.N : FVec F S4x128x6400 .f32) shapeCasts_S4x128x6400_S4x128x80x80
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c main_v14 mem_rest_v14).trans (W1_out m c), (h c main_arg0 mem_rest_arg0).trans (W1_arg0 m c), (h c main_arg1 mem_rest_arg1).trans (W1_arg1 m c), (h c main_arg2 mem_rest_arg2).trans (W1_arg2 m c), (h c main_arg3 mem_rest_arg3).trans (W1_arg3 m c), (h c main_arg4 mem_rest_arg4).trans (W1_arg4 m c), (h c main_arg5 mem_rest_arg5).trans (W1_arg5 m c), (h c main_arg6 mem_rest_arg6).trans (W1_arg6 m c), (h c main_arg7 mem_rest_arg7).trans (W1_arg7 m c), (h c main_arg8 mem_rest_arg8).trans (W1_arg8 m c), (h c main_arg9 mem_rest_arg9).trans (W1_arg9 m c)⟩) (run_main m ρ)

end Cert.KernelIdeal.Hand

end
-- ==== Proof.KI.Steps.lean ====
/- What one grid point does to the four scratch buffers, as pure functions of the input blocks, for any float instance:
   a first key tile stores the queries' projection and resets the running maximum to minus infinity and the running sum
   and accumulator to zero; every tile then replaces the running maximum by its maximum with the tile's row maxima, rescales
   the running sum and accumulator by the exponential of the old maximum less the new and adds the tile's weights and
   weighted values; a last tile's output block is the accumulator over the sum, transposed. -/
import proofs.«404800_j8830452761398_3_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch after a first tile's reset: maximum, sum, accumulator, and the queries' projection of the query block `x0`. -/
def resetS (x0 : Vec F S1x128x3200 .f32) (x2 : Vec F S128x64 .bf16) (x3 : Vec F S1x64 .f32) (x4 : Vec F S1x1 .f32) : Vec F S3200x1 .f32 × Vec F S3200x1 .f32 × Vec F S3200x128 .f32 × Vec F S3200x64 .bf16 :=
  (k0_pay3, k0_pay4, k0_pay5, k0_pay2 x0 x2 x3 x4)

/-- One tile's update of the scratch `st` with the key block `x1`. -/
def updS (x1 : Vec F S1x128x1280 .f32) (x5 : Vec F S128x64 .bf16) (x6 : Vec F S1x64 .f32) (x7 : Vec F S1x1 .f32) (x8 : Vec F S128x128 .bf16) (x9 : Vec F S1x128 .f32) (x10 : Vec F S1x1 .f32)
    (st : Vec F S3200x1 .f32 × Vec F S3200x1 .f32 × Vec F S3200x128 .f32 × Vec F S3200x64 .bf16) : Vec F S3200x1 .f32 × Vec F S3200x1 .f32 × Vec F S3200x128 .f32 × Vec F S3200x64 .bf16 :=
  (k0_pay17 (k0_pay7 x1 x5 x6 x7) st.2.2.2 st.1,
   k0_pay15 (k0_pay7 x1 x5 x6 x7) st.2.2.2 st.1 st.1 st.2.1,
   k0_pay16 (k0_pay7 x1 x5 x6 x7) (k0_pay8 x1 x8 x9) (k0_pay9 x1 x8 x9) (k0_pay10 x1 x8 x9 x10) st.2.2.2 st.1 st.1 st.2.2.1,
   st.2.2.2)

/-- The output block of a last tile, from the scratch after its update. -/
def outS (st : Vec F S3200x1 .f32 × Vec F S3200x1 .f32 × Vec F S3200x128 .f32 × Vec F S3200x64 .bf16) : Vec F S1x128x3200 .f32 := k0_pay1 st.2.2.1 st.2.1

end Cert.KernelIdeal.Hand

end
-- ==== Proof.KI.Pieces.lean ====
/- The pieces each case's run leaves in the buffers, read back, are the pure functions of the input blocks: a first tile
   leaves the update of the reset scratch, a later tile the update of what the tile before left, and a last tile's output
   block is the quotient block of its updated scratch. For any float instance. -/
import proofs.«404800_j8830452761398_3_alg».proof.Proof.KI.Covers
import proofs.«404800_j8830452761398_3_alg».proof.Proof.KI.Steps
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a whole rank-2 and a whole rank-3 rectangle. -/
theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
theorem soutA_eq (c : Dev nD) (t : Fin cfg0.N) (hc0 : cond0_0 (grid0.coords t)) (hc1 : ¬cond0_1 (grid0.coords t)) :
    soutA m c t hc0 hc1 = updS (iblk m c 1 t) (iblk m c 5 t) (iblk m c 6 t) (iblk m c 7 t) (iblk m c 8 t) (iblk m c 9 t) (iblk m c 10 t) (resetS (iblk m c 0 t) (iblk m c 2 t) (iblk m c 3 t) (iblk m c 4 t)) := by
  unfold soutA updS resetS
  refine Prod.ext ?_ (Prod.ext ?_ (Prod.ext ?_ ?_))
  ·
    dsimp only
    rw [View.read_writes_eq_canon _ _ _ (scoverA_0 m c t hc0 hc1)]
    unfold runA_at kernelRun0_A
    dsimp only
    sl_unfold_words
    rw [View.canon_cons_unit_zero (S := S3200x1) hz2]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread,
      (hs0_9 t).read_unread, (hs0_10 t).read_unread,
      (Memref.isWhole_whole _ : scM0_0.IsWhole).read_unread, (Memref.isWhole_whole _ : scM0_1.IsWhole).read_unread,
      (Memref.isWhole_whole _ : scM0_2.IsWhole).read_unread, (Memref.isWhole_whole _ : scM0_3.IsWhole).read_unread,
      View.ld_unit_zero (S := S1x128x3200) hz3, View.ld_unit_zero (S := S1x128x1280) hz3, View.ld_unit_zero (S := S128x64) hz2,
      View.ld_unit_zero (S := S1x64) hz2, View.ld_unit_zero (S := S1x1) hz2, View.ld_unit_zero (S := S128x128) hz2,
      View.ld_unit_zero (S := S1x128) hz2, View.ld_unit_zero (S := S3200x1) hz2, View.ld_unit_zero (S := S3200x128) hz2,
      View.ld_unit_zero (S := S3200x64) hz2,
      View.readCov_unit_zero (S := S3200x64) _ hz2, View.readCov_unit_zero (S := S3200x1) _ hz2,
      View.readCov_unit_zero (S := S3200x128) _ hz2]
  ·
    dsimp only
    rw [View.read_writes_eq_canon _ _ _ (scoverA_1 m c t hc0 hc1)]
    unfold runA_at kernelRun0_A
    dsimp only
    sl_unfold_words
    rw [View.canon_cons_unit_zero (S := S3200x1) hz2]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread,
      (hs0_9 t).read_unread, (hs0_10 t).read_unread,
      (Memref.isWhole_whole _ : scM0_0.IsWhole).read_unread, (Memref.isWhole_whole _ : scM0_1.IsWhole).read_unread,
      (Memref.isWhole_whole _ : scM0_2.IsWhole).read_unread, (Memref.isWhole_whole _ : scM0_3.IsWhole).read_unread,
      View.ld_unit_zero (S := S1x128x3200) hz3, View.ld_unit_zero (S := S1x128x1280) hz3, View.ld_unit_zero (S := S128x64) hz2,
      View.ld_unit_zero (S := S1x64) hz2, View.ld_unit_zero (S := S1x1) hz2, View.ld_unit_zero (S := S128x128) hz2,
      View.ld_unit_zero (S := S1x128) hz2, View.ld_unit_zero (S := S3200x1) hz2, View.ld_unit_zero (S := S3200x128) hz2,
      View.ld_unit_zero (S := S3200x64) hz2,
      View.readCov_unit_zero (S := S3200x64) _ hz2, View.readCov_unit_zero (S := S3200x1) _ hz2,
      View.readCov_unit_zero (S := S3200x128) _ hz2]
  ·
    dsimp only
    rw [View.read_writes_eq_canon _ _ _ (scoverA_2 m c t hc0 hc1)]
    unfold runA_at kernelRun0_A
    dsimp only
    sl_unfold_words
    rw [View.canon_cons_unit_zero (S := S3200x128) hz2]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread,
      (hs0_9 t).read_unread, (hs0_10 t).read_unread,
      (Memref.isWhole_whole _ : scM0_0.IsWhole).read_unread, (Memref.isWhole_whole _ : scM0_1.IsWhole).read_unread,
      (Memref.isWhole_whole _ : scM0_2.IsWhole).read_unread, (Memref.isWhole_whole _ : scM0_3.IsWhole).read_unread,
      View.ld_unit_zero (S := S1x128x3200) hz3, View.ld_unit_zero (S := S1x128x1280) hz3, View.ld_unit_zero (S := S128x64) hz2,
      View.ld_unit_zero (S := S1x64) hz2, View.ld_unit_zero (S := S1x1) hz2, View.ld_unit_zero (S := S128x128) hz2,
      View.ld_unit_zero (S := S1x128) hz2, View.ld_unit_zero (S := S3200x1) hz2, View.ld_unit_zero (S := S3200x128) hz2,
      View.ld_unit_zero (S := S3200x64) hz2,
      View.readCov_unit_zero (S := S3200x64) _ hz2, View.readCov_unit_zero (S := S3200x1) _ hz2,
      View.readCov_unit_zero (S := S3200x128) _ hz2]
  ·
    dsimp only
    rw [View.read_writes_eq_canon _ _ _ (scoverA_3 m c t hc0 hc1)]
    unfold runA_at kernelRun0_A
    dsimp only
    sl_unfold_words
    rw [View.canon_unit_zero (S := S3200x64) hz2]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread,
      (hs0_9 t).read_unread, (hs0_10 t).read_unread,
      (Memref.isWhole_whole _ : scM0_0.IsWhole).read_unread, (Memref.isWhole_whole _ : scM0_1.IsWhole).read_unread,
      (Memref.isWhole_whole _ : scM0_2.IsWhole).read_unread, (Memref.isWhole_whole _ : scM0_3.IsWhole).read_unread,
      View.ld_unit_zero (S := S1x128x3200) hz3, View.ld_unit_zero (S := S1x128x1280) hz3, View.ld_unit_zero (S := S128x64) hz2,
      View.ld_unit_zero (S := S1x64) hz2, View.ld_unit_zero (S := S1x1) hz2, View.ld_unit_zero (S := S128x128) hz2,
      View.ld_unit_zero (S := S1x128) hz2, View.ld_unit_zero (S := S3200x1) hz2, View.ld_unit_zero (S := S3200x128) hz2,
      View.ld_unit_zero (S := S3200x64) hz2,
      View.readCov_unit_zero (S := S3200x64) _ hz2, View.readCov_unit_zero (S := S3200x1) _ hz2,
      View.readCov_unit_zero (S := S3200x128) _ hz2]

set_option maxHeartbeats 1000000 in
theorem soutB_eq (c : Dev nD) (t : Fin cfg0.N) (hc0 : ¬cond0_0 (grid0.coords t)) (hc1 : ¬cond0_1 (grid0.coords t)) (xs : Vec F S3200x1 .f32 × Vec F S3200x1 .f32 × Vec F S3200x128 .f32 × Vec F S3200x64 .bf16) :
    soutB m c t hc0 hc1 xs = updS (iblk m c 1 t) (iblk m c 5 t) (iblk m c 6 t) (iblk m c 7 t) (iblk m c 8 t) (iblk m c 9 t) (iblk m c 10 t) xs := by
  unfold soutB updS
  refine Prod.ext ?_ (Prod.ext ?_ (Prod.ext ?_ rfl))
  ·
    dsimp only
    rw [View.read_writes_eq_canon _ _ _ (scoverB_0 m c t hc0 hc1 xs)]
    unfold runB_at kernelRun0_B
    dsimp only
    sl_unfold_words
    rw [View.canon_unit_zero (S := S3200x1) hz2]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread,
      (hs0_9 t).read_unread, (hs0_10 t).read_unread,
      (Memref.isWhole_whole _ : scM0_0.IsWhole).read_unread, (Memref.isWhole_whole _ : scM0_1.IsWhole).read_unread,
      (Memref.isWhole_whole _ : scM0_2.IsWhole).read_unread, (Memref.isWhole_whole _ : scM0_3.IsWhole).read_unread,
      View.ld_unit_zero (S := S1x128x3200) hz3, View.ld_unit_zero (S := S1x128x1280) hz3, View.ld_unit_zero (S := S128x64) hz2,
      View.ld_unit_zero (S := S1x64) hz2, View.ld_unit_zero (S := S1x1) hz2, View.ld_unit_zero (S := S128x128) hz2,
      View.ld_unit_zero (S := S1x128) hz2, View.ld_unit_zero (S := S3200x1) hz2, View.ld_unit_zero (S := S3200x128) hz2,
      View.ld_unit_zero (S := S3200x64) hz2,
      View.readCov_unit_zero (S := S3200x64) _ hz2, View.readCov_unit_zero (S := S3200x1) _ hz2,
      View.readCov_unit_zero (S := S3200x128) _ hz2]
  ·
    dsimp only
    rw [View.read_writes_eq_canon _ _ _ (scoverB_1 m c t hc0 hc1 xs)]
    unfold runB_at kernelRun0_B
    dsimp only
    sl_unfold_words
    rw [View.canon_unit_zero (S := S3200x1) hz2]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread,
      (hs0_9 t).read_unread, (hs0_10 t).read_unread,
      (Memref.isWhole_whole _ : scM0_0.IsWhole).read_unread, (Memref.isWhole_whole _ : scM0_1.IsWhole).read_unread,
      (Memref.isWhole_whole _ : scM0_2.IsWhole).read_unread, (Memref.isWhole_whole _ : scM0_3.IsWhole).read_unread,
      View.ld_unit_zero (S := S1x128x3200) hz3, View.ld_unit_zero (S := S1x128x1280) hz3, View.ld_unit_zero (S := S128x64) hz2,
      View.ld_unit_zero (S := S1x64) hz2, View.ld_unit_zero (S := S1x1) hz2, View.ld_unit_zero (S := S128x128) hz2,
      View.ld_unit_zero (S := S1x128) hz2, View.ld_unit_zero (S := S3200x1) hz2, View.ld_unit_zero (S := S3200x128) hz2,
      View.ld_unit_zero (S := S3200x64) hz2,
      View.readCov_unit_zero (S := S3200x64) _ hz2, View.readCov_unit_zero (S := S3200x1) _ hz2,
      View.readCov_unit_zero (S := S3200x128) _ hz2]
  ·
    dsimp only
    rw [View.read_writes_eq_canon _ _ _ (scoverB_2 m c t hc0 hc1 xs)]
    unfold runB_at kernelRun0_B
    dsimp only
    sl_unfold_words
    rw [View.canon_unit_zero (S := S3200x128) hz2]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread,
      (hs0_9 t).read_unread, (hs0_10 t).read_unread,
      (Memref.isWhole_whole _ : scM0_0.IsWhole).read_unread, (Memref.isWhole_whole _ : scM0_1.IsWhole).read_unread,
      (Memref.isWhole_whole _ : scM0_2.IsWhole).read_unread, (Memref.isWhole_whole _ : scM0_3.IsWhole).read_unread,
      View.ld_unit_zero (S := S1x128x3200) hz3, View.ld_unit_zero (S := S1x128x1280) hz3, View.ld_unit_zero (S := S128x64) hz2,
      View.ld_unit_zero (S := S1x64) hz2, View.ld_unit_zero (S := S1x1) hz2, View.ld_unit_zero (S := S128x128) hz2,
      View.ld_unit_zero (S := S1x128) hz2, View.ld_unit_zero (S := S3200x1) hz2, View.ld_unit_zero (S := S3200x128) hz2,
      View.ld_unit_zero (S := S3200x64) hz2,
      View.readCov_unit_zero (S := S3200x64) _ hz2, View.readCov_unit_zero (S := S3200x1) _ hz2,
      View.readCov_unit_zero (S := S3200x128) _ hz2]

set_option maxHeartbeats 1000000 in
theorem soutC_eq (c : Dev nD) (t : Fin cfg0.N) (hc0 : ¬cond0_0 (grid0.coords t)) (hc1 : cond0_1 (grid0.coords t)) (xs : Vec F S3200x1 .f32 × Vec F S3200x1 .f32 × Vec F S3200x128 .f32 × Vec F S3200x64 .bf16) :
    soutC m c t hc0 hc1 xs = updS (iblk m c 1 t) (iblk m c 5 t) (iblk m c 6 t) (iblk m c 7 t) (iblk m c 8 t) (iblk m c 9 t) (iblk m c 10 t) xs := by
  unfold soutC updS
  refine Prod.ext ?_ (Prod.ext ?_ (Prod.ext ?_ rfl))
  ·
    dsimp only
    rw [View.read_writes_eq_canon _ _ _ (scoverC_0 m c t hc0 hc1 xs)]
    unfold runC_at kernelRun0_C
    dsimp only
    sl_unfold_words
    rw [View.canon_unit_zero (S := S3200x1) hz2]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread,
      (hs0_9 t).read_unread, (hs0_10 t).read_unread,
      (Memref.isWhole_whole _ : scM0_0.IsWhole).read_unread, (Memref.isWhole_whole _ : scM0_1.IsWhole).read_unread,
      (Memref.isWhole_whole _ : scM0_2.IsWhole).read_unread, (Memref.isWhole_whole _ : scM0_3.IsWhole).read_unread,
      View.ld_unit_zero (S := S1x128x3200) hz3, View.ld_unit_zero (S := S1x128x1280) hz3, View.ld_unit_zero (S := S128x64) hz2,
      View.ld_unit_zero (S := S1x64) hz2, View.ld_unit_zero (S := S1x1) hz2, View.ld_unit_zero (S := S128x128) hz2,
      View.ld_unit_zero (S := S1x128) hz2, View.ld_unit_zero (S := S3200x1) hz2, View.ld_unit_zero (S := S3200x128) hz2,
      View.ld_unit_zero (S := S3200x64) hz2,
      View.readCov_unit_zero (S := S3200x64) _ hz2, View.readCov_unit_zero (S := S3200x1) _ hz2,
      View.readCov_unit_zero (S := S3200x128) _ hz2]
  ·
    dsimp only
    rw [View.read_writes_eq_canon _ _ _ (scoverC_1 m c t hc0 hc1 xs)]
    unfold runC_at kernelRun0_C
    dsimp only
    sl_unfold_words
    rw [View.canon_unit_zero (S := S3200x1) hz2]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread,
      (hs0_9 t).read_unread, (hs0_10 t).read_unread,
      (Memref.isWhole_whole _ : scM0_0.IsWhole).read_unread, (Memref.isWhole_whole _ : scM0_1.IsWhole).read_unread,
      (Memref.isWhole_whole _ : scM0_2.IsWhole).read_unread, (Memref.isWhole_whole _ : scM0_3.IsWhole).read_unread,
      View.ld_unit_zero (S := S1x128x3200) hz3, View.ld_unit_zero (S := S1x128x1280) hz3, View.ld_unit_zero (S := S128x64) hz2,
      View.ld_unit_zero (S := S1x64) hz2, View.ld_unit_zero (S := S1x1) hz2, View.ld_unit_zero (S := S128x128) hz2,
      View.ld_unit_zero (S := S1x128) hz2, View.ld_unit_zero (S := S3200x1) hz2, View.ld_unit_zero (S := S3200x128) hz2,
      View.ld_unit_zero (S := S3200x64) hz2,
      View.readCov_unit_zero (S := S3200x64) _ hz2, View.readCov_unit_zero (S := S3200x1) _ hz2,
      View.readCov_unit_zero (S := S3200x128) _ hz2]
  ·
    dsimp only
    rw [View.read_writes_eq_canon _ _ _ (scoverC_2 m c t hc0 hc1 xs)]
    unfold runC_at kernelRun0_C
    dsimp only
    sl_unfold_words
    rw [View.canon_unit_zero (S := S3200x128) hz2]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread,
      (hs0_9 t).read_unread, (hs0_10 t).read_unread,
      (Memref.isWhole_whole _ : scM0_0.IsWhole).read_unread, (Memref.isWhole_whole _ : scM0_1.IsWhole).read_unread,
      (Memref.isWhole_whole _ : scM0_2.IsWhole).read_unread, (Memref.isWhole_whole _ : scM0_3.IsWhole).read_unread,
      View.ld_unit_zero (S := S1x128x3200) hz3, View.ld_unit_zero (S := S1x128x1280) hz3, View.ld_unit_zero (S := S128x64) hz2,
      View.ld_unit_zero (S := S1x64) hz2, View.ld_unit_zero (S := S1x1) hz2, View.ld_unit_zero (S := S128x128) hz2,
      View.ld_unit_zero (S := S1x128) hz2, View.ld_unit_zero (S := S3200x1) hz2, View.ld_unit_zero (S := S3200x128) hz2,
      View.ld_unit_zero (S := S3200x64) hz2,
      View.readCov_unit_zero (S := S3200x64) _ hz2, View.readCov_unit_zero (S := S3200x1) _ hz2,
      View.readCov_unit_zero (S := S3200x128) _ hz2]

set_option maxHeartbeats 1000000 in
theorem outC_eq (c : Dev nD) (t : Fin cfg0.N) (hc0 : ¬cond0_0 (grid0.coords t)) (hc1 : cond0_1 (grid0.coords t)) (xs : Vec F S3200x1 .f32 × Vec F S3200x1 .f32 × Vec F S3200x128 .f32 × Vec F S3200x64 .bf16) :
    outC m c t hc0 hc1 xs = outS (updS (iblk m c 1 t) (iblk m c 5 t) (iblk m c 6 t) (iblk m c 7 t) (iblk m c 8 t) (iblk m c 9 t) (iblk m c 10 t) xs) := by
  unfold outC outS updS
  dsimp only
  rw [View.read_writes_eq_canon _ _ _ (coverC_11 m c t hc0 hc1 xs)]
  unfold runC_at kernelRun0_C
  dsimp only
  sl_unfold_words
  rw [View.canon_unit_zero (S := S1x128x3200) hz3]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread,
    (Memref.isWhole_whole _ : scM0_0.IsWhole).read_unread, (Memref.isWhole_whole _ : scM0_1.IsWhole).read_unread,
    (Memref.isWhole_whole _ : scM0_2.IsWhole).read_unread, (Memref.isWhole_whole _ : scM0_3.IsWhole).read_unread,
    View.ld_unit_zero (S := S1x128x3200) hz3, View.ld_unit_zero (S := S1x128x1280) hz3, View.ld_unit_zero (S := S128x64) hz2,
    View.ld_unit_zero (S := S1x64) hz2, View.ld_unit_zero (S := S1x1) hz2, View.ld_unit_zero (S := S128x128) hz2,
    View.ld_unit_zero (S := S1x128) hz2, View.ld_unit_zero (S := S3200x1) hz2, View.ld_unit_zero (S := S3200x128) hz2,
    View.ld_unit_zero (S := S3200x64) hz2,
    View.readCov_unit_zero (S := S3200x64) _ hz2, View.readCov_unit_zero (S := S3200x1) _ hz2,
    View.readCov_unit_zero (S := S3200x128) _ hz2]

/-- The scratch after each point, as the recursion over the points: a first tile (the point is 0 modulo 5) updates the
    reset scratch, a later tile what the point before left. -/
theorem scAt0_first (c : Dev nD) (t : Fin cfg0.N) (h0 : t.val % 5 = 0) :
    scAt0 m c t.val t.isLt = updS (iblk m c 1 t) (iblk m c 5 t) (iblk m c 6 t) (iblk m c 7 t) (iblk m c 8 t) (iblk m c 9 t) (iblk m c 10 t) (resetS (iblk m c 0 t) (iblk m c 2 t) (iblk m c 3 t) (iblk m c 4 t)) := by
  have h1 : ¬t.val % 5 = 4 := by omega
  exact (scAt0_A m c t h0 h1).trans (soutA_eq m c t ((hcond0_0 t).mpr h0) (fun h => h1 ((hcond0_1 t).mp h)))

theorem scAt0_next (c : Dev nD) (t : Fin cfg0.N) (h0 : ¬t.val % 5 = 0) :
    scAt0 m c t.val t.isLt = updS (iblk m c 1 t) (iblk m c 5 t) (iblk m c 6 t) (iblk m c 7 t) (iblk m c 8 t) (iblk m c 9 t) (iblk m c 10 t) (scAt0 m c (t.val - 1) (Nat.lt_of_le_of_lt (Nat.sub_le _ _) t.isLt)) := by
  by_cases h1 : t.val % 5 = 4
  · exact (scAt0_C m c t h0 h1).trans (soutC_eq m c t (fun h => h0 ((hcond0_0 t).mp h)) ((hcond0_1 t).mpr h1)
      (scAt0 m c (t.val - 1) (Nat.lt_of_le_of_lt (Nat.sub_le _ _) t.isLt)))
  · exact (scAt0_B m c t h0 h1).trans (soutB_eq m c t (fun h => h0 ((hcond0_0 t).mp h)) (fun h => h1 ((hcond0_1 t).mp h))
      (scAt0 m c (t.val - 1) (Nat.lt_of_le_of_lt (Nat.sub_le _ _) t.isLt)))

/-- The output's staging buffer after a last tile (the point is 4 modulo 5) is the quotient block of the scratch there. -/
theorem outAt0_last (c : Dev nD) (t : Fin cfg0.N) (h1 : t.val % 5 = 4) :
    outAt0 m c t = outS (scAt0 m c t.val t.isLt) := by
  have h0 : ¬t.val % 5 = 0 := by omega
  exact (outAt0_C m c t h0 h1).trans ((outC_eq m c t (fun h => h0 ((hcond0_0 t).mp h)) ((hcond0_1 t).mpr h1)
    (scAt0 m c (t.val - 1) (Nat.lt_of_le_of_lt (Nat.sub_le _ _) t.isLt))).trans
      (congrArg outS (scAt0_next m c t h0).symm))

end Cert.KernelIdeal.Hand

end
-- ==== Proof.Spec.lean ====
/- The mathematics both programs compute, over the real numbers. An image `x` of 128 channels on an 80 × 80 grid is read
   as 6400 tokens of 128 features; three per-token linear maps followed by a leaky rectifier with a learnt slope give
   the queries `e1` and keys `e2` (64 features) and the values `av` (128 features); the score of query `q` against key `k`
   is their inner product; each query's scores are turned into weights by the softmax (shifted by the row's maximum),
   and the result at query `q`, channel `c` is the weighted mean of the values' channel `c`. The kernel reaches the same
   number by visiting the keys in five blocks of 1280, carrying a running maximum, a running sum of weights and a running
   weighted sum that are rescaled whenever the maximum grows; `first`, `step` and `run` say that recursion. -/
import Mathlib.Analysis.SpecialFunctions.Exp
import Mathlib.Algebra.BigOperators.Fin
import Mathlib.Order.Fin.Basic
import Mathlib.Data.Finset.Lattice.Fold

noncomputable section

namespace Cert.Spec

open Finset

/-- Feature `c` of token `p` of image `n`: the pixel at row `p / 80`, column `p % 80`. -/
def tok (x : Fin 4 → Fin 128 → Fin 80 → Fin 80 → ℝ) (n : Fin 4) (p : Fin 6400) (c : Fin 128) : ℝ :=
  x n c ⟨p.val / 80, by have := p.isLt; omega⟩ ⟨p.val % 80, Nat.mod_lt _ (by decide)⟩

/-- The leaky rectifier with slope `a` on the negative side. -/
def prelu (a v : ℝ) : ℝ := if 0 ≤ v then v else a * v

/-- A per-token linear map to `D` features with bias, then the rectifier. -/
def proj {D : ℕ} (x : Fin 4 → Fin 128 → Fin 80 → Fin 80 → ℝ) (w : Fin D → Fin 128 → ℝ) (b : Fin D → ℝ) (a : ℝ)
    (n : Fin 4) (p : Fin 6400) (d : Fin D) : ℝ :=
  prelu a ((∑ c : Fin 128, tok x n p c * w d c) + b d)

/-- The score of query token `q` against key token `k`. -/
def score (e1 e2 : Fin 4 → Fin 6400 → Fin 64 → ℝ) (n : Fin 4) (q k : Fin 6400) : ℝ := ∑ d : Fin 64, e1 n q d * e2 n k d

/-- The largest of finitely many (at least one) reals. -/
def rowMax {K : ℕ} [NeZero K] (s : Fin K → ℝ) : ℝ := Finset.univ.sup' ⟨0, Finset.mem_univ _⟩ s

/-- The softmax-weighted mean of `a` under the scores `s`. -/
def softAvg {K : ℕ} [NeZero K] (s a : Fin K → ℝ) : ℝ :=
  ∑ k : Fin K, (Real.exp (s k - rowMax s) / ∑ k' : Fin K, Real.exp (s k' - rowMax s)) * a k

/-- Attention: the result at query `q`, channel `c`. -/
def att (e1 e2 : Fin 4 → Fin 6400 → Fin 64 → ℝ) (av : Fin 4 → Fin 6400 → Fin 128 → ℝ) (n : Fin 4) (q : Fin 6400) (c : Fin 128) : ℝ :=
  softAvg (fun k => score e1 e2 n q k) (fun k => av n k c)

/-- The whole function of the ten arguments: the result image at image `n`, channel `c`, row `h`, column `w`. -/
def G (x : Fin 4 → Fin 128 → Fin 80 → Fin 80 → ℝ) (w1 : Fin 64 → Fin 128 → ℝ) (b1 : Fin 64 → ℝ) (a1 : ℝ)
    (w2 : Fin 64 → Fin 128 → ℝ) (b2 : Fin 64 → ℝ) (a2 : ℝ) (wa : Fin 128 → Fin 128 → ℝ) (ba : Fin 128 → ℝ) (aa : ℝ)
    (n : Fin 4) (c : Fin 128) (h w : Fin 80) : ℝ :=
  att (proj x w1 b1 a1) (proj x w2 b2 a2) (proj x wa ba aa) n ⟨h.val * 80 + w.val, by have := h.isLt; have := w.isLt; omega⟩ c

/-! ## The blocked recursion -/

/-- Block `j` (of five) of a row of 6400: keys `1280 j … 1280 j + 1279` (zero beyond the fifth block). -/
def blk (s : Fin 6400 → ℝ) (j : ℕ) (k : Fin 1280) : ℝ :=
  if h : j < 5 then s ⟨j * 1280 + k.val, by have := k.isLt; omega⟩ else 0

/-- The running state after the first block: its maximum, the sum of its weights, its weighted sum. -/
def first (s a : Fin 1280 → ℝ) : ℝ × ℝ × ℝ :=
  (rowMax s, ∑ k : Fin 1280, Real.exp (s k - rowMax s), ∑ k : Fin 1280, Real.exp (s k - rowMax s) * a k)

/-- One more block: the maximum grows, the old sums are rescaled to it, the block's terms are added. -/
def step (st : ℝ × ℝ × ℝ) (s a : Fin 1280 → ℝ) : ℝ × ℝ × ℝ :=
  (max st.1 (rowMax s),
   Real.exp (st.1 - max st.1 (rowMax s)) * st.2.1 + ∑ k : Fin 1280, Real.exp (s k - max st.1 (rowMax s)),
   Real.exp (st.1 - max st.1 (rowMax s)) * st.2.2 + ∑ k : Fin 1280, Real.exp (s k - max st.1 (rowMax s)) * a k)

/-- The running state after blocks `0 … j`. -/
def run (s a : ℕ → Fin 1280 → ℝ) : ℕ → ℝ × ℝ × ℝ
  | 0 => first (s 0) (a 0)
  | j + 1 => step (run s a j) (s (j + 1)) (a (j + 1))

end Cert.Spec

end
-- ==== Proof.EOps.lean ====
/- The ideal float operations at coerced real numbers: on finite values every operation either program applies is the
   real operation, so both programs' intermediate values are coercions of the real quantities of the specification. -/
import proofs.«404800_j8830452761398_3_alg».proof.Proof.Spec
import Idealize.ShloMosaic.PureOps.Ideal
import Idealize.ShloMosaic.PureOps.Ideal.Laws
import Idealize.ShloMosaic.Lib.ValueIdx
import Mathlib.Data.EReal.Basic
import Mathlib.Data.EReal.Operations
import Mathlib.Data.Finset.Fold
import Mathlib.Tactic.Ring

noncomputable section

namespace Cert.EOps

open Idealize.ShloMosaic Finset

/-! ## Sums and maxima of coerced reals -/

/-- The coercion of a finite sum of reals is the sum of the coercions. -/
theorem coe_sum {ι : Type} (s : Finset ι) (f : ι → ℝ) : ((∑ i ∈ s, f i : ℝ) : EReal) = ∑ i ∈ s, ((f i : ℝ) : EReal) := by
  classical
  refine Finset.induction_on s ?_ fun i t hi ih => ?_
  · rw [Finset.sum_empty, Finset.sum_empty, EReal.coe_zero]
  · rw [Finset.sum_insert hi, Finset.sum_insert hi, EReal.coe_add, ih]

/-- The fold of `max` from `⊥` over the coercions of finitely many (at least one) reals is the coercion of their maximum. -/
theorem fold_max_coe {K : ℕ} [NeZero K] (s : Fin K → ℝ) :
    (Finset.univ : Finset (Fin K)).fold max (⊥ : EReal) (fun k => ((s k : ℝ) : EReal)) = ((Cert.Spec.rowMax s : ℝ) : EReal) := by
  have hne : (Finset.univ : Finset (Fin K)).Nonempty := ⟨0, Finset.mem_univ _⟩
  refine le_antisymm ?_ ?_
  · refine (Finset.fold_max_le _).2 ⟨bot_le, fun k hk => ?_⟩
    exact EReal.coe_le_coe_iff.2 (Finset.le_sup' s hk)
  · obtain ⟨k, hk, hmax⟩ := Finset.exists_mem_eq_sup' hne s
    refine (Finset.le_fold_max _).2 (Or.inr ⟨k, hk, ?_⟩)
    exact EReal.coe_le_coe_iff.2 (le_of_eq hmax)

/-- The same for any family of extended reals known, index by index, to be the coercions of `s`. -/
theorem fold_max_coe_of_eq {K : ℕ} [NeZero K] (s : Fin K → ℝ) (S : Fin K → EReal) (hS : ∀ k, S k = ((s k : ℝ) : EReal)) :
    (Finset.univ : Finset (Fin K)).fold max (⊥ : EReal) S = ((Cert.Spec.rowMax s : ℝ) : EReal) := by
  rw [show S = fun k => ((s k : ℝ) : EReal) from funext hS]
  exact fold_max_coe s

/-! ## The scalar operations at coerced reals

A printed vector operation read at an index (`simp only [mulf_apply, addf_apply, subf_apply, maximumf_apply, divf_apply,
select_apply, cmpf_apply, broadcast_apply, constant_apply]`, then `Ideal.exp_def`, `Ideal.hostUnary_exp_def`,
`Ideal.hostDivf_def`, `Ideal.cmpf_def`, `Ideal.ofBits_def` for the fields that remain) leaves `*`, `+`, `-`, `max`,
`Ideal.div`, `Ideal.exp`, `Ideal.cmp`, `Scalar.select` and `Ideal.ofBits` on extended reals. The arithmetic four are
one-line rewrites: `EReal.coe_mul`, `EReal.coe_add`, `EReal.coe_sub` (right to left) and the monotone coercion's
`Monotone.map_max`; they are restated here left to right under the names `mul_coe`, `add_coe`, `sub_coe`, `max_coe`. -/

/-- The ideal exponential of a real is the real exponential. -/
theorem exp_coe (r : ℝ) : Ideal.exp (r : EReal) = ((Real.exp r : ℝ) : EReal) := rfl
/-- The ideal exponential of `-∞` is zero. -/
theorem exp_bot : Ideal.exp (⊥ : EReal) = 0 := rfl
/-- The kernel's exponential field, before `Ideal.exp_def`. -/
theorem exp_coe_op {φ : FTy} (r : ℝ) : FloatOps.exp (F := Ideal) (φ := φ) (r : EReal) = ((Real.exp r : ℝ) : EReal) := rfl
theorem exp_bot_op {φ : FTy} : FloatOps.exp (F := Ideal) (φ := φ) (⊥ : EReal) = 0 := rfl
/-- The host's exponential (`Host.exp` at an index), before `Ideal.hostUnary_exp_def`. -/
theorem exp_coe_host {φ : FTy} (r : ℝ) :
    FloatOps.hostUnary (F := Ideal) (φ := φ) .exp (r : EReal) = ((Real.exp r : ℝ) : EReal) := rfl
theorem exp_bot_host {φ : FTy} : FloatOps.hostUnary (F := Ideal) (φ := φ) .exp (⊥ : EReal) = 0 := rfl

theorem sub_coe (a b : ℝ) : (a : EReal) - (b : EReal) = ((a - b : ℝ) : EReal) := (EReal.coe_sub a b).symm
theorem mul_coe (a b : ℝ) : (a : EReal) * (b : EReal) = ((a * b : ℝ) : EReal) := (EReal.coe_mul a b).symm
theorem add_coe (a b : ℝ) : (a : EReal) + (b : EReal) = ((a + b : ℝ) : EReal) := (EReal.coe_add a b).symm
theorem max_coe (a b : ℝ) : max (a : EReal) (b : EReal) = ((max a b : ℝ) : EReal) :=
  (EReal.coe_strictMono.monotone.map_max).symm
/-- The maximum with `-∞` is the other operand. -/
theorem max_bot_coe (a : ℝ) : max (⊥ : EReal) (a : EReal) = (a : EReal) := max_eq_right bot_le
/-- `-∞` minus a real is `-∞`. -/
theorem bot_sub_coe (a : ℝ) : (⊥ : EReal) - (a : EReal) = ⊥ := EReal.bot_sub _

/-- The ideal quotient of two reals, the divisor not zero, is the real quotient (after `divf_apply`; the host's after
    `Ideal.hostDivf_def`). -/
theorem div_coe (a b : ℝ) (hb : b ≠ 0) : Ideal.div (a : EReal) (b : EReal) = ((a / b : ℝ) : EReal) := by
  rw [Ideal.div_coe hb, ← EReal.coe_mul, mul_one_div]
/-- The kernel's quotient field, before `Ideal.divf_def`. -/
theorem div_coe_op {φ : FTy} (a b : ℝ) (hb : b ≠ 0) :
    FloatOps.divf (F := Ideal) (φ := φ) (a : EReal) (b : EReal) = ((a / b : ℝ) : EReal) := div_coe a b hb
/-- The host's quotient field, before `Ideal.hostDivf_def`. -/
theorem div_coe_host {φ : FTy} (a b : ℝ) (hb : b ≠ 0) :
    FloatOps.hostDivf (F := Ideal) (φ := φ) (a : EReal) (b : EReal) = ((a / b : ℝ) : EReal) := div_coe a b hb

/-- The pattern of the literal `-∞` is the bottom element. -/
theorem neg_inf : Ideal.ofBits .f32 0xFF800000#32 = (⊥ : EReal) := by simp [Ideal.ofBits, Ideal.ieee]
/-- The same through the instance's field (`Scalar.ofBits` is this field too). -/
theorem neg_inf_op : FloatOps.ofBits (F := Ideal) .f32 0xFF800000#32 = (⊥ : EReal) := neg_inf

/-! ## The leaky rectifier -/

/-- The comparison "at least zero" of a real, as a one-bit word. -/
theorem cmp_oge_zero (v : ℝ) : Ideal.cmp .oge (v : EReal) 0 = if 0 ≤ v then 1#1 else 0#1 := by
  by_cases h : 0 ≤ v
  · have h' : (0 : EReal) ≤ (v : EReal) := EReal.coe_nonneg.2 h
    simp [Ideal.cmp, h, h']
  · have h' : ¬ (0 : EReal) ≤ (v : EReal) := fun h'' => h (EReal.coe_nonneg.1 h'')
    simp [Ideal.cmp, h, h']

/-- The rectifier as printed, `select (cmpf .oge x zero) x (mulf α x)`, read at an index where `x` is `↑v` and `α` is `↑a`,
    the zero already rewritten to `0` (`Ideal.ofBits_zero_f32`) and the comparison to `Ideal.cmp` (`Ideal.cmpf_def`). -/
theorem prelu_coe_zero (a v : ℝ) :
    Scalar.select (Ideal.cmp .oge (v : EReal) 0) (v : EReal) ((a : EReal) * (v : EReal))
      = ((Cert.Spec.prelu a v : ℝ) : EReal) := by
  rw [cmp_oge_zero]
  unfold Cert.Spec.prelu
  by_cases h : 0 ≤ v
  · rw [if_pos h, if_pos h]; exact ValueIdx.select_one _ _
  · rw [if_neg h, if_neg h, mul_coe]; exact ValueIdx.select_zero _ _

/-- The same with the zero as the f32 literal, the form `simp only [select_apply, cmpf_apply, mulf_apply, constant_apply]`
    leaves. -/
theorem prelu_coe (a v : ℝ) :
    Scalar.select (FloatOps.cmpf (F := Ideal) (φ := .f32) .oge (v : EReal) (Ideal.ofBits .f32 0x00000000#32)) (v : EReal)
        ((a : EReal) * (v : EReal))
      = ((Cert.Spec.prelu a v : ℝ) : EReal) := by
  rw [Ideal.ofBits_zero_f32]
  exact prelu_coe_zero a v

/-- The same with every operation still the instance's field (nothing unfolded but the vector operations). -/
theorem prelu_coe_op (a v : ℝ) :
    Scalar.select (FloatOps.cmpf (F := Ideal) (φ := .f32) .oge (v : EReal) (FloatOps.ofBits .f32 0x00000000#32)) (v : EReal)
        (FloatOps.mulf (F := Ideal) (φ := .f32) (a : EReal) (v : EReal))
      = ((Cert.Spec.prelu a v : ℝ) : EReal) := prelu_coe a v

/-! ## The blocked recursion at the ideal values -/

/-- The block's weights, shifted by a real `M`, sum to the coercion of the real sum. -/
theorem sum_exp_coe (s : Fin 1280 → ℝ) (M : ℝ) :
    ∑ k : Fin 1280, Ideal.exp (((s k : ℝ) : EReal) - (M : EReal)) = ((∑ k : Fin 1280, Real.exp (s k - M) : ℝ) : EReal) := by
  rw [coe_sum]
  exact Finset.sum_congr rfl fun k _ => by rw [sub_coe, exp_coe]

/-- The block's weighted values likewise. -/
theorem sum_exp_mul_coe (s a : Fin 1280 → ℝ) (M : ℝ) :
    ∑ k : Fin 1280, Ideal.exp (((s k : ℝ) : EReal) - (M : EReal)) * ((a k : ℝ) : EReal)
      = ((∑ k : Fin 1280, Real.exp (s k - M) * a k : ℝ) : EReal) := by
  rw [coe_sum]
  exact Finset.sum_congr rfl fun k _ => by rw [sub_coe, exp_coe, mul_coe]

/-- First block, from the reset state `(⊥, 0, 0)`: the new maximum. -/
theorem first_m (s a : Fin 1280 → ℝ) :
    max (⊥ : EReal) ((Finset.univ : Finset (Fin 1280)).fold max (⊥ : EReal) (fun k => ((s k : ℝ) : EReal)))
      = (((Cert.Spec.first s a).1 : ℝ) : EReal) := by
  rw [fold_max_coe, max_bot_coe]
  rfl

/-- First block: the new sum of weights (`m'` the new maximum, as `first_m` gives it: `first_l s a _ (first_m s a)`). -/
theorem first_l (s a : Fin 1280 → ℝ) (m' : EReal) (hm : m' = (((Cert.Spec.first s a).1 : ℝ) : EReal)) :
    Ideal.exp ((⊥ : EReal) - m') * 0 + ∑ k : Fin 1280, Ideal.exp (((s k : ℝ) : EReal) - m')
      = (((Cert.Spec.first s a).2.1 : ℝ) : EReal) := by
  subst hm
  rw [bot_sub_coe, exp_bot, zero_mul, zero_add, sum_exp_coe]
  rfl

/-- First block: the new weighted sum. -/
theorem first_acc (s a : Fin 1280 → ℝ) (m' : EReal) (hm : m' = (((Cert.Spec.first s a).1 : ℝ) : EReal)) :
    Ideal.exp ((⊥ : EReal) - m') * 0 + ∑ k : Fin 1280, Ideal.exp (((s k : ℝ) : EReal) - m') * ((a k : ℝ) : EReal)
      = (((Cert.Spec.first s a).2.2 : ℝ) : EReal) := by
  subst hm
  rw [bot_sub_coe, exp_bot, zero_mul, zero_add, sum_exp_mul_coe]
  rfl

/-- A later block, from a real state: the new maximum. -/
theorem step_m (st : ℝ × ℝ × ℝ) (s a : Fin 1280 → ℝ) :
    max ((st.1 : ℝ) : EReal) ((Finset.univ : Finset (Fin 1280)).fold max (⊥ : EReal) (fun k => ((s k : ℝ) : EReal)))
      = (((Cert.Spec.step st s a).1 : ℝ) : EReal) := by
  rw [fold_max_coe, max_coe]
  rfl

/-- A later block: the new sum of weights (`m'` the new maximum: `step_l st s a _ (step_m st s a)`). -/
theorem step_l (st : ℝ × ℝ × ℝ) (s a : Fin 1280 → ℝ) (m' : EReal) (hm : m' = (((Cert.Spec.step st s a).1 : ℝ) : EReal)) :
    Ideal.exp (((st.1 : ℝ) : EReal) - m') * ((st.2.1 : ℝ) : EReal) + ∑ k : Fin 1280, Ideal.exp (((s k : ℝ) : EReal) - m')
      = (((Cert.Spec.step st s a).2.1 : ℝ) : EReal) := by
  subst hm
  rw [sub_coe, exp_coe, mul_coe, sum_exp_coe, add_coe]
  rfl

/-- A later block: the new weighted sum. -/
theorem step_acc (st : ℝ × ℝ × ℝ) (s a : Fin 1280 → ℝ) (m' : EReal) (hm : m' = (((Cert.Spec.step st s a).1 : ℝ) : EReal)) :
    Ideal.exp (((st.1 : ℝ) : EReal) - m') * ((st.2.2 : ℝ) : EReal)
        + ∑ k : Fin 1280, Ideal.exp (((s k : ℝ) : EReal) - m') * ((a k : ℝ) : EReal)
      = (((Cert.Spec.step st s a).2.2 : ℝ) : EReal) := by
  subst hm
  rw [sub_coe, exp_coe, mul_coe, sum_exp_mul_coe, add_coe]
  rfl

end Cert.EOps

end
-- ==== Proof.KI.Pays.lean ====
/- The kernel's pure functions of its blocks, read index by index at the ideal instance where the blocks are coercions of
   real arrays: the projections are the rectified linear maps of the specification; the reset scratch is minus infinity,
   zero, zero and the queries' projection; one tile's update of a scratch holding real numbers is the specification's
   `step` (from the reset scratch, its `first`), row by row and channel by channel; the output block is the accumulator over
   the sum. -/
import proofs.«404800_j8830452761398_3_alg».proof.Proof.KI.Steps
import proofs.«404800_j8830452761398_3_alg».proof.Proof.EOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Spec

/-! The product `dot_S3200x128_S128x64_S3200x64_1_0_0_1_n_n` read at an index. -/
theorem lhs_q_0 (i : S3200x64.Idx) (q : dot_S3200x128_S128x64_S3200x64_1_0_0_1_n_n.contr.Idx) :
    (dot_S3200x128_S128x64_S3200x64_1_0_0_1_n_n.lhsIdx i q 0).val = (i 0).val := by
  unfold DotDims.lhsIdx
  rw [dif_neg (show ¬(0 : Fin S3200x128.rank) ∈ dot_S3200x128_S128x64_S3200x64_1_0_0_1_n_n.lhsBatch by decide), dif_pos (show (0 : Fin S3200x128.rank) ∈ dot_S3200x128_S128x64_S3200x64_1_0_0_1_n_n.lhsNonContracting by decide)]
  rfl
theorem lhs_q_1 (i : S3200x64.Idx) (q : dot_S3200x128_S128x64_S3200x64_1_0_0_1_n_n.contr.Idx) :
    (dot_S3200x128_S128x64_S3200x64_1_0_0_1_n_n.lhsIdx i q 1).val = (q ⟨0, by decide⟩).val :=
  dot_S3200x128_S128x64_S3200x64_1_0_0_1_n_n.lhsIdx_val_of_single rfl i q
theorem rhs_q_0 (i : S3200x64.Idx) (q : dot_S3200x128_S128x64_S3200x64_1_0_0_1_n_n.contr.Idx) :
    (dot_S3200x128_S128x64_S3200x64_1_0_0_1_n_n.rhsIdx i q 0).val = (q ⟨0, by decide⟩).val :=
  dot_S3200x128_S128x64_S3200x64_1_0_0_1_n_n.rhsIdx_val_of_single rfl i q
theorem rhs_q_1 (i : S3200x64.Idx) (q : dot_S3200x128_S128x64_S3200x64_1_0_0_1_n_n.contr.Idx) :
    (dot_S3200x128_S128x64_S3200x64_1_0_0_1_n_n.rhsIdx i q 1).val = (i 1).val := by
  unfold DotDims.rhsIdx
  rw [dif_neg (show ¬(1 : Fin S128x64.rank) ∈ dot_S3200x128_S128x64_S3200x64_1_0_0_1_n_n.rhsBatch by decide), dif_pos (show (1 : Fin S128x64.rank) ∈ dot_S3200x128_S128x64_S3200x64_1_0_0_1_n_n.rhsNonContracting by decide)]
  rfl
/-- The product into the zero accumulator at `(p, q)` is the sum over the contracted coordinate. -/
theorem matmul_q (lhs : FVec Ideal S3200x128 .bf16) (rhs : FVec Ideal S128x64 .bf16) (p : Fin 3200) (q : Fin 64) :
    matmul dot_S3200x128_S128x64_S3200x64_1_0_0_1_n_n none lhs rhs (constant (F := Ideal) S3200x64 .f32 0x00000000#32) (ix2 p q)
      = ∑ k : Fin 128, lhs (ix2 p k) * rhs (ix2 k q) := by
  simp only [matmul]
  rw [Ideal.matmul_constant_zero_apply, ← Equiv.sum_comp (ValueIdx.contrEquiv1 dot_S3200x128_S128x64_S3200x64_1_0_0_1_n_n 128 rfl rfl).symm]
  refine Finset.sum_congr rfl fun k _ => ?_
  have hk := ValueIdx.contrEquiv1_symm_val dot_S3200x128_S128x64_S3200x64_1_0_0_1_n_n 128 rfl rfl k
  have el : dot_S3200x128_S128x64_S3200x64_1_0_0_1_n_n.lhsIdx (ix2 p q) ((ValueIdx.contrEquiv1 dot_S3200x128_S128x64_S3200x64_1_0_0_1_n_n 128 rfl rfl).symm k) = ix2 p k := funext fun a => Fin.ext (by
    match a with
    | ⟨0, _⟩ => exact lhs_q_0 _ _
    | ⟨1, _⟩ => exact (lhs_q_1 _ _).trans hk)
  have er : dot_S3200x128_S128x64_S3200x64_1_0_0_1_n_n.rhsIdx (ix2 p q) ((ValueIdx.contrEquiv1 dot_S3200x128_S128x64_S3200x64_1_0_0_1_n_n 128 rfl rfl).symm k) = ix2 k q := funext fun a => Fin.ext (by
    match a with
    | ⟨0, _⟩ => exact (rhs_q_0 _ _).trans hk
    | ⟨1, _⟩ => exact rhs_q_1 _ _)
  rw [el, er]

/-! The product `dot_S1280x128_S128x64_S1280x64_1_0_0_1_n_n` read at an index. -/
theorem lhs_k_0 (i : S1280x64.Idx) (q : dot_S1280x128_S128x64_S1280x64_1_0_0_1_n_n.contr.Idx) :
    (dot_S1280x128_S128x64_S1280x64_1_0_0_1_n_n.lhsIdx i q 0).val = (i 0).val := by
  unfold DotDims.lhsIdx
  rw [dif_neg (show ¬(0 : Fin S1280x128.rank) ∈ dot_S1280x128_S128x64_S1280x64_1_0_0_1_n_n.lhsBatch by decide), dif_pos (show (0 : Fin S1280x128.rank) ∈ dot_S1280x128_S128x64_S1280x64_1_0_0_1_n_n.lhsNonContracting by decide)]
  rfl
theorem lhs_k_1 (i : S1280x64.Idx) (q : dot_S1280x128_S128x64_S1280x64_1_0_0_1_n_n.contr.Idx) :
    (dot_S1280x128_S128x64_S1280x64_1_0_0_1_n_n.lhsIdx i q 1).val = (q ⟨0, by decide⟩).val :=
  dot_S1280x128_S128x64_S1280x64_1_0_0_1_n_n.lhsIdx_val_of_single rfl i q
theorem rhs_k_0 (i : S1280x64.Idx) (q : dot_S1280x128_S128x64_S1280x64_1_0_0_1_n_n.contr.Idx) :
    (dot_S1280x128_S128x64_S1280x64_1_0_0_1_n_n.rhsIdx i q 0).val = (q ⟨0, by decide⟩).val :=
  dot_S1280x128_S128x64_S1280x64_1_0_0_1_n_n.rhsIdx_val_of_single rfl i q
theorem rhs_k_1 (i : S1280x64.Idx) (q : dot_S1280x128_S128x64_S1280x64_1_0_0_1_n_n.contr.Idx) :
    (dot_S1280x128_S128x64_S1280x64_1_0_0_1_n_n.rhsIdx i q 1).val = (i 1).val := by
  unfold DotDims.rhsIdx
  rw [dif_neg (show ¬(1 : Fin S128x64.rank) ∈ dot_S1280x128_S128x64_S1280x64_1_0_0_1_n_n.rhsBatch by decide), dif_pos (show (1 : Fin S128x64.rank) ∈ dot_S1280x128_S128x64_S1280x64_1_0_0_1_n_n.rhsNonContracting by decide)]
  rfl
/-- The product into the zero accumulator at `(p, q)` is the sum over the contracted coordinate. -/
theorem matmul_k (lhs : FVec Ideal S1280x128 .bf16) (rhs : FVec Ideal S128x64 .bf16) (p : Fin 1280) (q : Fin 64) :
    matmul dot_S1280x128_S128x64_S1280x64_1_0_0_1_n_n none lhs rhs (constant (F := Ideal) S1280x64 .f32 0x00000000#32) (ix2 p q)
      = ∑ k : Fin 128, lhs (ix2 p k) * rhs (ix2 k q) := by
  simp only [matmul]
  rw [Ideal.matmul_constant_zero_apply, ← Equiv.sum_comp (ValueIdx.contrEquiv1 dot_S1280x128_S128x64_S1280x64_1_0_0_1_n_n 128 rfl rfl).symm]
  refine Finset.sum_congr rfl fun k _ => ?_
  have hk := ValueIdx.contrEquiv1_symm_val dot_S1280x128_S128x64_S1280x64_1_0_0_1_n_n 128 rfl rfl k
  have el : dot_S1280x128_S128x64_S1280x64_1_0_0_1_n_n.lhsIdx (ix2 p q) ((ValueIdx.contrEquiv1 dot_S1280x128_S128x64_S1280x64_1_0_0_1_n_n 128 rfl rfl).symm k) = ix2 p k := funext fun a => Fin.ext (by
    match a with
    | ⟨0, _⟩ => exact lhs_k_0 _ _
    | ⟨1, _⟩ => exact (lhs_k_1 _ _).trans hk)
  have er : dot_S1280x128_S128x64_S1280x64_1_0_0_1_n_n.rhsIdx (ix2 p q) ((ValueIdx.contrEquiv1 dot_S1280x128_S128x64_S1280x64_1_0_0_1_n_n 128 rfl rfl).symm k) = ix2 k q := funext fun a => Fin.ext (by
    match a with
    | ⟨0, _⟩ => exact (rhs_k_0 _ _).trans hk
    | ⟨1, _⟩ => exact rhs_k_1 _ _)
  rw [el, er]

/-! The product `dot_S1280x128_S128x128_S1280x128_1_0_0_1_n_n` read at an index. -/
theorem lhs_v_0 (i : S1280x128.Idx) (q : dot_S1280x128_S128x128_S1280x128_1_0_0_1_n_n.contr.Idx) :
    (dot_S1280x128_S128x128_S1280x128_1_0_0_1_n_n.lhsIdx i q 0).val = (i 0).val := by
  unfold DotDims.lhsIdx
  rw [dif_neg (show ¬(0 : Fin S1280x128.rank) ∈ dot_S1280x128_S128x128_S1280x128_1_0_0_1_n_n.lhsBatch by decide), dif_pos (show (0 : Fin S1280x128.rank) ∈ dot_S1280x128_S128x128_S1280x128_1_0_0_1_n_n.lhsNonContracting by decide)]
  rfl
theorem lhs_v_1 (i : S1280x128.Idx) (q : dot_S1280x128_S128x128_S1280x128_1_0_0_1_n_n.contr.Idx) :
    (dot_S1280x128_S128x128_S1280x128_1_0_0_1_n_n.lhsIdx i q 1).val = (q ⟨0, by decide⟩).val :=
  dot_S1280x128_S128x128_S1280x128_1_0_0_1_n_n.lhsIdx_val_of_single rfl i q
theorem rhs_v_0 (i : S1280x128.Idx) (q : dot_S1280x128_S128x128_S1280x128_1_0_0_1_n_n.contr.Idx) :
    (dot_S1280x128_S128x128_S1280x128_1_0_0_1_n_n.rhsIdx i q 0).val = (q ⟨0, by decide⟩).val :=
  dot_S1280x128_S128x128_S1280x128_1_0_0_1_n_n.rhsIdx_val_of_single rfl i q
theorem rhs_v_1 (i : S1280x128.Idx) (q : dot_S1280x128_S128x128_S1280x128_1_0_0_1_n_n.contr.Idx) :
    (dot_S1280x128_S128x128_S1280x128_1_0_0_1_n_n.rhsIdx i q 1).val = (i 1).val := by
  unfold DotDims.rhsIdx
  rw [dif_neg (show ¬(1 : Fin S128x128.rank) ∈ dot_S1280x128_S128x128_S1280x128_1_0_0_1_n_n.rhsBatch by decide), dif_pos (show (1 : Fin S128x128.rank) ∈ dot_S1280x128_S128x128_S1280x128_1_0_0_1_n_n.rhsNonContracting by decide)]
  rfl
/-- The product into the zero accumulator at `(p, q)` is the sum over the contracted coordinate. -/
theorem matmul_v (lhs : FVec Ideal S1280x128 .bf16) (rhs : FVec Ideal S128x128 .bf16) (p : Fin 1280) (q : Fin 128) :
    matmul dot_S1280x128_S128x128_S1280x128_1_0_0_1_n_n none lhs rhs (constant (F := Ideal) S1280x128 .f32 0x00000000#32) (ix2 p q)
      = ∑ k : Fin 128, lhs (ix2 p k) * rhs (ix2 k q) := by
  simp only [matmul]
  rw [Ideal.matmul_constant_zero_apply, ← Equiv.sum_comp (ValueIdx.contrEquiv1 dot_S1280x128_S128x128_S1280x128_1_0_0_1_n_n 128 rfl rfl).symm]
  refine Finset.sum_congr rfl fun k _ => ?_
  have hk := ValueIdx.contrEquiv1_symm_val dot_S1280x128_S128x128_S1280x128_1_0_0_1_n_n 128 rfl rfl k
  have el : dot_S1280x128_S128x128_S1280x128_1_0_0_1_n_n.lhsIdx (ix2 p q) ((ValueIdx.contrEquiv1 dot_S1280x128_S128x128_S1280x128_1_0_0_1_n_n 128 rfl rfl).symm k) = ix2 p k := funext fun a => Fin.ext (by
    match a with
    | ⟨0, _⟩ => exact lhs_v_0 _ _
    | ⟨1, _⟩ => exact (lhs_v_1 _ _).trans hk)
  have er : dot_S1280x128_S128x128_S1280x128_1_0_0_1_n_n.rhsIdx (ix2 p q) ((ValueIdx.contrEquiv1 dot_S1280x128_S128x128_S1280x128_1_0_0_1_n_n 128 rfl rfl).symm k) = ix2 k q := funext fun a => Fin.ext (by
    match a with
    | ⟨0, _⟩ => exact (rhs_v_0 _ _).trans hk
    | ⟨1, _⟩ => exact rhs_v_1 _ _)
  rw [el, er]

/-! The product `dot_S3200x64_S1280x64_S3200x1280_1_1_0_0_n_n` read at an index. -/
theorem lhs_s_0 (i : S3200x1280.Idx) (q : dot_S3200x64_S1280x64_S3200x1280_1_1_0_0_n_n.contr.Idx) :
    (dot_S3200x64_S1280x64_S3200x1280_1_1_0_0_n_n.lhsIdx i q 0).val = (i 0).val := by
  unfold DotDims.lhsIdx
  rw [dif_neg (show ¬(0 : Fin S3200x64.rank) ∈ dot_S3200x64_S1280x64_S3200x1280_1_1_0_0_n_n.lhsBatch by decide), dif_pos (show (0 : Fin S3200x64.rank) ∈ dot_S3200x64_S1280x64_S3200x1280_1_1_0_0_n_n.lhsNonContracting by decide)]
  rfl
theorem lhs_s_1 (i : S3200x1280.Idx) (q : dot_S3200x64_S1280x64_S3200x1280_1_1_0_0_n_n.contr.Idx) :
    (dot_S3200x64_S1280x64_S3200x1280_1_1_0_0_n_n.lhsIdx i q 1).val = (q ⟨0, by decide⟩).val :=
  dot_S3200x64_S1280x64_S3200x1280_1_1_0_0_n_n.lhsIdx_val_of_single rfl i q
theorem rhs_s_0 (i : S3200x1280.Idx) (q : dot_S3200x64_S1280x64_S3200x1280_1_1_0_0_n_n.contr.Idx) :
    (dot_S3200x64_S1280x64_S3200x1280_1_1_0_0_n_n.rhsIdx i q 0).val = (i 1).val := by
  unfold DotDims.rhsIdx
  rw [dif_neg (show ¬(0 : Fin S1280x64.rank) ∈ dot_S3200x64_S1280x64_S3200x1280_1_1_0_0_n_n.rhsBatch by decide), dif_pos (show (0 : Fin S1280x64.rank) ∈ dot_S3200x64_S1280x64_S3200x1280_1_1_0_0_n_n.rhsNonContracting by decide)]
  rfl
theorem rhs_s_1 (i : S3200x1280.Idx) (q : dot_S3200x64_S1280x64_S3200x1280_1_1_0_0_n_n.contr.Idx) :
    (dot_S3200x64_S1280x64_S3200x1280_1_1_0_0_n_n.rhsIdx i q 1).val = (q ⟨0, by decide⟩).val :=
  dot_S3200x64_S1280x64_S3200x1280_1_1_0_0_n_n.rhsIdx_val_of_single rfl i q
/-- The product into the zero accumulator at `(p, q)` is the sum over the contracted coordinate. -/
theorem matmul_s (lhs : FVec Ideal S3200x64 .bf16) (rhs : FVec Ideal S1280x64 .bf16) (p : Fin 3200) (q : Fin 1280) :
    matmul dot_S3200x64_S1280x64_S3200x1280_1_1_0_0_n_n none lhs rhs (constant (F := Ideal) S3200x1280 .f32 0x00000000#32) (ix2 p q)
      = ∑ k : Fin 64, lhs (ix2 p k) * rhs (ix2 q k) := by
  simp only [matmul]
  rw [Ideal.matmul_constant_zero_apply, ← Equiv.sum_comp (ValueIdx.contrEquiv1 dot_S3200x64_S1280x64_S3200x1280_1_1_0_0_n_n 64 rfl rfl).symm]
  refine Finset.sum_congr rfl fun k _ => ?_
  have hk := ValueIdx.contrEquiv1_symm_val dot_S3200x64_S1280x64_S3200x1280_1_1_0_0_n_n 64 rfl rfl k
  have el : dot_S3200x64_S1280x64_S3200x1280_1_1_0_0_n_n.lhsIdx (ix2 p q) ((ValueIdx.contrEquiv1 dot_S3200x64_S1280x64_S3200x1280_1_1_0_0_n_n 64 rfl rfl).symm k) = ix2 p k := funext fun a => Fin.ext (by
    match a with
    | ⟨0, _⟩ => exact lhs_s_0 _ _
    | ⟨1, _⟩ => exact (lhs_s_1 _ _).trans hk)
  have er : dot_S3200x64_S1280x64_S3200x1280_1_1_0_0_n_n.rhsIdx (ix2 p q) ((ValueIdx.contrEquiv1 dot_S3200x64_S1280x64_S3200x1280_1_1_0_0_n_n 64 rfl rfl).symm k) = ix2 q k := funext fun a => Fin.ext (by
    match a with
    | ⟨0, _⟩ => exact rhs_s_0 _ _
    | ⟨1, _⟩ => exact (rhs_s_1 _ _).trans hk)
  rw [el, er]

/-! The product `dot_S3200x1280_S1280x128_S3200x128_1_0_0_1_n_n` read at an index. -/
theorem lhs_o_0 (i : S3200x128.Idx) (q : dot_S3200x1280_S1280x128_S3200x128_1_0_0_1_n_n.contr.Idx) :
    (dot_S3200x1280_S1280x128_S3200x128_1_0_0_1_n_n.lhsIdx i q 0).val = (i 0).val := by
  unfold DotDims.lhsIdx
  rw [dif_neg (show ¬(0 : Fin S3200x1280.rank) ∈ dot_S3200x1280_S1280x128_S3200x128_1_0_0_1_n_n.lhsBatch by decide), dif_pos (show (0 : Fin S3200x1280.rank) ∈ dot_S3200x1280_S1280x128_S3200x128_1_0_0_1_n_n.lhsNonContracting by decide)]
  rfl
theorem lhs_o_1 (i : S3200x128.Idx) (q : dot_S3200x1280_S1280x128_S3200x128_1_0_0_1_n_n.contr.Idx) :
    (dot_S3200x1280_S1280x128_S3200x128_1_0_0_1_n_n.lhsIdx i q 1).val = (q ⟨0, by decide⟩).val :=
  dot_S3200x1280_S1280x128_S3200x128_1_0_0_1_n_n.lhsIdx_val_of_single rfl i q
theorem rhs_o_0 (i : S3200x128.Idx) (q : dot_S3200x1280_S1280x128_S3200x128_1_0_0_1_n_n.contr.Idx) :
    (dot_S3200x1280_S1280x128_S3200x128_1_0_0_1_n_n.rhsIdx i q 0).val = (q ⟨0, by decide⟩).val :=
  dot_S3200x1280_S1280x128_S3200x128_1_0_0_1_n_n.rhsIdx_val_of_single rfl i q
theorem rhs_o_1 (i : S3200x128.Idx) (q : dot_S3200x1280_S1280x128_S3200x128_1_0_0_1_n_n.contr.Idx) :
    (dot_S3200x1280_S1280x128_S3200x128_1_0_0_1_n_n.rhsIdx i q 1).val = (i 1).val := by
  unfold DotDims.rhsIdx
  rw [dif_neg (show ¬(1 : Fin S1280x128.rank) ∈ dot_S3200x1280_S1280x128_S3200x128_1_0_0_1_n_n.rhsBatch by decide), dif_pos (show (1 : Fin S1280x128.rank) ∈ dot_S3200x1280_S1280x128_S3200x128_1_0_0_1_n_n.rhsNonContracting by decide)]
  rfl
/-- The product into the zero accumulator at `(p, q)` is the sum over the contracted coordinate. -/
theorem matmul_o (lhs : FVec Ideal S3200x1280 .bf16) (rhs : FVec Ideal S1280x128 .bf16) (p : Fin 3200) (q : Fin 128) :
    matmul dot_S3200x1280_S1280x128_S3200x128_1_0_0_1_n_n none lhs rhs (constant (F := Ideal) S3200x128 .f32 0x00000000#32) (ix2 p q)
      = ∑ k : Fin 1280, lhs (ix2 p k) * rhs (ix2 k q) := by
  simp only [matmul]
  rw [Ideal.matmul_constant_zero_apply, ← Equiv.sum_comp (ValueIdx.contrEquiv1 dot_S3200x1280_S1280x128_S3200x128_1_0_0_1_n_n 1280 rfl rfl).symm]
  refine Finset.sum_congr rfl fun k _ => ?_
  have hk := ValueIdx.contrEquiv1_symm_val dot_S3200x1280_S1280x128_S3200x128_1_0_0_1_n_n 1280 rfl rfl k
  have el : dot_S3200x1280_S1280x128_S3200x128_1_0_0_1_n_n.lhsIdx (ix2 p q) ((ValueIdx.contrEquiv1 dot_S3200x1280_S1280x128_S3200x128_1_0_0_1_n_n 1280 rfl rfl).symm k) = ix2 p k := funext fun a => Fin.ext (by
    match a with
    | ⟨0, _⟩ => exact lhs_o_0 _ _
    | ⟨1, _⟩ => exact (lhs_o_1 _ _).trans hk)
  have er : dot_S3200x1280_S1280x128_S3200x128_1_0_0_1_n_n.rhsIdx (ix2 p q) ((ValueIdx.contrEquiv1 dot_S3200x1280_S1280x128_S3200x128_1_0_0_1_n_n 1280 rfl rfl).symm k) = ix2 k q := funext fun a => Fin.ext (by
    match a with
    | ⟨0, _⟩ => exact (rhs_o_0 _ _).trans hk
    | ⟨1, _⟩ => exact rhs_o_1 _ _)
  rw [el, er]

/-! ## Layout operations of the kernel read at an index -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one element of a `[1, 1]` array. -/
theorem extractAt_00 (v : S1x1.Idx → α) (h : ∀ a, (![0, 0] : Fin 2 → Nat) a < S1x1.size a) :
    extractAt ![0, 0] v h = v (ix2 (0 : Fin 1) (0 : Fin 1)) :=
  congrArg v (funext fun a => match a with | ⟨0, _⟩ => rfl | ⟨1, _⟩ => rfl)

end Layout

/-- A row's index with the reduced coordinate put back. -/
theorem lift_row (r : Fin 3200) (k : Fin 1280) : reduces_S3200x1280_S3200.lift (ix1 r) k = ix2 r k :=
  funext fun a => Fin.ext (match a with | ⟨0, _⟩ => rfl | ⟨1, _⟩ => rfl)

/-- The row maximum from the literal `-∞`: the fold of `max` from the bottom element over the row. -/
theorem rowmax_read (src : FVec Ideal S3200x1280 .f32) (r : Fin 3200) :
    multiReduction (F := Ideal) .maximumf [1] S3200 src 0xFF800000#32 reduces_S3200x1280_S3200 (.inl rfl) rfl (ix1 r)
      = (Finset.univ : Finset (Fin 1280)).fold max (⊥ : EReal) (fun k => src (ix2 r k)) := by
  refine (Ideal.multiReduction_maximumf_single src 0xFF800000#32 reduces_S3200x1280_S3200 (.inl rfl) rfl (ix1 r)).trans ?_
  rw [Cert.EOps.neg_inf_op]
  exact congrArg (fun f => (Finset.univ : Finset (Fin 1280)).fold max (⊥ : EReal) f) (funext fun k => congrArg src (lift_row r k))

/-- The row sum. -/
theorem rowsum_read (src : FVec Ideal S3200x1280 .f32) (r : Fin 3200) :
    multiReduction (F := Ideal) .add [1] S3200 src 0x00000000#32 reduces_S3200x1280_S3200 (.inl rfl) rfl (ix1 r)
      = ∑ k : Fin 1280, src (ix2 r k) := by
  refine (Ideal.multiReduction_add_single src 0x00000000#32 reduces_S3200x1280_S3200 (.inl rfl) rfl (ix1 r)).trans ?_
  exact Finset.sum_congr rfl fun k _ => congrArg src (lift_row r k)

section Tokens
variable {α : Type}

/-- The query block as tokens: at `(rr, ch)` the block's channel `ch` at position `rr`. -/
theorem tokq_read (x0 : S1x128x3200.Idx → α) (rr : Fin 3200) (ch : Fin 128) :
    transpose S3200x128 [1, 0] (shapeCast S128x3200 x0 shapeCasts_S1x128x3200_S128x3200) transposes_S128x3200_p1_0_S3200x128 (ix2 rr ch)
      = x0 (ix3 0 ch rr) :=
  (transpose_ix2_apply _ _ rr ch).trans (shapeCast_1ab_ab_apply _ _ ch rr)

/-- The key block as tokens. -/
theorem tokk_read (x1 : S1x128x1280.Idx → α) (kk : Fin 1280) (ch : Fin 128) :
    transpose S1280x128 [1, 0] (shapeCast S128x1280 x1 shapeCasts_S1x128x1280_S128x1280) transposes_S128x1280_p1_0_S1280x128 (ix2 kk ch)
      = x1 (ix3 0 ch kk) :=
  (transpose_ix2_apply _ _ kk ch).trans (shapeCast_1ab_ab_apply _ _ ch kk)

end Tokens

/-! ## The three projections -/

/-- The queries' projection of a query block. -/
theorem pay2_read (x0 : S1x128x3200.Idx → EReal) (x2 : S128x64.Idx → EReal) (x3 : S1x64.Idx → EReal) (x4 : S1x1.Idx → EReal)
    (X : Fin 3200 → Fin 128 → ℝ) (W : Fin 64 → Fin 128 → ℝ) (B : Fin 64 → ℝ) (A : ℝ)
    (h0 : ∀ ch rr, x0 (ix3 0 ch rr) = ((X rr ch : ℝ) : EReal)) (h2 : ∀ ch d, x2 (ix2 ch d) = ((W d ch : ℝ) : EReal))
    (h3 : ∀ d, x3 (ix2 0 d) = ((B d : ℝ) : EReal)) (h4 : x4 (ix2 0 0) = ((A : ℝ) : EReal)) (rr : Fin 3200) (d : Fin 64) :
    (k0_pay2 (F := Ideal) x0 x2 x3 x4 : S3200x64.Idx → EReal) (ix2 rr d)
      = ((prelu A ((∑ ch : Fin 128, X rr ch * W d ch) + B d) : ℝ) : EReal) := by
  unfold k0_pay2
  simp only [shapeCast_self, truncf_apply, select_apply, cmpf_apply, mulf_apply, addf_apply, broadcast_apply, matmul_q,
    broadcastTo_1b_ab_apply, extractAt_00, h2, h3, h4]
  have e : ∀ k, transpose S3200x128 [1, 0] (shapeCast S128x3200 x0 shapeCasts_S1x128x3200_S128x3200)
      transposes_S128x3200_p1_0_S3200x128 (ix2 rr k) = ((X rr k : ℝ) : EReal) :=
    fun k => (tokq_read x0 rr k).trans (h0 k rr)
  simp only [e, ← EReal.coe_mul, ← Cert.EOps.coe_sum, ← EReal.coe_add]
  exact Cert.EOps.prelu_coe_op A _

/-- The keys' projection of a key block. -/
theorem key_read (x1 : S1x128x1280.Idx → EReal) (x5 : S128x64.Idx → EReal) (x6 : S1x64.Idx → EReal) (x7 : S1x1.Idx → EReal)
    (XK : Fin 1280 → Fin 128 → ℝ) (W2 : Fin 64 → Fin 128 → ℝ) (B2 : Fin 64 → ℝ) (A2 : ℝ)
    (h1 : ∀ ch kk, x1 (ix3 0 ch kk) = ((XK kk ch : ℝ) : EReal)) (h5 : ∀ ch d, x5 (ix2 ch d) = ((W2 d ch : ℝ) : EReal))
    (h6 : ∀ d, x6 (ix2 0 d) = ((B2 d : ℝ) : EReal)) (h7 : x7 (ix2 0 0) = ((A2 : ℝ) : EReal)) (kk : Fin 1280) (d : Fin 64) :
    (k0_pay7 (F := Ideal) x1 x5 x6 x7 : S1280x64.Idx → EReal) (ix2 kk d)
      = ((prelu A2 ((∑ ch : Fin 128, XK kk ch * W2 d ch) + B2 d) : ℝ) : EReal) := by
  unfold k0_pay7 k0_pay6
  simp only [shapeCast_self, truncf_apply, select_apply, cmpf_apply, mulf_apply, addf_apply, broadcast_apply, matmul_k,
    broadcastTo_1b_ab_apply, extractAt_00, h5, h6, h7]
  have e : ∀ k, transpose S1280x128 [1, 0] (shapeCast S128x1280 x1 shapeCasts_S1x128x1280_S128x1280)
      transposes_S128x1280_p1_0_S1280x128 (ix2 kk k) = ((XK kk k : ℝ) : EReal) :=
    fun k => (tokk_read x1 kk k).trans (h1 k kk)
  simp only [e, ← EReal.coe_mul, ← Cert.EOps.coe_sum, ← EReal.coe_add]
  exact Cert.EOps.prelu_coe_op A2 _

/-- The values' projection of a key block: the kernel keeps its three parts (the linear map, the comparison, the multiple)
    and selects where it uses them. -/
theorem val_read (x1 : S1x128x1280.Idx → EReal) (x8 : S128x128.Idx → EReal) (x9 : S1x128.Idx → EReal) (x10 : S1x1.Idx → EReal)
    (XK : Fin 1280 → Fin 128 → ℝ) (WA : Fin 128 → Fin 128 → ℝ) (BA : Fin 128 → ℝ) (AA : ℝ)
    (h1 : ∀ ch kk, x1 (ix3 0 ch kk) = ((XK kk ch : ℝ) : EReal)) (h8 : ∀ ch d, x8 (ix2 ch d) = ((WA d ch : ℝ) : EReal))
    (h9 : ∀ d, x9 (ix2 0 d) = ((BA d : ℝ) : EReal)) (h10 : x10 (ix2 0 0) = ((AA : ℝ) : EReal)) (kk : Fin 1280) (c' : Fin 128) :
    Scalar.select ((k0_pay9 (F := Ideal) x1 x8 x9 : IVec S1280x128 1) (ix2 kk c'))
        ((k0_pay8 (F := Ideal) x1 x8 x9 : S1280x128.Idx → EReal) (ix2 kk c'))
        ((k0_pay10 (F := Ideal) x1 x8 x9 x10 : S1280x128.Idx → EReal) (ix2 kk c'))
      = ((prelu AA ((∑ ch : Fin 128, XK kk ch * WA c' ch) + BA c') : ℝ) : EReal) := by
  unfold k0_pay9 k0_pay10 k0_pay8 k0_pay6
  simp only [shapeCast_self, truncf_apply, select_apply, cmpf_apply, mulf_apply, addf_apply, broadcast_apply, matmul_v,
    broadcastTo_1b_ab_apply, extractAt_00, h8, h9, h10]
  have e : ∀ k, transpose S1280x128 [1, 0] (shapeCast S128x1280 x1 shapeCasts_S1x128x1280_S128x1280)
      transposes_S128x1280_p1_0_S1280x128 (ix2 kk k) = ((XK kk k : ℝ) : EReal) :=
    fun k => (tokk_read x1 kk k).trans (h1 k kk)
  simp only [e, ← EReal.coe_mul, ← Cert.EOps.coe_sum, ← EReal.coe_add]
  exact Cert.EOps.prelu_coe_op AA _

/-- The reset scratch. -/
theorem reset_read (x0 : S1x128x3200.Idx → EReal) (x2 : S128x64.Idx → EReal) (x3 : S1x64.Idx → EReal) (x4 : S1x1.Idx → EReal) (rr : Fin 3200) (c' : Fin 128) :
    ((resetS (F := Ideal) x0 x2 x3 x4).1 : S3200x1.Idx → EReal) (ix2 rr 0) = ⊥
    ∧ ((resetS (F := Ideal) x0 x2 x3 x4).2.1 : S3200x1.Idx → EReal) (ix2 rr 0) = 0
    ∧ ((resetS (F := Ideal) x0 x2 x3 x4).2.2.1 : S3200x128.Idx → EReal) (ix2 rr c') = 0 := by
  refine ⟨?_, ?_, ?_⟩
  · show (k0_pay3 (F := Ideal) : S3200x1.Idx → EReal) (ix2 rr 0) = ⊥
    unfold k0_pay3
    simp only [shapeCast_self, broadcast_apply]
    exact Cert.EOps.neg_inf_op
  · show (k0_pay4 (F := Ideal) : S3200x1.Idx → EReal) (ix2 rr 0) = 0
    unfold k0_pay4
    simp only [shapeCast_self, broadcast_apply]
    exact Ideal.ofBits_zero_f32
  · show (k0_pay5 (F := Ideal) : S3200x128.Idx → EReal) (ix2 rr c') = 0
    unfold k0_pay5
    simp only [shapeCast_self, broadcast_apply]
    exact Ideal.ofBits_zero_f32

/-! ## One tile's update, over any key matrix, queries' projection and scratch -/

section Chain

variable (v21 : FVec Ideal S1280x64 .bf16) (v37 : FVec Ideal S3200x64 .bf16) (v39 v43 v49 : FVec Ideal S3200x1 .f32)

/-- The scores of a query row against the key block. -/
theorem score_read (E1 : Fin 3200 → Fin 64 → ℝ) (e2 : Fin 1280 → Fin 64 → ℝ)
    (he1 : ∀ rr d, v37 (ix2 rr d) = ((E1 rr d : ℝ) : EReal)) (hk : ∀ kk d, v21 (ix2 kk d) = ((e2 kk d : ℝ) : EReal))
    (rr : Fin 3200) (kk : Fin 1280) :
    k0_pay11 (F := Ideal) v21 v37 (ix2 rr kk) = ((∑ d : Fin 64, E1 rr d * e2 kk d : ℝ) : EReal) := by
  unfold k0_pay11
  simp only [matmul_s, he1, hk, ← EReal.coe_mul, ← Cert.EOps.coe_sum]

/-- The new maximum: the old one against the fold of `max` over the row's scores. -/
theorem pay12_read (rr : Fin 3200) (u : Fin 1) :
    k0_pay12 (F := Ideal) v21 v37 v39 (ix2 rr u)
      = max (v39 (ix2 rr u)) ((Finset.univ : Finset (Fin 1280)).fold max (⊥ : EReal) (fun kk => k0_pay11 (F := Ideal) v21 v37 (ix2 rr kk))) := by
  unfold k0_pay12
  refine (maximumf_apply _ _ (ix2 rr u)).trans ?_
  exact congrArg (max (v39 (ix2 rr u))) ((shapeCast_a_a1_apply _ _ rr u).trans (rowmax_read _ rr))

/-- The decay of the old sums. -/
theorem pay13_read (rr : Fin 3200) (u : Fin 1) :
    k0_pay13 (F := Ideal) v21 v37 v39 v43 (ix2 rr u) = Ideal.exp (v43 (ix2 rr u) - k0_pay12 (F := Ideal) v21 v37 v39 (ix2 rr u)) := by
  unfold k0_pay13
  rfl

/-- The tile's weights. -/
theorem pay14_read (rr : Fin 3200) (kk : Fin 1280) :
    k0_pay14 (F := Ideal) v21 v37 v39 (ix2 rr kk)
      = Ideal.exp (k0_pay11 (F := Ideal) v21 v37 (ix2 rr kk) - k0_pay12 (F := Ideal) v21 v37 v39 (ix2 rr (0 : Fin 1))) := by
  unfold k0_pay14
  show Ideal.exp (k0_pay11 (F := Ideal) v21 v37 (ix2 rr kk)
      - broadcastTo S3200x1280 (k0_pay12 (F := Ideal) v21 v37 v39) broadcasts_S3200x1_S3200x1280 (ix2 rr kk)) = _
  exact congrArg (fun z => Ideal.exp (k0_pay11 (F := Ideal) v21 v37 (ix2 rr kk) - z)) (broadcastTo_a1_ab_apply _ _ rr kk)

/-- The new sum of weights. -/
theorem pay15_read (rr : Fin 3200) (u : Fin 1) :
    k0_pay15 (F := Ideal) v21 v37 v39 v43 v49 (ix2 rr u)
      = k0_pay13 (F := Ideal) v21 v37 v39 v43 (ix2 rr u) * v49 (ix2 rr u)
        + ∑ kk : Fin 1280, k0_pay14 (F := Ideal) v21 v37 v39 (ix2 rr kk) := by
  unfold k0_pay15
  refine (congrFun (shapeCast_self _ _) (ix2 rr u)).trans ?_
  refine (addf_apply _ _ (ix2 rr u)).trans ?_
  exact congrArg (k0_pay13 (F := Ideal) v21 v37 v39 v43 (ix2 rr u) * v49 (ix2 rr u) + ·)
    ((shapeCast_a_a1_apply _ _ rr u).trans (rowsum_read _ rr))

/-- The new weighted sum. -/
theorem pay16_read (v30 : FVec Ideal S1280x128 .f32) (v32 : IVec S1280x128 1) (v34 : FVec Ideal S1280x128 .f32) (v57 : FVec Ideal S3200x128 .f32)
    (rr : Fin 3200) (c' : Fin 128) :
    k0_pay16 (F := Ideal) v21 v30 v32 v34 v37 v39 v43 v57 (ix2 rr c')
      = k0_pay13 (F := Ideal) v21 v37 v39 v43 (ix2 rr (0 : Fin 1)) * v57 (ix2 rr c')
        + ∑ kk : Fin 1280, k0_pay14 (F := Ideal) v21 v37 v39 (ix2 rr kk) * Scalar.select (v32 (ix2 kk c')) (v30 (ix2 kk c')) (v34 (ix2 kk c')) := by
  unfold k0_pay16
  simp only [shapeCast_self, addf_apply, mulf_apply, matmul_o, truncf_apply, select_apply]
  exact congrArg (fun z => z * v57 (ix2 rr c') + ∑ kk : Fin 1280, k0_pay14 (F := Ideal) v21 v37 v39 (ix2 rr kk)
      * Scalar.select (v32 (ix2 kk c')) (v30 (ix2 kk c')) (v34 (ix2 kk c'))) (broadcastTo_a1_ab_apply _ _ rr c')

/-- The stored maximum is the new maximum. -/
theorem pay17_read (rr : Fin 3200) (u : Fin 1) :
    k0_pay17 (F := Ideal) v21 v37 v39 (ix2 rr u) = k0_pay12 (F := Ideal) v21 v37 v39 (ix2 rr u) := by
  unfold k0_pay17
  simp only [shapeCast_self]

end Chain

/-- From the reset scratch a tile's update is the specification's `first`, for one row `rr` and channel `c'` whose scores are
    the reals `sc` and whose values are the reals `av`. -/
theorem chain_first (v21 : FVec Ideal S1280x64 .bf16) (v37 : FVec Ideal S3200x64 .bf16) (v39 v49 : FVec Ideal S3200x1 .f32)
    (v30 : FVec Ideal S1280x128 .f32) (v32 : IVec S1280x128 1) (v34 : FVec Ideal S1280x128 .f32) (v57 : FVec Ideal S3200x128 .f32)
    (sc av : Fin 1280 → ℝ) (rr : Fin 3200) (c' : Fin 128)
    (hs : ∀ kk, k0_pay11 (F := Ideal) v21 v37 (ix2 rr kk) = ((sc kk : ℝ) : EReal))
    (hv : ∀ kk, Scalar.select (v32 (ix2 kk c')) (v30 (ix2 kk c')) (v34 (ix2 kk c')) = ((av kk : ℝ) : EReal))
    (hm : v39 (ix2 rr (0 : Fin 1)) = ⊥) (hl : v49 (ix2 rr (0 : Fin 1)) = 0) (hacc : v57 (ix2 rr c') = 0) :
    k0_pay17 (F := Ideal) v21 v37 v39 (ix2 rr (0 : Fin 1)) = (((first sc av).1 : ℝ) : EReal)
    ∧ k0_pay15 (F := Ideal) v21 v37 v39 v39 v49 (ix2 rr (0 : Fin 1)) = (((first sc av).2.1 : ℝ) : EReal)
    ∧ k0_pay16 (F := Ideal) v21 v30 v32 v34 v37 v39 v39 v57 (ix2 rr c') = (((first sc av).2.2 : ℝ) : EReal) := by
  have hM : k0_pay12 (F := Ideal) v21 v37 v39 (ix2 rr (0 : Fin 1)) = (((first sc av).1 : ℝ) : EReal) := by
    refine (pay12_read v21 v37 v39 rr 0).trans ?_
    rw [hm, show (fun kk => k0_pay11 (F := Ideal) v21 v37 (ix2 rr kk)) = fun kk => ((sc kk : ℝ) : EReal) from funext hs]
    exact Cert.EOps.first_m sc av
  have h13 : k0_pay13 (F := Ideal) v21 v37 v39 v39 (ix2 rr (0 : Fin 1))
      = Ideal.exp ((⊥ : EReal) - k0_pay12 (F := Ideal) v21 v37 v39 (ix2 rr (0 : Fin 1))) := by
    refine (pay13_read v21 v37 v39 v39 rr 0).trans ?_
    rw [hm]
  have h14 : ∀ kk, k0_pay14 (F := Ideal) v21 v37 v39 (ix2 rr kk)
      = Ideal.exp (((sc kk : ℝ) : EReal) - k0_pay12 (F := Ideal) v21 v37 v39 (ix2 rr (0 : Fin 1))) := fun kk => by
    refine (pay14_read v21 v37 v39 rr kk).trans ?_
    rw [hs kk]
  refine ⟨(pay17_read v21 v37 v39 rr 0).trans hM, ?_, ?_⟩
  · refine (pay15_read v21 v37 v39 v39 v49 rr 0).trans ?_
    rw [h13, hl]
    simp only [h14]
    exact Cert.EOps.first_l sc av _ hM
  · refine (pay16_read v21 v37 v39 v39 v30 v32 v34 v57 rr c').trans ?_
    rw [h13, hacc]
    simp only [h14, hv]
    exact Cert.EOps.first_acc sc av _ hM

/-- From a scratch holding the reals `M`, `L`, `ACC` at that row and channel, a tile's update is the specification's `step`. -/
theorem chain_step (v21 : FVec Ideal S1280x64 .bf16) (v37 : FVec Ideal S3200x64 .bf16) (v39 v49 : FVec Ideal S3200x1 .f32)
    (v30 : FVec Ideal S1280x128 .f32) (v32 : IVec S1280x128 1) (v34 : FVec Ideal S1280x128 .f32) (v57 : FVec Ideal S3200x128 .f32)
    (sc av : Fin 1280 → ℝ) (rr : Fin 3200) (c' : Fin 128) (M L ACC : ℝ)
    (hs : ∀ kk, k0_pay11 (F := Ideal) v21 v37 (ix2 rr kk) = ((sc kk : ℝ) : EReal))
    (hv : ∀ kk, Scalar.select (v32 (ix2 kk c')) (v30 (ix2 kk c')) (v34 (ix2 kk c')) = ((av kk : ℝ) : EReal))
    (hm : v39 (ix2 rr (0 : Fin 1)) = ((M : ℝ) : EReal)) (hl : v49 (ix2 rr (0 : Fin 1)) = ((L : ℝ) : EReal))
    (hacc : v57 (ix2 rr c') = ((ACC : ℝ) : EReal)) :
    k0_pay17 (F := Ideal) v21 v37 v39 (ix2 rr (0 : Fin 1)) = (((step (M, L, ACC) sc av).1 : ℝ) : EReal)
    ∧ k0_pay15 (F := Ideal) v21 v37 v39 v39 v49 (ix2 rr (0 : Fin 1)) = (((step (M, L, ACC) sc av).2.1 : ℝ) : EReal)
    ∧ k0_pay16 (F := Ideal) v21 v30 v32 v34 v37 v39 v39 v57 (ix2 rr c') = (((step (M, L, ACC) sc av).2.2 : ℝ) : EReal) := by
  have hM : k0_pay12 (F := Ideal) v21 v37 v39 (ix2 rr (0 : Fin 1)) = (((step (M, L, ACC) sc av).1 : ℝ) : EReal) := by
    refine (pay12_read v21 v37 v39 rr 0).trans ?_
    rw [hm, show (fun kk => k0_pay11 (F := Ideal) v21 v37 (ix2 rr kk)) = fun kk => ((sc kk : ℝ) : EReal) from funext hs]
    exact Cert.EOps.step_m (M, L, ACC) sc av
  have h13 : k0_pay13 (F := Ideal) v21 v37 v39 v39 (ix2 rr (0 : Fin 1))
      = Ideal.exp (((M : ℝ) : EReal) - k0_pay12 (F := Ideal) v21 v37 v39 (ix2 rr (0 : Fin 1))) := by
    refine (pay13_read v21 v37 v39 v39 rr 0).trans ?_
    rw [hm]
  have h14 : ∀ kk, k0_pay14 (F := Ideal) v21 v37 v39 (ix2 rr kk)
      = Ideal.exp (((sc kk : ℝ) : EReal) - k0_pay12 (F := Ideal) v21 v37 v39 (ix2 rr (0 : Fin 1))) := fun kk => by
    refine (pay14_read v21 v37 v39 rr kk).trans ?_
    rw [hs kk]
  refine ⟨(pay17_read v21 v37 v39 rr 0).trans hM, ?_, ?_⟩
  · refine (pay15_read v21 v37 v39 v39 v49 rr 0).trans ?_
    rw [h13, hl]
    simp only [h14]
    exact Cert.EOps.step_l (M, L, ACC) sc av _ hM
  · refine (pay16_read v21 v37 v39 v39 v30 v32 v34 v57 rr c').trans ?_
    rw [h13, hacc]
    simp only [h14, hv]
    exact Cert.EOps.step_acc (M, L, ACC) sc av _ hM

section Upd

variable (x1 : S1x128x1280.Idx → EReal) (x5 : S128x64.Idx → EReal) (x6 : S1x64.Idx → EReal) (x7 : S1x1.Idx → EReal)
  (x8 : S128x128.Idx → EReal) (x9 : S1x128.Idx → EReal) (x10 : S1x1.Idx → EReal) (st : Vec Ideal S3200x1 .f32 × Vec Ideal S3200x1 .f32 × Vec Ideal S3200x128 .f32 × Vec Ideal S3200x64 .bf16)
  (XK : Fin 1280 → Fin 128 → ℝ) (W2 : Fin 64 → Fin 128 → ℝ) (B2 : Fin 64 → ℝ) (A2 : ℝ)
  (WA : Fin 128 → Fin 128 → ℝ) (BA : Fin 128 → ℝ) (AA : ℝ) (E1 : Fin 3200 → Fin 64 → ℝ)

/-- The keys and the values of the key block, and a query row's scores against it, over the reals. -/
def e2R (kk : Fin 1280) (d : Fin 64) : ℝ := prelu A2 ((∑ ch : Fin 128, XK kk ch * W2 d ch) + B2 d)
def avR (kk : Fin 1280) (c' : Fin 128) : ℝ := prelu AA ((∑ ch : Fin 128, XK kk ch * WA c' ch) + BA c')
def sR (rr : Fin 3200) (kk : Fin 1280) : ℝ := ∑ d : Fin 64, E1 rr d * e2R XK W2 B2 A2 kk d

variable (h1 : ∀ ch kk, x1 (ix3 0 ch kk) = ((XK kk ch : ℝ) : EReal)) (h5 : ∀ ch d, x5 (ix2 ch d) = ((W2 d ch : ℝ) : EReal))
  (h6 : ∀ d, x6 (ix2 0 d) = ((B2 d : ℝ) : EReal)) (h7 : x7 (ix2 0 0) = ((A2 : ℝ) : EReal))
  (h8 : ∀ ch d, x8 (ix2 ch d) = ((WA d ch : ℝ) : EReal)) (h9 : ∀ d, x9 (ix2 0 d) = ((BA d : ℝ) : EReal))
  (h10 : x10 (ix2 0 0) = ((AA : ℝ) : EReal))
  (he1 : ∀ rr d, (st.2.2.2 : S3200x64.Idx → EReal) (ix2 rr d) = ((E1 rr d : ℝ) : EReal))
include h1 h5 h6 h7 h8 h9 h10 he1

/-- A tile's update of the reset scratch is the specification's `first`. -/
theorem upd_first (hm : ∀ rr, (st.1 : S3200x1.Idx → EReal) (ix2 rr 0) = ⊥) (hl : ∀ rr, (st.2.1 : S3200x1.Idx → EReal) (ix2 rr 0) = 0)
    (hacc : ∀ rr c', (st.2.2.1 : S3200x128.Idx → EReal) (ix2 rr c') = 0) (rr : Fin 3200) (c' : Fin 128) :
    ((updS (F := Ideal) x1 x5 x6 x7 x8 x9 x10 st).1 : S3200x1.Idx → EReal) (ix2 rr 0)
        = (((first (sR XK W2 B2 A2 E1 rr) (fun kk => avR XK WA BA AA kk c')).1 : ℝ) : EReal)
    ∧ ((updS (F := Ideal) x1 x5 x6 x7 x8 x9 x10 st).2.1 : S3200x1.Idx → EReal) (ix2 rr 0)
        = (((first (sR XK W2 B2 A2 E1 rr) (fun kk => avR XK WA BA AA kk c')).2.1 : ℝ) : EReal)
    ∧ ((updS (F := Ideal) x1 x5 x6 x7 x8 x9 x10 st).2.2.1 : S3200x128.Idx → EReal) (ix2 rr c')
        = (((first (sR XK W2 B2 A2 E1 rr) (fun kk => avR XK WA BA AA kk c')).2.2 : ℝ) : EReal) := by
  have hk : ∀ kk d, (k0_pay7 (F := Ideal) x1 x5 x6 x7 : S1280x64.Idx → EReal) (ix2 kk d) = ((e2R XK W2 B2 A2 kk d : ℝ) : EReal) :=
    fun kk d => key_read x1 x5 x6 x7 XK W2 B2 A2 h1 h5 h6 h7 kk d
  have hs : ∀ kk, k0_pay11 (F := Ideal) (k0_pay7 (F := Ideal) x1 x5 x6 x7) st.2.2.2 (ix2 rr kk) = ((sR XK W2 B2 A2 E1 rr kk : ℝ) : EReal) :=
    fun kk => score_read (k0_pay7 (F := Ideal) x1 x5 x6 x7) st.2.2.2 E1 (e2R XK W2 B2 A2) he1 hk rr kk
  exact chain_first (k0_pay7 (F := Ideal) x1 x5 x6 x7) st.2.2.2 st.1 st.2.1 (k0_pay8 (F := Ideal) x1 x8 x9) (k0_pay9 (F := Ideal) x1 x8 x9)
    (k0_pay10 (F := Ideal) x1 x8 x9 x10) st.2.2.1 (sR XK W2 B2 A2 E1 rr) (fun kk => avR XK WA BA AA kk c') rr c' hs
    (fun kk => val_read x1 x8 x9 x10 XK WA BA AA h1 h8 h9 h10 kk c') (hm rr) (hl rr) (hacc rr c')

/-- A tile's update of a scratch holding the reals `M`, `L`, `ACC` is the specification's `step`. -/
theorem upd_step (M L : Fin 3200 → ℝ) (ACC : Fin 3200 → Fin 128 → ℝ)
    (hm : ∀ rr, (st.1 : S3200x1.Idx → EReal) (ix2 rr 0) = ((M rr : ℝ) : EReal)) (hl : ∀ rr, (st.2.1 : S3200x1.Idx → EReal) (ix2 rr 0) = ((L rr : ℝ) : EReal))
    (hacc : ∀ rr c', (st.2.2.1 : S3200x128.Idx → EReal) (ix2 rr c') = ((ACC rr c' : ℝ) : EReal)) (rr : Fin 3200) (c' : Fin 128) :
    ((updS (F := Ideal) x1 x5 x6 x7 x8 x9 x10 st).1 : S3200x1.Idx → EReal) (ix2 rr 0)
        = (((step (M rr, L rr, ACC rr c') (sR XK W2 B2 A2 E1 rr) (fun kk => avR XK WA BA AA kk c')).1 : ℝ) : EReal)
    ∧ ((updS (F := Ideal) x1 x5 x6 x7 x8 x9 x10 st).2.1 : S3200x1.Idx → EReal) (ix2 rr 0)
        = (((step (M rr, L rr, ACC rr c') (sR XK W2 B2 A2 E1 rr) (fun kk => avR XK WA BA AA kk c')).2.1 : ℝ) : EReal)
    ∧ ((updS (F := Ideal) x1 x5 x6 x7 x8 x9 x10 st).2.2.1 : S3200x128.Idx → EReal) (ix2 rr c')
        = (((step (M rr, L rr, ACC rr c') (sR XK W2 B2 A2 E1 rr) (fun kk => avR XK WA BA AA kk c')).2.2 : ℝ) : EReal) := by
  have hk : ∀ kk d, (k0_pay7 (F := Ideal) x1 x5 x6 x7 : S1280x64.Idx → EReal) (ix2 kk d) = ((e2R XK W2 B2 A2 kk d : ℝ) : EReal) :=
    fun kk d => key_read x1 x5 x6 x7 XK W2 B2 A2 h1 h5 h6 h7 kk d
  have hs : ∀ kk, k0_pay11 (F := Ideal) (k0_pay7 (F := Ideal) x1 x5 x6 x7) st.2.2.2 (ix2 rr kk) = ((sR XK W2 B2 A2 E1 rr kk : ℝ) : EReal) :=
    fun kk => score_read (k0_pay7 (F := Ideal) x1 x5 x6 x7) st.2.2.2 E1 (e2R XK W2 B2 A2) he1 hk rr kk
  exact chain_step (k0_pay7 (F := Ideal) x1 x5 x6 x7) st.2.2.2 st.1 st.2.1 (k0_pay8 (F := Ideal) x1 x8 x9) (k0_pay9 (F := Ideal) x1 x8 x9)
    (k0_pay10 (F := Ideal) x1 x8 x9 x10) st.2.2.1 (sR XK W2 B2 A2 E1 rr) (fun kk => avR XK WA BA AA kk c') rr c' (M rr) (L rr) (ACC rr c') hs
    (fun kk => val_read x1 x8 x9 x10 XK WA BA AA h1 h8 h9 h10 kk c') (hm rr) (hl rr) (hacc rr c')

omit h1 h5 h6 h7 h8 h9 h10 he1 in
/-- The update keeps the queries' projection. -/
theorem upd_e1 : (updS (F := Ideal) x1 x5 x6 x7 x8 x9 x10 st).2.2.2 = st.2.2.2 := rfl

end Upd

/-- The output block: the accumulator over the (nonzero) sum, channel-major. -/
theorem out_read (st : Vec Ideal S3200x1 .f32 × Vec Ideal S3200x1 .f32 × Vec Ideal S3200x128 .f32 × Vec Ideal S3200x64 .bf16) (L : Fin 3200 → ℝ) (ACC : Fin 3200 → Fin 128 → ℝ)
    (hl : ∀ rr, (st.2.1 : S3200x1.Idx → EReal) (ix2 rr 0) = ((L rr : ℝ) : EReal))
    (hacc : ∀ rr c', (st.2.2.1 : S3200x128.Idx → EReal) (ix2 rr c') = ((ACC rr c' : ℝ) : EReal))
    (hL : ∀ rr, L rr ≠ 0) (c' : Fin 128) (rr : Fin 3200) :
    (outS (F := Ideal) st : S1x128x3200.Idx → EReal) (ix3 0 c' rr) = ((ACC rr c' / L rr : ℝ) : EReal) := by
  show k0_pay1 (F := Ideal) st.2.2.1 st.2.1 (ix3 0 c' rr) = _
  unfold k0_pay1
  refine (shapeCast_ab_1ab_apply _ _ 0 c' rr).trans ?_
  refine (transpose_ix2_apply _ _ c' rr).trans ?_
  refine (divf_apply _ _ (ix2 rr c')).trans ?_
  rw [broadcastTo_a1_ab_apply, hacc, hl]
  exact Cert.EOps.div_coe _ _ (hL rr)

end Cert.KernelIdeal.Hand

end
-- ==== Proof.Args.lean ====
/- The ten argument arrays as arrays of real numbers, and what it means for extended-real arrays to be their coercions:
   under the precondition (every input finite) the programs' arguments are such, and every intermediate value of either
   program is then a real number too. -/
import proofs.«404800_j8830452761398_3_alg».proof.Proof.Spec
import Idealize.ShloMosaic.PureOps.Ideal
import Idealize.ShloMosaic.Lib.ValueIdx

noncomputable section

namespace Cert.Spec

open Idealize.ShloMosaic Idealize.ShloMosaic.ValueIdx

/-- The ten arguments over the reals. -/
structure RealArgs where
  x : Fin 4 → Fin 128 → Fin 80 → Fin 80 → ℝ
  w1 : Fin 64 → Fin 128 → ℝ
  b1 : Fin 64 → ℝ
  a1 : ℝ
  w2 : Fin 64 → Fin 128 → ℝ
  b2 : Fin 64 → ℝ
  a2 : ℝ
  wa : Fin 128 → Fin 128 → ℝ
  ba : Fin 128 → ℝ
  aa : ℝ

/-- The result image of real arguments. -/
def RealArgs.out (r : RealArgs) : Fin 4 → Fin 128 → Fin 80 → Fin 80 → ℝ :=
  G r.x r.w1 r.b1 r.a1 r.w2 r.b2 r.a2 r.wa r.ba r.aa

/-- The queries, keys and values of real arguments. -/
def RealArgs.e1 (r : RealArgs) : Fin 4 → Fin 6400 → Fin 64 → ℝ := proj r.x r.w1 r.b1 r.a1
def RealArgs.e2 (r : RealArgs) : Fin 4 → Fin 6400 → Fin 64 → ℝ := proj r.x r.w2 r.b2 r.a2
def RealArgs.av (r : RealArgs) : Fin 4 → Fin 6400 → Fin 128 → ℝ := proj r.x r.wa r.ba r.aa

/-- Ten extended-real arrays (the programs' arguments at the ideal instance) are the coercions of `r`. -/
structure Reads (r : RealArgs)
    (x : (⟨4, ![4, 128, 80, 80]⟩ : Shape).Idx → EReal) (w1 : (⟨2, ![64, 128]⟩ : Shape).Idx → EReal) (b1 : (⟨1, ![64]⟩ : Shape).Idx → EReal)
    (a1 : (⟨1, ![1]⟩ : Shape).Idx → EReal) (w2 : (⟨2, ![64, 128]⟩ : Shape).Idx → EReal) (b2 : (⟨1, ![64]⟩ : Shape).Idx → EReal)
    (a2 : (⟨1, ![1]⟩ : Shape).Idx → EReal) (wa : (⟨2, ![128, 128]⟩ : Shape).Idx → EReal) (ba : (⟨1, ![128]⟩ : Shape).Idx → EReal)
    (aa : (⟨1, ![1]⟩ : Shape).Idx → EReal) : Prop where
  x : ∀ n c h w, x (ix4 n c h w) = ((r.x n c h w : ℝ) : EReal)
  w1 : ∀ d c, w1 (ix2 d c) = ((r.w1 d c : ℝ) : EReal)
  b1 : ∀ d, b1 (ix1 d) = ((r.b1 d : ℝ) : EReal)
  a1 : ∀ j, a1 (ix1 j) = ((r.a1 : ℝ) : EReal)
  w2 : ∀ d c, w2 (ix2 d c) = ((r.w2 d c : ℝ) : EReal)
  b2 : ∀ d, b2 (ix1 d) = ((r.b2 d : ℝ) : EReal)
  a2 : ∀ j, a2 (ix1 j) = ((r.a2 : ℝ) : EReal)
  wa : ∀ d c, wa (ix2 d c) = ((r.wa d c : ℝ) : EReal)
  ba : ∀ d, ba (ix1 d) = ((r.ba d : ℝ) : EReal)
  aa : ∀ j, aa (ix1 j) = ((r.aa : ℝ) : EReal)

end Cert.Spec

end
-- ==== Proof.KI.Blocks.lean ====
/- The input blocks of the fused attention kernel at a grid point, read index by index at the ideal instance where the
   arguments are coercions of real arrays. The 40 points are (image, query tile, key tile) = (t / 10, t / 5 % 2, t % 5);
   the query block is tokens 3200 · (query tile) … of the image, channel-major; the key block tokens 1280 · (key tile) …;
   the weight windows are the whole transposed weight matrices, the bias windows the biases as one row, the slopes one entry. -/
import proofs.«404800_j8830452761398_3_alg».proof.Proof.KI.Base
import proofs.«404800_j8830452761398_3_alg».proof.Proof.Args
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Spec

variable (m : (ℓ : Loc nD τ sig) → Buf (Elt Ideal) ℓ) (ρ : Dev nD → PrngReg)

/-! ## The arrays the region finds, as operations of the arguments -/

theorem V_v0 (c : Dev nD) : (V m c main_v0 : S4x128x6400.Idx → EReal) = shapeCast S4x128x6400 (m ((c.tc : Thread nD τ).loc main_arg0)) shapeCasts_S4x128x80x80_S4x128x6400 := by
  dsimp only [V, V0]
  simp only [hostOps0, List.flatten_cons, List.flatten_nil, List.append_nil]
  after_results
  rfl

theorem V_v2 (c : Dev nD) : (V m c main_v2 : S128x64.Idx → EReal)
    = (truncf .bf16 (transpose S128x64 [1, 0] (m ((c.tc : Thread nD τ).loc main_arg1) : S64x128.Idx → EReal) transposes_S64x128_S128x64_1_0 : FVec Ideal S128x64 .f32) bitsLt_bf16_f32 : FVec Ideal S128x64 .bf16) := by
  dsimp only [V, V0]
  simp only [hostOps0, List.flatten_cons, List.flatten_nil, List.append_nil]
  after_results

theorem V_v4 (c : Dev nD) : (V m c main_v4 : S128x64.Idx → EReal)
    = (truncf .bf16 (transpose S128x64 [1, 0] (m ((c.tc : Thread nD τ).loc main_arg4) : S64x128.Idx → EReal) transposes_S64x128_S128x64_1_0 : FVec Ideal S128x64 .f32) bitsLt_bf16_f32 : FVec Ideal S128x64 .bf16) := by
  dsimp only [V, V0]
  simp only [hostOps0, List.flatten_cons, List.flatten_nil, List.append_nil]
  after_results

theorem V_v6 (c : Dev nD) : (V m c main_v6 : S128x128.Idx → EReal)
    = (truncf .bf16 (transpose S128x128 [1, 0] (m ((c.tc : Thread nD τ).loc main_arg7) : S128x128.Idx → EReal) transposes_S128x128_S128x128_1_0 : FVec Ideal S128x128 .f32) bitsLt_bf16_f32 : FVec Ideal S128x128 .bf16) := by
  dsimp only [V, V0]
  simp only [hostOps0, List.flatten_cons, List.flatten_nil, List.append_nil]
  after_results

theorem V_v7 (c : Dev nD) : (V m c main_v7 : S1x64.Idx → EReal)
    = shapeCast S1x64 (m ((c.tc : Thread nD τ).loc main_arg2) : S64.Idx → EReal) shapeCasts_S64_S1x64 := by
  dsimp only [V, V0]
  simp only [hostOps0, List.flatten_cons, List.flatten_nil, List.append_nil]
  after_results
  rfl

theorem V_v8 (c : Dev nD) : (V m c main_v8 : S1x1.Idx → EReal)
    = shapeCast S1x1 (m ((c.tc : Thread nD τ).loc main_arg3) : S1.Idx → EReal) shapeCasts_S1_S1x1 := by
  dsimp only [V, V0]
  simp only [hostOps0, List.flatten_cons, List.flatten_nil, List.append_nil]
  after_results
  rfl

theorem V_v9 (c : Dev nD) : (V m c main_v9 : S1x64.Idx → EReal)
    = shapeCast S1x64 (m ((c.tc : Thread nD τ).loc main_arg5) : S64.Idx → EReal) shapeCasts_S64_S1x64 := by
  dsimp only [V, V0]
  simp only [hostOps0, List.flatten_cons, List.flatten_nil, List.append_nil]
  after_results
  rfl

theorem V_v10 (c : Dev nD) : (V m c main_v10 : S1x1.Idx → EReal)
    = shapeCast S1x1 (m ((c.tc : Thread nD τ).loc main_arg6) : S1.Idx → EReal) shapeCasts_S1_S1x1 := by
  dsimp only [V, V0]
  simp only [hostOps0, List.flatten_cons, List.flatten_nil, List.append_nil]
  after_results
  rfl

theorem V_v11 (c : Dev nD) : (V m c main_v11 : S1x128.Idx → EReal)
    = shapeCast S1x128 (m ((c.tc : Thread nD τ).loc main_arg8) : S128.Idx → EReal) shapeCasts_S128_S1x128 := by
  dsimp only [V, V0]
  simp only [hostOps0, List.flatten_cons, List.flatten_nil, List.append_nil]
  after_results
  rfl

theorem V_v12 (c : Dev nD) : (V m c main_v12 : S1x1.Idx → EReal)
    = shapeCast S1x1 (m ((c.tc : Thread nD τ).loc main_arg9) : S1.Idx → EReal) shapeCasts_S1_S1x1 := by
  dsimp only [V, V0]
  simp only [hostOps0, List.flatten_cons, List.flatten_nil, List.append_nil]
  after_results
  rfl

/-! ## The index maps over the grid -/

theorem idx_facts0 : ∀ t : Fin cfg0.N, win0_0.index t (0 : Fin 3) = t.val / 10 ∧ win0_0.index t (1 : Fin 3) = 0 ∧ win0_0.index t (2 : Fin 3) = t.val / 5 % 2 :=
  (by decide +kernel : ∀ t : Fin grid0.N, _)

theorem idx_facts1 : ∀ t : Fin cfg0.N, win0_1.index t (0 : Fin 3) = t.val / 10 ∧ win0_1.index t (1 : Fin 3) = 0 ∧ win0_1.index t (2 : Fin 3) = t.val % 5 :=
  (by decide +kernel : ∀ t : Fin grid0.N, _)

/-- The flattened image read at (image, channel, token) is the image at (image, channel, token / 80, token % 80):
    both are row-major position ((image · 128 + channel) · 6400 + token). -/
theorem flat_read (x : S4x128x80x80.Idx → EReal) (i : S4x128x6400.Idx) (n : Fin 4) (ch : Fin 128) (p : Fin 6400)
    (h0 : (i 0).val = n.val) (h1 : (i 1).val = ch.val) (h2 : (i 2).val = p.val) :
    shapeCast S4x128x6400 x shapeCasts_S4x128x80x80_S4x128x6400 i
      = x (ix4 n ch ⟨p.val / 80, by have := p.isLt; omega⟩ ⟨p.val % 80, Nat.mod_lt _ (by decide)⟩) :=
  shapeCast_apply x _ _ _ (by
    rw [Shape.rowMajor_val_four, Shape.rowMajor_val_three]
    show ((n.val * 128 + ch.val) * 80 + p.val / 80) * 80 + p.val % 80 = ((i 0).val * 128 + (i 1).val) * 6400 + (i 2).val
    rw [h0, h1, h2]; omega)

/-- Where the query block's and the key block's indices fall in the flattened image: block index times block size
    plus the coordinate inside the block, on each axis. -/
theorem blk0_coord (t : Fin cfg0.N) (y : S1x128x3200.Idx) :
    ((((cfg0.win 0).blk t).view.emb y : S4x128x6400.Idx) 0).val = t.val / 10 + (y 0).val
    ∧ ((((cfg0.win 0).blk t).view.emb y : S4x128x6400.Idx) 1).val = (y 1).val
    ∧ ((((cfg0.win 0).blk t).view.emb y : S4x128x6400.Idx) 2).val = t.val / 5 % 2 * 3200 + (y 2).val := by
  obtain ⟨e0, e1, e2⟩ := idx_facts0 t
  refine ⟨?_, ?_, ?_⟩
  · show win0_0.index t (0 : Fin 3) * 1 + 1 * (y 0).val = _; omega
  · show win0_0.index t (1 : Fin 3) * 128 + 1 * (y 1).val = _; omega
  · show win0_0.index t (2 : Fin 3) * 3200 + 1 * (y 2).val = _; omega

theorem blk1_coord (t : Fin cfg0.N) (y : S1x128x1280.Idx) :
    ((((cfg0.win 1).blk t).view.emb y : S4x128x6400.Idx) 0).val = t.val / 10 + (y 0).val
    ∧ ((((cfg0.win 1).blk t).view.emb y : S4x128x6400.Idx) 1).val = (y 1).val
    ∧ ((((cfg0.win 1).blk t).view.emb y : S4x128x6400.Idx) 2).val = t.val % 5 * 1280 + (y 2).val := by
  obtain ⟨e0, e1, e2⟩ := idx_facts1 t
  refine ⟨?_, ?_, ?_⟩
  · show win0_1.index t (0 : Fin 3) * 1 + 1 * (y 0).val = _; omega
  · show win0_1.index t (1 : Fin 3) * 128 + 1 * (y 1).val = _; omega
  · show win0_1.index t (2 : Fin 3) * 1280 + 1 * (y 2).val = _; omega

/-! ## The whole-array windows -/

theorem idx_facts2 : ∀ t : Fin cfg0.N, win0_2.index t (0 : Fin 2) = 0 ∧ win0_2.index t (1 : Fin 2) = 0 :=
  (by decide +kernel : ∀ t : Fin grid0.N, _)

/-- Window 2 is its whole array: the block read at an index is the array there. -/
theorem blk2_at (c : Dev nD) (t : Fin cfg0.N) (y : S128x64.Idx) :
    (iblk m c 2 t : S128x64.Idx → EReal) y = (V m c main_v2 : S128x64.Idx → EReal) y := by
  obtain ⟨e0, e1⟩ := idx_facts2 t
  show (V m c main_v2 : S128x64.Idx → EReal) (((cfg0.win 2).blk t).view.emb y) = _
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 64 + 1 * (y 1).val = (y 1).val; omega

theorem idx_facts3 : ∀ t : Fin cfg0.N, win0_3.index t (0 : Fin 2) = 0 ∧ win0_3.index t (1 : Fin 2) = 0 :=
  (by decide +kernel : ∀ t : Fin grid0.N, _)

/-- Window 3 is its whole array: the block read at an index is the array there. -/
theorem blk3_at (c : Dev nD) (t : Fin cfg0.N) (y : S1x64.Idx) :
    (iblk m c 3 t : S1x64.Idx → EReal) y = (V m c main_v7 : S1x64.Idx → EReal) y := by
  obtain ⟨e0, e1⟩ := idx_facts3 t
  show (V m c main_v7 : S1x64.Idx → EReal) (((cfg0.win 3).blk t).view.emb y) = _
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

theorem idx_facts4 : ∀ t : Fin cfg0.N, win0_4.index t (0 : Fin 2) = 0 ∧ win0_4.index t (1 : Fin 2) = 0 :=
  (by decide +kernel : ∀ t : Fin grid0.N, _)

/-- Window 4 is its whole array: the block read at an index is the array there. -/
theorem blk4_at (c : Dev nD) (t : Fin cfg0.N) (y : S1x1.Idx) :
    (iblk m c 4 t : S1x1.Idx → EReal) y = (V m c main_v8 : S1x1.Idx → EReal) y := by
  obtain ⟨e0, e1⟩ := idx_facts4 t
  show (V m c main_v8 : S1x1.Idx → EReal) (((cfg0.win 4).blk t).view.emb y) = _
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 1 + 1 * (y 1).val = (y 1).val; omega

theorem idx_facts5 : ∀ t : Fin cfg0.N, win0_5.index t (0 : Fin 2) = 0 ∧ win0_5.index t (1 : Fin 2) = 0 :=
  (by decide +kernel : ∀ t : Fin grid0.N, _)

/-- Window 5 is its whole array: the block read at an index is the array there. -/
theorem blk5_at (c : Dev nD) (t : Fin cfg0.N) (y : S128x64.Idx) :
    (iblk m c 5 t : S128x64.Idx → EReal) y = (V m c main_v4 : S128x64.Idx → EReal) y := by
  obtain ⟨e0, e1⟩ := idx_facts5 t
  show (V m c main_v4 : S128x64.Idx → EReal) (((cfg0.win 5).blk t).view.emb y) = _
  refine congrArg _ (funext fun a => Fin.ext ?_)
  match a with
  | ⟨0, _⟩ => show win0_5.index t (0 : Fin 2) * 128 + 1 * (y 0).val = (y 0).val; omega
  | ⟨1, _⟩ => show win0_5.index t (1 : Fin 2) * 64 + 1 * (y 1).val = (y 1).val; omega

theorem idx_facts6 : ∀ t : Fin cfg0.N, win0_6.index t (0 : Fin 2) = 0 ∧ win0_6.index t (1 : Fin 2) = 0 :=
  (by decide +kernel : ∀ t : Fin grid0.N, _)

/-- Window 6 is its whole array: the block read at an index is the array there. -/
theorem blk6_at (c : Dev nD) (t : Fin cfg0.N) (y : S1x64.Idx) :
    (iblk m c 6 t : S1x64.Idx → EReal) y = (V m c main_v9 : S1x64.Idx → EReal) y := by
  obtain ⟨e0, e1⟩ := idx_facts6 t
  show (V m c main_v9 : S1x64.Idx → EReal) (((cfg0.win 6).blk t).view.emb y) = _
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 64 + 1 * (y 1).val = (y 1).val; omega

theorem idx_facts7 : ∀ t : Fin cfg0.N, win0_7.index t (0 : Fin 2) = 0 ∧ win0_7.index t (1 : Fin 2) = 0 :=
  (by decide +kernel : ∀ t : Fin grid0.N, _)

/-- Window 7 is its whole array: the block read at an index is the array there. -/
theorem blk7_at (c : Dev nD) (t : Fin cfg0.N) (y : S1x1.Idx) :
    (iblk m c 7 t : S1x1.Idx → EReal) y = (V m c main_v10 : S1x1.Idx → EReal) y := by
  obtain ⟨e0, e1⟩ := idx_facts7 t
  show (V m c main_v10 : S1x1.Idx → EReal) (((cfg0.win 7).blk t).view.emb y) = _
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 1 + 1 * (y 1).val = (y 1).val; omega

theorem idx_facts8 : ∀ t : Fin cfg0.N, win0_8.index t (0 : Fin 2) = 0 ∧ win0_8.index t (1 : Fin 2) = 0 :=
  (by decide +kernel : ∀ t : Fin grid0.N, _)

/-- Window 8 is its whole array: the block read at an index is the array there. -/
theorem blk8_at (c : Dev nD) (t : Fin cfg0.N) (y : S128x128.Idx) :
    (iblk m c 8 t : S128x128.Idx → EReal) y = (V m c main_v6 : S128x128.Idx → EReal) y := by
  obtain ⟨e0, e1⟩ := idx_facts8 t
  show (V m c main_v6 : S128x128.Idx → EReal) (((cfg0.win 8).blk t).view.emb y) = _
  refine congrArg _ (funext fun a => Fin.ext ?_)
  match a with
  | ⟨0, _⟩ => show win0_8.index t (0 : Fin 2) * 128 + 1 * (y 0).val = (y 0).val; omega
  | ⟨1, _⟩ => show win0_8.index t (1 : Fin 2) * 128 + 1 * (y 1).val = (y 1).val; omega

theorem idx_facts9 : ∀ t : Fin cfg0.N, win0_9.index t (0 : Fin 2) = 0 ∧ win0_9.index t (1 : Fin 2) = 0 :=
  (by decide +kernel : ∀ t : Fin grid0.N, _)

/-- Window 9 is its whole array: the block read at an index is the array there. -/
theorem blk9_at (c : Dev nD) (t : Fin cfg0.N) (y : S1x128.Idx) :
    (iblk m c 9 t : S1x128.Idx → EReal) y = (V m c main_v11 : S1x128.Idx → EReal) y := by
  obtain ⟨e0, e1⟩ := idx_facts9 t
  show (V m c main_v11 : S1x128.Idx → EReal) (((cfg0.win 9).blk t).view.emb y) = _
  refine congrArg _ (funext fun a => Fin.ext ?_)
  match a with
  | ⟨0, _⟩ => show win0_9.index t (0 : Fin 2) * 1 + 1 * (y 0).val = (y 0).val; omega
  | ⟨1, _⟩ => show win0_9.index t (1 : Fin 2) * 128 + 1 * (y 1).val = (y 1).val; omega

theorem idx_facts10 : ∀ t : Fin cfg0.N, win0_10.index t (0 : Fin 2) = 0 ∧ win0_10.index t (1 : Fin 2) = 0 :=
  (by decide +kernel : ∀ t : Fin grid0.N, _)

/-- Window 10 is its whole array: the block read at an index is the array there. -/
theorem blk10_at (c : Dev nD) (t : Fin cfg0.N) (y : S1x1.Idx) :
    (iblk m c 10 t : S1x1.Idx → EReal) y = (V m c main_v12 : S1x1.Idx → EReal) y := by
  obtain ⟨e0, e1⟩ := idx_facts10 t
  show (V m c main_v12 : S1x1.Idx → EReal) (((cfg0.win 10).blk t).view.emb y) = _
  refine congrArg _ (funext fun a => Fin.ext ?_)
  match a with
  | ⟨0, _⟩ => show win0_10.index t (0 : Fin 2) * 1 + 1 * (y 0).val = (y 0).val; omega
  | ⟨1, _⟩ => show win0_10.index t (1 : Fin 2) * 1 + 1 * (y 1).val = (y 1).val; omega

/-- The image, query-tile and key-tile coordinates of point `t`. -/
def pn (t : Fin cfg0.N) : Fin 4 := ⟨t.val / 10, by have := t.isLt; have : cfg0.N = 40 := N_0; omega⟩
def pq (t : Fin cfg0.N) : Fin 2 := ⟨t.val / 5 % 2, Nat.mod_lt _ (by decide)⟩
def pk (t : Fin cfg0.N) : Fin 5 := ⟨t.val % 5, Nat.mod_lt _ (by decide)⟩

/-- Query token `rr` of the query tile of point `t`, and key token `kk` of its key tile, as tokens of the image. -/
def qtok (t : Fin cfg0.N) (rr : Fin 3200) : Fin 6400 := ⟨(pq t).val * 3200 + rr.val, by have := (pq t).isLt; have := rr.isLt; omega⟩
def ktok (t : Fin cfg0.N) (kk : Fin 1280) : Fin 6400 := ⟨(pk t).val * 1280 + kk.val, by have := (pk t).isLt; have := kk.isLt; omega⟩

variable (c : Dev nD) (r : RealArgs) (hr : Reads r (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
include hr

/-- The query block: channel `ch` of query token `rr`. -/
theorem blk0_read (t : Fin cfg0.N) (ch : Fin 128) (rr : Fin 3200) :
    (iblk m c 0 t : S1x128x3200.Idx → EReal) (ix3 0 ch rr) = ((tok r.x (pn t) (qtok t rr) ch : ℝ) : EReal) := by
  obtain ⟨e0, e1, e2⟩ := blk0_coord t (ix3 0 ch rr)
  show (V m c main_v0 : S4x128x6400.Idx → EReal) (((cfg0.win 0).blk t).view.emb (ix3 0 ch rr)) = _
  rw [V_v0, flat_read _ _ (pn t) ch (qtok t rr) (by rw [e0]; show t.val / 10 + 0 = t.val / 10; omega) e1 (by rw [e2]; rfl)]
  unfold tok
  exact hr.x _ _ _ _

/-- The key block: channel `ch` of key token `kk`. -/
theorem blk1_read (t : Fin cfg0.N) (ch : Fin 128) (kk : Fin 1280) :
    (iblk m c 1 t : S1x128x1280.Idx → EReal) (ix3 0 ch kk) = ((tok r.x (pn t) (ktok t kk) ch : ℝ) : EReal) := by
  obtain ⟨e0, e1, e2⟩ := blk1_coord t (ix3 0 ch kk)
  show (V m c main_v0 : S4x128x6400.Idx → EReal) (((cfg0.win 1).blk t).view.emb (ix3 0 ch kk)) = _
  rw [V_v0, flat_read _ _ (pn t) ch (ktok t kk) (by rw [e0]; show t.val / 10 + 0 = t.val / 10; omega) e1 (by rw [e2]; rfl)]
  unfold tok
  exact hr.x _ _ _ _

theorem blk2_read (t : Fin cfg0.N) (ch : Fin 128) (d : Fin 64) :
    (iblk m c 2 t : S128x64.Idx → EReal) (ix2 ch d) = ((r.w1 d ch : ℝ) : EReal) := by
  rw [blk2_at, V_v2]
  show transpose S128x64 [1, 0] (m ((c.tc : Thread nD τ).loc main_arg1) : S64x128.Idx → EReal) transposes_S64x128_S128x64_1_0 (ix2 ch d) = _
  rw [transpose_ix2_apply]
  exact hr.w1 d ch
theorem blk3_read (t : Fin cfg0.N) (d : Fin 64) :
    (iblk m c 3 t : S1x64.Idx → EReal) (ix2 0 d) = ((r.b1 d : ℝ) : EReal) := by
  rw [blk3_at, V_v7, shapeCast_a_1a_apply]
  exact hr.b1 d
theorem blk4_read (t : Fin cfg0.N) :
    (iblk m c 4 t : S1x1.Idx → EReal) (ix2 0 0) = ((r.a1 : ℝ) : EReal) := by
  rw [blk4_at, V_v8, shapeCast_a_1a_apply]
  exact hr.a1 0
theorem blk5_read (t : Fin cfg0.N) (ch : Fin 128) (d : Fin 64) :
    (iblk m c 5 t : S128x64.Idx → EReal) (ix2 ch d) = ((r.w2 d ch : ℝ) : EReal) := by
  rw [blk5_at, V_v4]
  show transpose S128x64 [1, 0] (m ((c.tc : Thread nD τ).loc main_arg4) : S64x128.Idx → EReal) transposes_S64x128_S128x64_1_0 (ix2 ch d) = _
  rw [transpose_ix2_apply]
  exact hr.w2 d ch
theorem blk6_read (t : Fin cfg0.N) (d : Fin 64) :
    (iblk m c 6 t : S1x64.Idx → EReal) (ix2 0 d) = ((r.b2 d : ℝ) : EReal) := by
  rw [blk6_at, V_v9, shapeCast_a_1a_apply]
  exact hr.b2 d
theorem blk7_read (t : Fin cfg0.N) :
    (iblk m c 7 t : S1x1.Idx → EReal) (ix2 0 0) = ((r.a2 : ℝ) : EReal) := by
  rw [blk7_at, V_v10, shapeCast_a_1a_apply]
  exact hr.a2 0
theorem blk8_read (t : Fin cfg0.N) (ch : Fin 128) (d : Fin 128) :
    (iblk m c 8 t : S128x128.Idx → EReal) (ix2 ch d) = ((r.wa d ch : ℝ) : EReal) := by
  rw [blk8_at, V_v6]
  show transpose S128x128 [1, 0] (m ((c.tc : Thread nD τ).loc main_arg7) : S128x128.Idx → EReal) transposes_S128x128_S128x128_1_0 (ix2 ch d) = _
  rw [transpose_ix2_apply]
  exact hr.wa d ch
theorem blk9_read (t : Fin cfg0.N) (d : Fin 128) :
    (iblk m c 9 t : S1x128.Idx → EReal) (ix2 0 d) = ((r.ba d : ℝ) : EReal) := by
  rw [blk9_at, V_v11, shapeCast_a_1a_apply]
  exact hr.ba d
theorem blk10_read (t : Fin cfg0.N) :
    (iblk m c 10 t : S1x1.Idx → EReal) (ix2 0 0) = ((r.aa : ℝ) : EReal) := by
  rw [blk10_at, V_v12, shapeCast_a_1a_apply]
  exact hr.aa 0

end Cert.KernelIdeal.Hand

end
-- ==== Proof.Algebra.lean ====
/- The blocked recursion reaches the softmax-weighted mean. -/
import proofs.«404800_j8830452761398_3_alg».proof.Proof.Spec
import Mathlib.Analysis.SpecialFunctions.Exp
import Mathlib.Algebra.BigOperators.Fin
import Mathlib.Logic.Equiv.Fin.Basic
import Mathlib.Algebra.Order.BigOperators.Group.Finset
import Mathlib.Tactic.Ring
import Mathlib.Tactic.Linarith

noncomputable section

namespace Cert.Spec

open Finset

/-- Moving the shift of an exponential weight from `m` to `m'`. -/
theorem exp_rescale (m m' x : ℝ) : Real.exp (m - m') * Real.exp (x - m) = Real.exp (x - m') := by
  rw [← Real.exp_add]
  congr 1
  ring

/-- A sum of exponentials over a block is positive. -/
theorem sum_exp_pos (s : Fin 1280 → ℝ) (m : ℝ) : 0 < ∑ k : Fin 1280, Real.exp (s k - m) :=
  Finset.sum_pos (fun _ _ => Real.exp_pos _) Finset.univ_nonempty

/-- The running sum of weights is the sum of all weights seen so far, shifted by the running maximum. -/
theorem run_l (s a : ℕ → Fin 1280 → ℝ) (j : ℕ) :
    (run s a j).2.1 = ∑ i ∈ range (j + 1), ∑ k : Fin 1280, Real.exp (s i k - (run s a j).1) := by
  induction j with
  | zero => simp [run, first]
  | succ j ih =>
    show Real.exp ((run s a j).1 - max (run s a j).1 (rowMax (s (j + 1)))) * (run s a j).2.1
        + ∑ k : Fin 1280, Real.exp (s (j + 1) k - max (run s a j).1 (rowMax (s (j + 1))))
      = ∑ i ∈ range (j + 1 + 1), ∑ k : Fin 1280,
          Real.exp (s i k - max (run s a j).1 (rowMax (s (j + 1))))
    rw [ih, Finset.sum_range_succ _ (j + 1), Finset.mul_sum]
    congr 1
    refine Finset.sum_congr rfl fun i _ => ?_
    rw [Finset.mul_sum]
    refine Finset.sum_congr rfl fun k _ => ?_
    exact exp_rescale _ _ _

/-- The running weighted sum is the weighted sum of all values seen so far, shifted by the running maximum. -/
theorem run_acc (s a : ℕ → Fin 1280 → ℝ) (j : ℕ) :
    (run s a j).2.2 = ∑ i ∈ range (j + 1), ∑ k : Fin 1280, Real.exp (s i k - (run s a j).1) * a i k := by
  induction j with
  | zero => simp [run, first]
  | succ j ih =>
    show Real.exp ((run s a j).1 - max (run s a j).1 (rowMax (s (j + 1)))) * (run s a j).2.2
        + ∑ k : Fin 1280, Real.exp (s (j + 1) k - max (run s a j).1 (rowMax (s (j + 1)))) * a (j + 1) k
      = ∑ i ∈ range (j + 1 + 1), ∑ k : Fin 1280,
          Real.exp (s i k - max (run s a j).1 (rowMax (s (j + 1)))) * a i k
    rw [ih, Finset.sum_range_succ _ (j + 1), Finset.mul_sum]
    congr 1
    refine Finset.sum_congr rfl fun i _ => ?_
    rw [Finset.mul_sum]
    refine Finset.sum_congr rfl fun k _ => ?_
    rw [← mul_assoc, exp_rescale]

/-- The running sum of weights is positive (the block's maximum contributes `exp 0 = 1`). -/
theorem run_l_pos (s a : ℕ → Fin 1280 → ℝ) (j : ℕ) : 0 < (run s a j).2.1 := by
  rw [run_l]
  exact Finset.sum_pos (fun i _ => sum_exp_pos (s i) _) (by simp)

/-- A sum over the row of 6400 is the sum over five blocks of 1280. -/
theorem sum_blocks (G : Fin 6400 → ℝ) :
    ∑ p : Fin 6400, G p
      = ∑ i : Fin 5, ∑ k : Fin 1280,
          G ⟨i.val * 1280 + k.val, by have := i.isLt; have := k.isLt; omega⟩ := by
  rw [← Fintype.sum_prod_type']
  symm
  refine Fintype.sum_equiv (finProdFinEquiv : Fin 5 × Fin 1280 ≃ Fin 6400) _ _ fun x => ?_
  congr 1
  ext
  simp [finProdFinEquiv]
  ring

/-- The block sums of any termwise expression in the scores and values add up to the sum over the row. -/
theorem sum_blk (s a : Fin 6400 → ℝ) (F : ℝ → ℝ → ℝ) :
    ∑ i ∈ range 5, ∑ k : Fin 1280, F (blk s i k) (blk a i k) = ∑ p : Fin 6400, F (s p) (a p) := by
  rw [sum_blocks (fun p => F (s p) (a p)),
    ← Fin.sum_univ_eq_sum_range (fun i => ∑ k : Fin 1280, F (blk s i k) (blk a i k)) 5]
  refine Finset.sum_congr rfl fun i _ => ?_
  refine Finset.sum_congr rfl fun k _ => ?_
  simp [blk, i.isLt]

/-- The softmax-weighted mean does not depend on the common shift of the scores. -/
theorem shift_inv (s a : Fin 6400 → ℝ) (m R : ℝ) :
    (∑ p : Fin 6400, Real.exp (s p - m) * a p) / (∑ p : Fin 6400, Real.exp (s p - m))
      = ∑ p : Fin 6400, (Real.exp (s p - R) / ∑ p' : Fin 6400, Real.exp (s p' - R)) * a p := by
  have h1 : ∀ p : Fin 6400, Real.exp (s p - m) = Real.exp (R - m) * Real.exp (s p - R) :=
    fun p => (exp_rescale R m (s p)).symm
  have hN : ∑ p : Fin 6400, Real.exp (s p - m) * a p
      = Real.exp (R - m) * ∑ p : Fin 6400, Real.exp (s p - R) * a p := by
    rw [Finset.mul_sum]
    refine Finset.sum_congr rfl fun p _ => ?_
    rw [h1 p, mul_assoc]
  have hD : ∑ p : Fin 6400, Real.exp (s p - m)
      = Real.exp (R - m) * ∑ p : Fin 6400, Real.exp (s p - R) := by
    rw [Finset.mul_sum]
    exact Finset.sum_congr rfl fun p _ => h1 p
  rw [hN, hD, mul_div_mul_left _ _ (Real.exp_pos _).ne', div_eq_mul_inv, Finset.sum_mul]
  refine Finset.sum_congr rfl fun p _ => ?_
  ring

/-- After the five blocks the weighted sum over the sum of weights is the softmax-weighted mean of the whole row. -/
theorem online_eq (s a : Fin 6400 → ℝ) :
    (run (blk s) (blk a) 4).2.2 / (run (blk s) (blk a) 4).2.1 = softAvg s a := by
  rw [run_acc, run_l]
  rw [sum_blk s a (fun x y => Real.exp (x - (run (blk s) (blk a) 4).1) * y),
    sum_blk s a (fun x _ => Real.exp (x - (run (blk s) (blk a) 4).1))]
  exact shift_inv s a _ _

end Cert.Spec

end
-- ==== Proof.KI.Induct.lean ====
/- The scratch buffers after every grid point, at the ideal instance where the arguments are coercions of real arrays: for
   the query row `rr` of the point's query tile, after the key tiles 0 … `pk t` the running maximum, sum of weights and (per
   channel) weighted sum are the coercions of the specification's blocked recursion over that row's scores, and the stored
   projection is the row's queries. After the last key tile the output block is the attention result, by the algebra of the
   blocked recursion. -/
import proofs.«404800_j8830452761398_3_alg».proof.Proof.KI.Pieces
import proofs.«404800_j8830452761398_3_alg».proof.Proof.KI.Pays
import proofs.«404800_j8830452761398_3_alg».proof.Proof.KI.Blocks
import proofs.«404800_j8830452761398_3_alg».proof.Proof.Algebra

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Spec

variable (m : (ℓ : Loc nD τ sig) → Buf (Elt Ideal) ℓ) (ρ : Dev nD → PrngReg)

variable (c : Dev nD) (r : RealArgs) (hr : Reads r (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))

/-- The specification's running state of query token `q` of image `n`, channel `c'`, after key blocks `0 … j`. -/
def stR (r : RealArgs) (n : Fin 4) (q : Fin 6400) (c' : Fin 128) (j : ℕ) : ℝ × ℝ × ℝ :=
  run (blk fun k => score r.e1 r.e2 n q k) (blk fun k => r.av n k c') j

/-- The point before t (used where t is not the first key tile of its row of tiles). -/
abbrev prev (t : Fin cfg0.N) : Fin cfg0.N := ⟨t.val - 1, Nat.lt_of_le_of_lt (Nat.sub_le _ _) t.isLt⟩

/-- What the scratch holds after point t, at query row rr and channel c'. -/
def Inv (t : Fin cfg0.N) (rr : Fin 3200) (c' : Fin 128) : Prop :=
    ((scAt0 m c t.val t.isLt).1 : S3200x1.Idx → EReal) (ix2 rr 0) = (((stR r (pn t) (qtok t rr) c' (pk t).val).1 : ℝ) : EReal)
    ∧ ((scAt0 m c t.val t.isLt).2.1 : S3200x1.Idx → EReal) (ix2 rr 0) = (((stR r (pn t) (qtok t rr) c' (pk t).val).2.1 : ℝ) : EReal)
    ∧ ((scAt0 m c t.val t.isLt).2.2.1 : S3200x128.Idx → EReal) (ix2 rr c') = (((stR r (pn t) (qtok t rr) c' (pk t).val).2.2 : ℝ) : EReal)
    ∧ ∀ d : Fin 64, ((scAt0 m c t.val t.isLt).2.2.2 : S3200x64.Idx → EReal) (ix2 rr d) = ((r.e1 (pn t) (qtok t rr) d : ℝ) : EReal)

/-- A query row's scores against the key tile of point t are that block of the row's scores. -/
theorem sR_eq (t : Fin cfg0.N) (rr : Fin 3200) :
    sR (fun kk ch => tok r.x (pn t) (ktok t kk) ch) r.w2 r.b2 r.a2 (fun rr d => r.e1 (pn t) (qtok t rr) d) rr
      = blk (fun k => score r.e1 r.e2 (pn t) (qtok t rr) k) (pk t).val := by
  funext kk
  unfold blk
  rw [dif_pos (pk t).isLt]
  rfl

/-- The values of the key tile of point t, channel c', are that block of the image's values. -/
theorem avR_eq (t : Fin cfg0.N) (c' : Fin 128) :
    (fun kk => avR (fun kk ch => tok r.x (pn t) (ktok t kk) ch) r.wa r.ba r.aa kk c')
      = blk (fun k => r.av (pn t) k c') (pk t).val := by
  funext kk
  unfold blk
  rw [dif_pos (pk t).isLt]
  rfl

include hr

/-- At a first key tile the scratch is the first step of the recursion. -/
theorem first_case (t : Fin cfg0.N) (h0 : t.val % 5 = 0) (rr : Fin 3200) (c' : Fin 128) : Inv m c r t rr c' := by
  have hk : (pk t).val = 0 := h0
  have he1 : ∀ (rr : Fin 3200) (d : Fin 64),
      ((resetS (F := Ideal) (iblk m c 0 t) (iblk m c 2 t) (iblk m c 3 t) (iblk m c 4 t)).2.2.2 : S3200x64.Idx → EReal) (ix2 rr d)
        = ((r.e1 (pn t) (qtok t rr) d : ℝ) : EReal) := fun rr d =>
    pay2_read (iblk m c 0 t) (iblk m c 2 t) (iblk m c 3 t) (iblk m c 4 t) (fun rr ch => tok r.x (pn t) (qtok t rr) ch) r.w1 r.b1 r.a1
      (fun ch rr => blk0_read m c r hr t ch rr) (fun ch d => blk2_read m c r hr t ch d) (fun d => blk3_read m c r hr t d) (blk4_read m c r hr t) rr d
  have key := upd_first (iblk m c 1 t) (iblk m c 5 t) (iblk m c 6 t) (iblk m c 7 t) (iblk m c 8 t) (iblk m c 9 t) (iblk m c 10 t)
    (resetS (iblk m c 0 t) (iblk m c 2 t) (iblk m c 3 t) (iblk m c 4 t))
    (fun kk ch => tok r.x (pn t) (ktok t kk) ch) r.w2 r.b2 r.a2 r.wa r.ba r.aa (fun rr d => r.e1 (pn t) (qtok t rr) d)
    (fun ch kk => blk1_read m c r hr t ch kk) (fun ch d => blk5_read m c r hr t ch d) (fun d => blk6_read m c r hr t d) (blk7_read m c r hr t)
    (fun ch d => blk8_read m c r hr t ch d) (fun d => blk9_read m c r hr t d) (blk10_read m c r hr t)
    he1
    (fun rr => (reset_read (iblk m c 0 t) (iblk m c 2 t) (iblk m c 3 t) (iblk m c 4 t) rr 0).1)
    (fun rr => (reset_read (iblk m c 0 t) (iblk m c 2 t) (iblk m c 3 t) (iblk m c 4 t) rr 0).2.1)
    (fun rr c' => (reset_read (iblk m c 0 t) (iblk m c 2 t) (iblk m c 3 t) (iblk m c 4 t) rr c').2.2) rr c'
  have hst : stR r (pn t) (qtok t rr) c' (pk t).val
      = first (sR (fun kk ch => tok r.x (pn t) (ktok t kk) ch) r.w2 r.b2 r.a2 (fun rr d => r.e1 (pn t) (qtok t rr) d) rr)
          (fun kk => avR (fun kk ch => tok r.x (pn t) (ktok t kk) ch) r.wa r.ba r.aa kk c') := by
    rw [sR_eq, avR_eq, hk]
    rfl
  unfold Inv
  rw [scAt0_first m c t h0, hst]
  exact ⟨key.1, key.2.1, key.2.2, fun d => he1 rr d⟩

/-- At a later key tile the scratch is one more step from what the tile before left. -/
theorem next_case (t : Fin cfg0.N) (h0 : ¬t.val % 5 = 0) (ih : ∀ rr c', Inv m c r (prev t) rr c') (rr : Fin 3200) (c' : Fin 128) :
    Inv m c r t rr c' := by
  have hlt := t.isLt
  have hpn : pn (prev t) = pn t := Fin.ext (by show (t.val - 1) / 10 = t.val / 10; omega)
  have hq : ∀ rr, qtok (prev t) rr = qtok t rr := fun rr =>
    Fin.ext (by show (t.val - 1) / 5 % 2 * 3200 + rr.val = t.val / 5 % 2 * 3200 + rr.val; omega)
  have hk : (pk t).val = (pk (prev t)).val + 1 := by show t.val % 5 = (t.val - 1) % 5 + 1; omega
  have ih' : ∀ rr c'',
      ((scAt0 m c (prev t).val (prev t).isLt).1 : S3200x1.Idx → EReal) (ix2 rr 0) = (((stR r (pn t) (qtok t rr) c'' (pk (prev t)).val).1 : ℝ) : EReal)
      ∧ ((scAt0 m c (prev t).val (prev t).isLt).2.1 : S3200x1.Idx → EReal) (ix2 rr 0) = (((stR r (pn t) (qtok t rr) c'' (pk (prev t)).val).2.1 : ℝ) : EReal)
      ∧ ((scAt0 m c (prev t).val (prev t).isLt).2.2.1 : S3200x128.Idx → EReal) (ix2 rr c'') = (((stR r (pn t) (qtok t rr) c'' (pk (prev t)).val).2.2 : ℝ) : EReal)
      ∧ ∀ d : Fin 64, ((scAt0 m c (prev t).val (prev t).isLt).2.2.2 : S3200x64.Idx → EReal) (ix2 rr d) = ((r.e1 (pn t) (qtok t rr) d : ℝ) : EReal) := by
    intro rr c''
    have h := ih rr c''
    unfold Inv at h
    rw [hpn, hq] at h
    exact h
  have key := upd_step (iblk m c 1 t) (iblk m c 5 t) (iblk m c 6 t) (iblk m c 7 t) (iblk m c 8 t) (iblk m c 9 t) (iblk m c 10 t)
    (scAt0 m c (prev t).val (prev t).isLt)
    (fun kk ch => tok r.x (pn t) (ktok t kk) ch) r.w2 r.b2 r.a2 r.wa r.ba r.aa (fun rr d => r.e1 (pn t) (qtok t rr) d)
    (fun ch kk => blk1_read m c r hr t ch kk) (fun ch d => blk5_read m c r hr t ch d) (fun d => blk6_read m c r hr t d) (blk7_read m c r hr t)
    (fun ch d => blk8_read m c r hr t ch d) (fun d => blk9_read m c r hr t d) (blk10_read m c r hr t)
    (fun rr d => (ih' rr c').2.2.2 d)
    (fun rr => (stR r (pn t) (qtok t rr) c' (pk (prev t)).val).1)
    (fun rr => (stR r (pn t) (qtok t rr) c' (pk (prev t)).val).2.1)
    (fun rr c'' => (stR r (pn t) (qtok t rr) c'' (pk (prev t)).val).2.2)
    (fun rr => (ih' rr c').1) (fun rr => (ih' rr c').2.1) (fun rr c'' => (ih' rr c'').2.2.1) rr c'
  have hst : stR r (pn t) (qtok t rr) c' (pk t).val
      = step (stR r (pn t) (qtok t rr) c' (pk (prev t)).val)
          (sR (fun kk ch => tok r.x (pn t) (ktok t kk) ch) r.w2 r.b2 r.a2 (fun rr d => r.e1 (pn t) (qtok t rr) d) rr)
          (fun kk => avR (fun kk ch => tok r.x (pn t) (ktok t kk) ch) r.wa r.ba r.aa kk c') := by
    rw [sR_eq, avR_eq, hk]
    rfl
  unfold Inv
  rw [scAt0_next m c t h0, hst]
  exact ⟨key.1, key.2.1, key.2.2, fun d => (ih' rr c').2.2.2 d⟩

/-- The invariant at every point, by induction over the points. -/
theorem inv_all (n : ℕ) : ∀ (t : Fin cfg0.N), t.val = n → ∀ rr c', Inv m c r t rr c' := by
  induction n with
  | zero => intro t ht rr c'; exact first_case m c r hr t (by omega) rr c'
  | succ n ih =>
    intro t ht rr c'
    by_cases h0 : t.val % 5 = 0
    · exact first_case m c r hr t h0 rr c'
    · exact next_case m c r hr t h0 (ih (prev t) (by show t.val - 1 = n; omega)) rr c'

/-- The invariant over the points. -/
theorem scAt0_read (t : Fin cfg0.N) (rr : Fin 3200) (c' : Fin 128) :
    ((scAt0 m c t.val t.isLt).1 : S3200x1.Idx → EReal) (ix2 rr 0) = (((stR r (pn t) (qtok t rr) c' (pk t).val).1 : ℝ) : EReal)
    ∧ ((scAt0 m c t.val t.isLt).2.1 : S3200x1.Idx → EReal) (ix2 rr 0) = (((stR r (pn t) (qtok t rr) c' (pk t).val).2.1 : ℝ) : EReal)
    ∧ ((scAt0 m c t.val t.isLt).2.2.1 : S3200x128.Idx → EReal) (ix2 rr c') = (((stR r (pn t) (qtok t rr) c' (pk t).val).2.2 : ℝ) : EReal)
    ∧ ∀ d : Fin 64, ((scAt0 m c t.val t.isLt).2.2.2 : S3200x64.Idx → EReal) (ix2 rr d) = ((r.e1 (pn t) (qtok t rr) d : ℝ) : EReal) := by
  exact inv_all m c r hr t.val t rfl rr c'

/-- After a last key tile the output's staging buffer holds the attention result of its query tile, channel-major. -/
theorem outAt0_read (t : Fin cfg0.N) (h1 : t.val % 5 = 4) (c' : Fin 128) (rr : Fin 3200) :
    (outAt0 m c t : S1x128x3200.Idx → EReal) (ix3 0 c' rr) = ((att r.e1 r.e2 r.av (pn t) (qtok t rr) c' : ℝ) : EReal) := by
  have hk : (pk t).val = 4 := h1
  rw [outAt0_last m c t h1,
    out_read (scAt0 m c t.val t.isLt) (fun rr => (stR r (pn t) (qtok t rr) c' (pk t).val).2.1)
      (fun rr c'' => (stR r (pn t) (qtok t rr) c'' (pk t).val).2.2)
      (fun rr => (scAt0_read m c r hr t rr c').2.1) (fun rr c'' => (scAt0_read m c r hr t rr c'').2.2.1)
      (fun rr => (run_l_pos _ _ _).ne') c' rr]
  refine congrArg (fun x : ℝ => (x : EReal)) ?_
  show (stR r (pn t) (qtok t rr) c' (pk t).val).2.2 / (stR r (pn t) (qtok t rr) c' (pk t).val).2.1 = _
  rw [hk]
  exact online_eq (fun k => score r.e1 r.e2 (pn t) (qtok t rr) k) (fun k => r.av (pn t) k c')

end Cert.KernelIdeal.Hand

end
-- ==== Proof.KI.Final.lean ====
/- The kernel's result array after the run, at the ideal instance where the arguments are coercions of real arrays: the
   output window is written back after each last key tile, the blocks of the eight (image, query tile) pairs tile the array,
   and each holds the attention result of its tokens. -/
import proofs.«404800_j8830452761398_3_alg».proof.Proof.KI.Induct
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Spec

variable (m : (ℓ : Loc nD τ sig) → Buf (Elt Ideal) ℓ) (ρ : Dev nD → PrngReg)

variable (c : Dev nD) (r : RealArgs) (hr : Reads r (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))

/-- The whole result array as one function of its index: image, channel, token. -/
abbrev Gout (r : RealArgs) : S4x128x6400.Idx → EReal := fun i => ((att r.e1 r.e2 r.av (i 0) (i 2) (i 1) : ℝ) : EReal)

/-- The output window's block index at point t: image t / 10, channel block 0, query tile t / 5 % 2. -/
theorem idx_facts11 : ∀ t : Fin cfg0.N, win0_11.index t (0 : Fin 3) = t.val / 10 ∧ win0_11.index t (1 : Fin 3) = 0 ∧ win0_11.index t (2 : Fin 3) = t.val / 5 % 2 :=
  (by decide +kernel : ∀ t : Fin grid0.N, _)

/-- An index of the array is in point t's block iff each coordinate is in the block's range on its axis. -/
theorem mem_blk11 (t : Fin cfg0.N) (i : S4x128x6400.Idx) :
    i ∈ ((cfg0.win 11).blk t).view.set ↔ ∀ a : Fin 3, win0_11.index t a * S1x128x3200.size a ≤ (i a).val ∧ (i a).val < win0_11.index t a * S1x128x3200.size a + S1x128x3200.size a := by
  show i ∈ ((View.whole main_v13).slice (win0_11.rect t)).set ↔ _
  rw [View.set_slice_whole, Rect.mem_set_unit]
  exact Iff.rfl

/-- Every index of the array is in the block of a point that writes back: the last key tile of its image and query tile. -/
theorem cover11 (i : S4x128x6400.Idx) : ∃ t : Fin cfg0.N, (cfg0.win 11).flush t = true ∧ i ∈ ((cfg0.win 11).blk t).view.set := by
  have hi0 : (i 0).val < 4 := (i 0).isLt
  have hi1 : (i 1).val < 128 := (i 1).isLt
  have hi2 : (i 2).val < 6400 := (i 2).isLt
  have hN : cfg0.N = 40 := N_0
  let t : Fin cfg0.N := ⟨10 * (i 0).val + 5 * ((i 2).val / 3200) + 4, by omega⟩
  have htv : t.val = 10 * (i 0).val + 5 * ((i 2).val / 3200) + 4 := rfl
  obtain ⟨e0, e1, e2⟩ := idx_facts11 t
  refine ⟨t, (flush0_11 t).mpr (by omega), ?_⟩
  rw [mem_blk11]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 128 ≤ (i 1).val ∧ (i 1).val < win0_11.index t (1 : Fin 3) * 128 + 128; omega
  | ⟨2, _⟩ => show win0_11.index t (2 : Fin 3) * 3200 ≤ (i 2).val ∧ (i 2).val < win0_11.index t (2 : Fin 3) * 3200 + 3200; omega

include hr

/-- What a last key tile writes back is its block of the result array. -/
theorem flushed11_eq (t : Fin cfg0.N) (hf : (cfg0.win 11).flush t = true) :
    (dats m 0 c).flushed 11 t = ((cfg0.win 11).blk t).view.read (Elt Ideal) (Gout r) := by
  have h1 : t.val % 5 = 4 := (flush0_11 t).mp hf
  show (cfg0.win 11).cut (grid0.coords t) ((dats m 0 c).after 11 t) = _
  rw [after0_11]
  funext y
  obtain ⟨y0, c', rr, rfl⟩ : ∃ (y0 : Fin 1) (c' : Fin 128) (rr : Fin 3200), y = ix3 y0 c' rr := ⟨y 0, y 1, y 2, eq_ix3 y⟩
  obtain rfl : y0 = 0 := Subsingleton.elim _ _
  obtain ⟨e0, e1, e2⟩ := idx_facts11 t
  show (outAt0 m c t : S1x128x3200.Idx → EReal) (ix3 0 c' rr) = Gout r (((cfg0.win 11).blk t).view.emb (ix3 0 c' rr))
  rw [outAt0_read m c r hr t h1 c' rr]
  show _ = ((att r.e1 r.e2 r.av _ _ _ : ℝ) : EReal)
  have a0 : ((((cfg0.win 11).blk t).view.emb (ix3 (0 : Fin 1) c' rr) : S4x128x6400.Idx) 0 : Fin 4) = pn t :=
    Fin.ext (by show win0_11.index t (0 : Fin 3) * 1 + 1 * 0 = t.val / 10; omega)
  have a1 : ((((cfg0.win 11).blk t).view.emb (ix3 (0 : Fin 1) c' rr) : S4x128x6400.Idx) 1 : Fin 128) = c' :=
    Fin.ext (by show win0_11.index t (1 : Fin 3) * 128 + 1 * c'.val = c'.val; omega)
  have a2 : ((((cfg0.win 11).blk t).view.emb (ix3 (0 : Fin 1) c' rr) : S4x128x6400.Idx) 2 : Fin 6400) = qtok t rr :=
    Fin.ext (by show win0_11.index t (2 : Fin 3) * 3200 + 1 * rr.val = t.val / 5 % 2 * 3200 + rr.val; omega)
  rw [a0, a1, a2]

/-- The result array, [4, 128, 6400]: image `n`, channel `c'`, token `p`. -/
theorem final_read (n : Fin 4) (c' : Fin 128) (p : Fin 6400) :
    ((dats m 0 c).arrAt 11 cfg0.N : S4x128x6400.Idx → EReal) (ix3 n c' p) = ((att r.e1 r.e2 r.av n p c' : ℝ) : EReal) := by
  rw [(dats m 0 c).arrAt_eq_of_cover 11 (Gout r) (fun t hf => flushed11_eq m c r hr t hf) cover11]

end Cert.KernelIdeal.Hand

end
-- ==== Proof.KI.Result.lean ====
/- The returned image of the kernel at the ideal instance: the host line after the region reshapes the result array
   [4, 128, 6400] into [4, 128, 80, 80], token `p` going to row `p / 80`, column `p % 80`, so the image is the coercion of the
   attention function of the real arguments. -/
import proofs.«404800_j8830452761398_3_alg».proof.Proof.KI.Final
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Spec

variable (m : (ℓ : Loc nD τ sig) → Buf (Elt Ideal) ℓ) (ρ : Dev nD → PrngReg)

variable (c : Dev nD) (r : RealArgs) (hr : Reads r (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
include hr

theorem result_eq :
    (shapeCast S4x128x80x80 ((dats m 0 c).arrAt 11 cfg0.N : FVec Ideal S4x128x6400 .f32) shapeCasts_S4x128x6400_S4x128x80x80 : S4x128x80x80.Idx → EReal)
      = fun i => ((r.out (i 0) (i 1) (i 2) (i 3) : ℝ) : EReal) := by
  funext i
  obtain ⟨n, c', h, w, rfl⟩ : ∃ (n : Fin 4) (c' : Fin 128) (h w : Fin 80), i = ix4 n c' h w := ⟨i 0, i 1, i 2, i 3, eq_ix4 i⟩
  have hn := n.isLt; have hc := c'.isLt; have hh := h.isLt; have hw := w.isLt
  have hk : (S4x128x6400.rowMajor (ix3 n c' (⟨h.val * 80 + w.val, by omega⟩ : Fin 6400))).val = (S4x128x80x80.rowMajor (ix4 n c' h w)).val := by
    rw [Shape.rowMajor_val_three, Shape.rowMajor_val_four]
    show (n.val * 128 + c'.val) * 6400 + (h.val * 80 + w.val) = ((n.val * 128 + c'.val) * 80 + h.val) * 80 + w.val
    omega
  refine (shapeCast_apply (s := S4x128x6400) (t := S4x128x80x80) ((dats m 0 c).arrAt 11 cfg0.N : S4x128x6400.Idx → EReal)
    shapeCasts_S4x128x6400_S4x128x80x80 (ix4 n c' h w) (ix3 n c' (⟨h.val * 80 + w.val, by omega⟩ : Fin 6400)) hk).trans ?_
  exact final_read m c r hr n c' (⟨h.val * 80 + w.val, by omega⟩ : Fin 6400)

end Cert.KernelIdeal.Hand

end
-- ==== Proof.RefValue.lean ====
/- The reference's result, index by index, is the attention function of the real arguments. -/
import proofs.«404800_j8830452761398_3_alg».proof.Defs
import proofs.«404800_j8830452761398_3_alg».proof.Proof.Gen.ReferenceIdeal.Run
import proofs.«404800_j8830452761398_3_alg».proof.Proof.Gen.ReferenceIdeal.Read
import proofs.«404800_j8830452761398_3_alg».proof.Proof.Args
import Idealize.ShloMosaic.Lib.ValueIdx
import Idealize.ShloMosaic.PureOps.Ideal.Laws
import Idealize.ShloMosaic.PureOps.Reduce
import Mathlib.Data.EReal.Basic
import Mathlib.Data.Finset.Fold

noncomputable section

namespace Cert.ReferenceIdeal.RefValue

open Idealize.ShloMosaic Idealize.ShloMosaic.TcCoe Idealize.SL.Sem Idealize.ShloMosaic.ValueIdx Cert.ReferenceIdeal Cert.ReferenceIdeal.Gen

/-! ## Extended reals that are real numbers -/

/-- The coercion of a finite sum of reals is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The pattern of the literal `-∞` denotes the bottom element. -/
theorem neg_inf_f32 : Ideal.ofBits .f32 0xFF800000#32 = (⊥ : EReal) := by simp [Ideal.ofBits, Ideal.ieee]

/-- The leaky rectifier as the program spells it: compare with zero, then choose between the value and its multiple. -/
theorem prelu_read (a v : ℝ) :
    Scalar.select (FloatOps.cmpf (F := Ideal) (φ := .f32) .oge (v : EReal) (FloatOps.ofBits .f32 0x00000000#32)) (v : EReal)
        (FloatOps.mulf (F := Ideal) (φ := .f32) (a : EReal) (v : EReal))
      = ((Spec.prelu a v : ℝ) : EReal) := by
  rw [Ideal.cmpf_def, Ideal.ofBits_def, Ideal.ofBits_zero_f32, Ideal.mulf_def]
  unfold Spec.prelu
  by_cases h : 0 ≤ v
  · have h' : (0 : EReal) ≤ (v : EReal) := EReal.coe_nonneg.2 h
    rw [if_pos h, show Ideal.cmp .oge (v : EReal) 0 = 1#1 from by simp [Ideal.cmp, h']]
    exact select_one _ _
  · have h' : ¬ (0 : EReal) ≤ (v : EReal) := fun h'' => h (EReal.coe_nonneg.1 h'')
    rw [if_neg h, show Ideal.cmp .oge (v : EReal) 0 = 0#1 from by simp [Ideal.cmp, h'], ← EReal.coe_mul]
    exact select_zero _ _

/-- A linear map with bias followed by the rectifier, on coerced reals. -/
theorem proj_core (t w : Fin 128 → ℝ) (b a : ℝ) (T W : Fin 128 → EReal) (B A : EReal)
    (hT : ∀ k, T k = (t k : EReal)) (hW : ∀ k, W k = (w k : EReal)) (hB : B = (b : EReal)) (hA : A = (a : EReal)) :
    Scalar.select (FloatOps.cmpf (F := Ideal) (φ := .f32) .oge (FloatOps.addf (F := Ideal) (φ := .f32) (∑ k, T k * W k) B) (FloatOps.ofBits .f32 0x00000000#32))
        (FloatOps.addf (F := Ideal) (φ := .f32) (∑ k, T k * W k) B)
        (FloatOps.mulf (F := Ideal) (φ := .f32) A (FloatOps.addf (F := Ideal) (φ := .f32) (∑ k, T k * W k) B))
      = ((Spec.prelu a ((∑ k, t k * w k) + b) : ℝ) : EReal) := by
  have hs : FloatOps.addf (F := Ideal) (φ := .f32) (∑ k, T k * W k) B = (((∑ k, t k * w k) + b : ℝ) : EReal) := by
    rw [Ideal.addf_def, hB, EReal.coe_add, coe_sum]
    exact congrArg (· + (b : EReal)) (Finset.sum_congr rfl fun k _ => by rw [hT, hW, EReal.coe_mul])
  rw [hs, hA]
  exact prelu_read _ _

/-- The largest of finitely many coerced reals, folded from the bottom element. -/
theorem fold_max_coe {K : ℕ} [NeZero K] (s : Fin K → ℝ) :
    (Finset.univ : Finset (Fin K)).fold max (⊥ : EReal) (fun k => (s k : EReal)) = ((Spec.rowMax s : ℝ) : EReal) := by
  unfold Spec.rowMax
  apply le_antisymm
  · rw [Finset.fold_max_le]
    exact ⟨bot_le, fun k _ => EReal.coe_le_coe_iff.2 (Finset.le_sup' s (Finset.mem_univ k))⟩
  · obtain ⟨k, _, hk⟩ := Finset.exists_mem_eq_sup' (⟨0, Finset.mem_univ _⟩ : (Finset.univ : Finset (Fin K)).Nonempty) s
    rw [hk, Finset.le_fold_max]
    exact Or.inr ⟨k, Finset.mem_univ k, le_rfl⟩

/-! ## The stages of the reference, read at an index -/

section Stages

variable (x0 : (⟨S4x128x80x80, .f32⟩ : BufTy).Contents (Elt Ideal)) (x1 : (⟨S64x128, .f32⟩ : BufTy).Contents (Elt Ideal))
  (x2 : (⟨S64, .f32⟩ : BufTy).Contents (Elt Ideal)) (x3 : (⟨S1, .f32⟩ : BufTy).Contents (Elt Ideal))
  (x4 : (⟨S64x128, .f32⟩ : BufTy).Contents (Elt Ideal)) (x5 : (⟨S64, .f32⟩ : BufTy).Contents (Elt Ideal))
  (x6 : (⟨S1, .f32⟩ : BufTy).Contents (Elt Ideal)) (x7 : (⟨S128x128, .f32⟩ : BufTy).Contents (Elt Ideal))
  (x8 : (⟨S128, .f32⟩ : BufTy).Contents (Elt Ideal)) (x9 : (⟨S1, .f32⟩ : BufTy).Contents (Elt Ideal))
  (r : Cert.Spec.RealArgs) (hr : Cert.Spec.Reads r x0 x1 x2 x3 x4 x5 x6 x7 x8 x9)

include hr

/-- The tokens: the transposed and reshaped image at (n, p, c) is the pixel of channel c at row p / 80, column p % 80. -/
theorem tok_read (n : Fin 4) (p : Fin 6400) (c : Fin 128) :
    Read.val_main_v1 (F := Ideal) x0 (ix3 n p c) = ((Spec.tok r.x n p c : ℝ) : EReal) := by
  rw [Read.val_main_v1_apply, Read.val_main_v0_apply]
  have hn := n.isLt; have hp := p.isLt; have hc := c.isLt
  have e : Read.idx_main_v0 (Read.idx_main_v1 (ix3 n p c))
      = ix4 n c (⟨p.val / 80, by omega⟩ : Fin 80) (⟨p.val % 80, Nat.mod_lt _ (by decide)⟩ : Fin 80) :=
    funext fun a => Fin.ext (by
      match a with
      | ⟨0, _⟩ => show ((n.val * 6400 + p.val) * 128 + c.val) / 819200 = n.val; omega
      | ⟨1, _⟩ => show ((n.val * 6400 + p.val) * 128 + c.val) % 128 = c.val; omega
      | ⟨2, _⟩ => show ((n.val * 6400 + p.val) * 128 + c.val) / 10240 % 80 = p.val / 80; omega
      | ⟨3, _⟩ => show ((n.val * 6400 + p.val) * 128 + c.val) / 128 % 80 = p.val % 80; omega)
  rw [e, hr.x]
  rfl

/-- The queries. -/
theorem e1_read (n : Fin 4) (p : Fin 6400) (d : Fin 64) :
    Read.val_main_v11 (F := Ideal) x0 x1 x2 x3 (ix3 n p d) = ((r.e1 n p d : ℝ) : EReal) := by
  rw [Read.val_main_v11_apply, Read.val_main_v7_apply, Read.val_main_v10_apply, Read.val_main_v9_apply, Read.val_main_v8_apply,
    Read.val_main_v6_apply, Read.val_main_cst_apply, Read.val_main_v5_apply, Read.val_main_v4_apply, Read.val_main_v3_apply,
    Read.val_main_v2_apply]
  refine proj_core (fun k => Spec.tok r.x n p k) (fun k => r.w1 d k) (r.b1 d) r.a1 _ _ _ _ (fun k => ?_) (fun k => ?_) ?_ ?_
  · rw [show Read.lidx_main_v2 (ix3 n p d) k = ix3 n p k from
      funext fun a => Fin.ext (by match a with | ⟨0, _⟩ => rfl | ⟨1, _⟩ => rfl | ⟨2, _⟩ => rfl)]
    exact tok_read x0 x1 x2 x3 x4 x5 x6 x7 x8 x9 r hr n p k
  · rw [show Read.ridx_main_v2 (ix3 n p d) k = ix2 d k from
      funext fun a => Fin.ext (by match a with | ⟨0, _⟩ => rfl | ⟨1, _⟩ => rfl)]
    exact hr.w1 d k
  · rw [show Read.idx_main_v3 (Read.idx_main_v4 (ix3 n p d)) = ix1 d from
      funext fun a => Fin.ext (by match a with | ⟨0, _⟩ => rfl)]
    exact hr.b1 d
  · rw [show Read.idx_main_v8 (Read.idx_main_v9 (ix3 n p d)) = ix1 (0 : Fin 1) from
      funext fun a => Fin.ext (by match a with | ⟨0, _⟩ => rfl)]
    exact hr.a1 0

/-- The keys. -/
theorem e2_read (n : Fin 4) (p : Fin 6400) (d : Fin 64) :
    Read.val_main_v21 (F := Ideal) x0 x4 x5 x6 (ix3 n p d) = ((r.e2 n p d : ℝ) : EReal) := by
  rw [Read.val_main_v21_apply, Read.val_main_v17_apply, Read.val_main_v20_apply, Read.val_main_v19_apply, Read.val_main_v18_apply,
    Read.val_main_v16_apply, Read.val_main_cst_0_apply, Read.val_main_v15_apply, Read.val_main_v14_apply, Read.val_main_v13_apply,
    Read.val_main_v12_apply]
  refine proj_core (fun k => Spec.tok r.x n p k) (fun k => r.w2 d k) (r.b2 d) r.a2 _ _ _ _ (fun k => ?_) (fun k => ?_) ?_ ?_
  · rw [show Read.lidx_main_v12 (ix3 n p d) k = ix3 n p k from
      funext fun a => Fin.ext (by match a with | ⟨0, _⟩ => rfl | ⟨1, _⟩ => rfl | ⟨2, _⟩ => rfl)]
    exact tok_read x0 x1 x2 x3 x4 x5 x6 x7 x8 x9 r hr n p k
  · rw [show Read.ridx_main_v12 (ix3 n p d) k = ix2 d k from
      funext fun a => Fin.ext (by match a with | ⟨0, _⟩ => rfl | ⟨1, _⟩ => rfl)]
    exact hr.w2 d k
  · rw [show Read.idx_main_v13 (Read.idx_main_v14 (ix3 n p d)) = ix1 d from
      funext fun a => Fin.ext (by match a with | ⟨0, _⟩ => rfl)]
    exact hr.b2 d
  · rw [show Read.idx_main_v18 (Read.idx_main_v19 (ix3 n p d)) = ix1 (0 : Fin 1) from
      funext fun a => Fin.ext (by match a with | ⟨0, _⟩ => rfl)]
    exact hr.a2 0

/-- The values. -/
theorem av_read (n : Fin 4) (p : Fin 6400) (d : Fin 128) :
    Read.val_main_v31 (F := Ideal) x0 x7 x8 x9 (ix3 n p d) = ((r.av n p d : ℝ) : EReal) := by
  rw [Read.val_main_v31_apply, Read.val_main_v27_apply, Read.val_main_v30_apply, Read.val_main_v29_apply, Read.val_main_v28_apply,
    Read.val_main_v26_apply, Read.val_main_cst_1_apply, Read.val_main_v25_apply, Read.val_main_v24_apply, Read.val_main_v23_apply,
    Read.val_main_v22_apply]
  refine proj_core (fun k => Spec.tok r.x n p k) (fun k => r.wa d k) (r.ba d) r.aa _ _ _ _ (fun k => ?_) (fun k => ?_) ?_ ?_
  · rw [show Read.lidx_main_v22 (ix3 n p d) k = ix3 n p k from
      funext fun a => Fin.ext (by match a with | ⟨0, _⟩ => rfl | ⟨1, _⟩ => rfl | ⟨2, _⟩ => rfl)]
    exact tok_read x0 x1 x2 x3 x4 x5 x6 x7 x8 x9 r hr n p k
  · rw [show Read.ridx_main_v22 (ix3 n p d) k = ix2 d k from
      funext fun a => Fin.ext (by match a with | ⟨0, _⟩ => rfl | ⟨1, _⟩ => rfl)]
    exact hr.wa d k
  · rw [show Read.idx_main_v23 (Read.idx_main_v24 (ix3 n p d)) = ix1 d from
      funext fun a => Fin.ext (by match a with | ⟨0, _⟩ => rfl)]
    exact hr.ba d
  · rw [show Read.idx_main_v28 (Read.idx_main_v29 (ix3 n p d)) = ix1 (0 : Fin 1) from
      funext fun a => Fin.ext (by match a with | ⟨0, _⟩ => rfl)]
    exact hr.aa 0

/-- The scores: the inner product of query q and key k. -/
theorem score_read (n : Fin 4) (q k : Fin 6400) :
    Read.val_main_v32 (F := Ideal) x0 x1 x2 x3 x4 x5 x6 (ix3 n q k) = ((Spec.score r.e1 r.e2 n q k : ℝ) : EReal) := by
  rw [Read.val_main_v32_apply]
  unfold Spec.score
  rw [coe_sum]
  refine Finset.sum_congr rfl fun d _ => ?_
  rw [show Read.lidx_main_v32 (ix3 n q k) d = ix3 n q d from
      funext fun a => Fin.ext (by match a with | ⟨0, _⟩ => rfl | ⟨1, _⟩ => rfl | ⟨2, _⟩ => rfl),
    show Read.ridx_main_v32 (ix3 n q k) d = ix3 n k d from
      funext fun a => Fin.ext (by match a with | ⟨0, _⟩ => rfl | ⟨1, _⟩ => rfl | ⟨2, _⟩ => rfl),
    e1_read x0 x1 x2 x3 x4 x5 x6 x7 x8 x9 r hr, e2_read x0 x1 x2 x3 x4 x5 x6 x7 x8 x9 r hr, EReal.coe_mul]

/-- The row's maximum: the fold of the maximum from the bottom element over the keys, then once more against it. -/
theorem max_read (n : Fin 4) (q : Fin 6400) :
    Read.val_main_v35 (F := Ideal) x0 x1 x2 x3 x4 x5 x6 (ix2 n q)
      = ((Spec.rowMax (fun k => Spec.score r.e1 r.e2 n q k) : ℝ) : EReal) := by
  rw [Read.val_main_v35_apply, Read.val_main_v34_apply, Read.val_main_cst_3_apply]
  unfold Read.val_main_v33
  rw [Host.reduce_eq_fold_single FloatOps.maximumf _ _ reducesTo_S4x6400x6400_S4x6400_d2 (by decide) h_S_, Read.val_main_cst_2_apply,
    Ideal.ofBits_def, neg_inf_f32, Ideal.maximumf_def, max_eq_right bot_le]
  rw [← fold_max_coe]
  show (Finset.univ : Finset (Fin 6400)).fold max (⊥ : EReal) _ = _
  refine congrArg (fun f => (Finset.univ : Finset (Fin 6400)).fold max (⊥ : EReal) f) (funext fun k => ?_)
  show Read.val_main_v32 (F := Ideal) x0 x1 x2 x3 x4 x5 x6 _ = _
  rw [← score_read x0 x1 x2 x3 x4 x5 x6 x7 x8 x9 r hr n q k]
  exact congrArg _ (funext fun a => Fin.ext (by match a with | ⟨0, _⟩ => rfl | ⟨1, _⟩ => rfl | ⟨2, _⟩ => rfl))

/-- The shifted exponentials. -/
theorem exp_read (n : Fin 4) (q k : Fin 6400) :
    Read.val_main_v39 (F := Ideal) x0 x1 x2 x3 x4 x5 x6 (ix3 n q k)
      = ((Real.exp (Spec.score r.e1 r.e2 n q k - Spec.rowMax (fun k' => Spec.score r.e1 r.e2 n q k')) : ℝ) : EReal) := by
  rw [Read.val_main_v39_apply, Read.val_main_v38_apply, Read.val_main_v37_apply, Read.val_main_v36_apply,
    show Read.idx_main_v36 (Read.idx_main_v37 (ix3 n q k)) = ix2 n q from
      funext fun a => Fin.ext (by match a with | ⟨0, _⟩ => rfl | ⟨1, _⟩ => rfl),
    max_read x0 x1 x2 x3 x4 x5 x6 x7 x8 x9 r hr, score_read x0 x1 x2 x3 x4 x5 x6 x7 x8 x9 r hr,
    Ideal.subf_def, ← EReal.coe_sub, Ideal.hostUnary_exp_def, Ideal.exp_coe]

/-- The row's sum of exponentials. -/
theorem den_read (n : Fin 4) (q : Fin 6400) :
    Read.val_main_v40 (F := Ideal) x0 x1 x2 x3 x4 x5 x6 (ix2 n q)
      = ((∑ k : Fin 6400, Real.exp (Spec.score r.e1 r.e2 n q k - Spec.rowMax (fun k' => Spec.score r.e1 r.e2 n q k')) : ℝ) : EReal) := by
  rw [Read.val_main_v40_apply, Read.val_main_cst_4_apply, Ideal.ofBits_def, Ideal.ofBits_zero_f32, zero_add, coe_sum]
  refine Finset.sum_congr rfl fun k _ => ?_
  rw [show Read.idx_main_v40 (ix2 n q) k = ix3 n q k from
      funext fun a => Fin.ext (by match a with | ⟨0, _⟩ => rfl | ⟨1, _⟩ => rfl | ⟨2, _⟩ => rfl)]
  exact exp_read x0 x1 x2 x3 x4 x5 x6 x7 x8 x9 r hr n q k

/-- The weights: each exponential over the row's sum, which is positive. -/
theorem weight_read (n : Fin 4) (q k : Fin 6400) :
    Read.val_main_v43 (F := Ideal) x0 x1 x2 x3 x4 x5 x6 (ix3 n q k)
      = ((Real.exp (Spec.score r.e1 r.e2 n q k - Spec.rowMax (fun k' => Spec.score r.e1 r.e2 n q k'))
          / ∑ k'' : Fin 6400, Real.exp (Spec.score r.e1 r.e2 n q k'' - Spec.rowMax (fun k' => Spec.score r.e1 r.e2 n q k')) : ℝ) : EReal) := by
  have hpos : (0 : ℝ) < ∑ k'' : Fin 6400, Real.exp (Spec.score r.e1 r.e2 n q k'' - Spec.rowMax (fun k' => Spec.score r.e1 r.e2 n q k')) :=
    Finset.sum_pos (fun _ _ => Real.exp_pos _) ⟨0, Finset.mem_univ _⟩
  rw [Read.val_main_v43_apply, Read.val_main_v42_apply, Read.val_main_v41_apply,
    show Read.idx_main_v41 (Read.idx_main_v42 (ix3 n q k)) = ix2 n q from
      funext fun a => Fin.ext (by match a with | ⟨0, _⟩ => rfl | ⟨1, _⟩ => rfl),
    den_read x0 x1 x2 x3 x4 x5 x6 x7 x8 x9 r hr, exp_read x0 x1 x2 x3 x4 x5 x6 x7 x8 x9 r hr,
    Ideal.hostDivf_def, Ideal.div_coe (ne_of_gt hpos), ← EReal.coe_mul, mul_one_div]

/-- The weighted mean of the values. -/
theorem att_read (n : Fin 4) (q : Fin 6400) (c : Fin 128) :
    Read.val_main_v44 (F := Ideal) x0 x1 x2 x3 x4 x5 x6 x7 x8 x9 (ix3 n q c) = ((Spec.att r.e1 r.e2 r.av n q c : ℝ) : EReal) := by
  rw [Read.val_main_v44_apply]
  unfold Spec.att Spec.softAvg
  rw [coe_sum]
  refine Finset.sum_congr rfl fun k _ => ?_
  rw [show Read.lidx_main_v44 (ix3 n q c) k = ix3 n q k from
      funext fun a => Fin.ext (by match a with | ⟨0, _⟩ => rfl | ⟨1, _⟩ => rfl | ⟨2, _⟩ => rfl),
    show Read.ridx_main_v44 (ix3 n q c) k = ix3 n k c from
      funext fun a => Fin.ext (by match a with | ⟨0, _⟩ => rfl | ⟨1, _⟩ => rfl | ⟨2, _⟩ => rfl),
    weight_read x0 x1 x2 x3 x4 x5 x6 x7 x8 x9 r hr, av_read x0 x1 x2 x3 x4 x5 x6 x7 x8 x9 r hr, EReal.coe_mul]

/-- The result image: channel c of query h · 80 + w. -/
theorem out_read (n : Fin 4) (c : Fin 128) (h w : Fin 80) :
    Read.val_main_v46 (F := Ideal) x0 x1 x2 x3 x4 x5 x6 x7 x8 x9 (ix4 n c h w) = ((r.out n c h w : ℝ) : EReal) := by
  have hn := n.isLt; have hc := c.isLt; have hh := h.isLt; have hw := w.isLt
  rw [Read.val_main_v46_apply, Read.val_main_v45_apply,
    show Read.idx_main_v45 (Read.idx_main_v46 (ix4 n c h w)) = ix3 n (⟨h.val * 80 + w.val, by omega⟩ : Fin 6400) c from
      funext fun a => Fin.ext (by
        match a with
        | ⟨0, _⟩ => show (((n.val * 128 + c.val) * 80 + h.val) * 80 + w.val) / 819200 = n.val; omega
        | ⟨1, _⟩ => show (((n.val * 128 + c.val) * 80 + h.val) * 80 + w.val) % 6400 = h.val * 80 + w.val; omega
        | ⟨2, _⟩ => show (((n.val * 128 + c.val) * 80 + h.val) * 80 + w.val) / 6400 % 128 = c.val; omega),
    att_read x0 x1 x2 x3 x4 x5 x6 x7 x8 x9 r hr]
  rfl

end Stages

/-- Where the arguments are the coercions of real arrays, the reference run's result term is the coercion of the
    attention function of those arrays. -/
theorem res_eq (m : (ℓ : Loc nD τ sig) → Buf (Elt Ideal) ℓ) (c : Dev nD) (r : Cert.Spec.RealArgs)
    (hr : Cert.Spec.Reads r
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9))) :
    (Cert.ReferenceIdeal.Value.res_out0 (F := Ideal) m c : S4x128x80x80.Idx → EReal)
      = fun i => ((r.out (i 0) (i 1) (i 2) (i 3) : ℝ) : EReal) := by
  funext i
  obtain ⟨n, ch, h, w, rfl⟩ : ∃ (n : Fin 4) (ch : Fin 128) (h w : Fin 80), i = ix4 n ch h w := ⟨i 0, i 1, i 2, i 3, eq_ix4 i⟩
  show Cert.ReferenceIdeal.Value.res_main_v46 (F := Ideal) m c (ix4 n ch h w) = _
  rw [Read.val_main_v46_eq]
  exact out_read _ _ _ _ _ _ _ _ _ _ r hr n ch h w

end Cert.ReferenceIdeal.RefValue

end
-- ==== Proof.Finite.lean ====
/- Under the precondition every argument array holds real numbers. -/
import proofs.«404800_j8830452761398_3_alg».proof.Defs
import proofs.«404800_j8830452761398_3_alg».proof.Proof.Gen.Pre_finite_inputs
import proofs.«404800_j8830452761398_3_alg».proof.Proof.Args
import Idealize.ShloMosaic.Lib.ReduceAll

noncomputable section

namespace Cert.KernelIdeal.Finite

open Idealize.ShloMosaic Idealize.ShloMosaic.TcCoe Idealize.SL.Sem Idealize.ShloMosaic.ValueIdx Cert.KernelIdeal

variable [Cert.Pre_finite_inputs.Facts]

/-- An extended real whose absolute value lies strictly below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Every entry of an array for which `all(|x| < +∞)` holds is a real number. -/
theorem real_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32) (init : IVec Cert.Pre_finite_inputs.S_ 1) (j : Cert.Pre_finite_inputs.S_.Idx)
    (e : Host.reduce IntOp.andi
        (cmpf .olt (Host.absf x) (broadcastInDim s ![] hb (constant Cert.Pre_finite_inputs.S_ .f32 0x7F800000#32)))
        init hr hu j = 1#1) (i : s.Idx) :
    ∃ r : ℝ, x i = (r : EReal) := by
  haveI : Subsingleton Cert.Pre_finite_inputs.S_.Idx := ⟨fun a b => funext fun d => d.elim0⟩
  have h1 := Host.reduce_andi_all _ init hr hu j e i
  apply real_of_abs_lt_top
  have h2 : Ideal.cmp .olt (max (x i) (-(x i))) (Ideal.ofBits .f32 0x7F800000#32) = 1#1 := h1
  have h3 : Ideal.ofBits .f32 0x7F800000#32 = (⊤ : EReal) := by simp [Ideal.ofBits, Ideal.ieee]
  rw [h3] at h2
  by_contra hn
  have h4 : decide (max (x i) (-(x i)) < (⊤ : EReal)) = false := decide_eq_false hn
  simp only [Ideal.cmp, h4] at h2
  exact absurd h2 (by decide)

/-- The precondition gives real arrays whose coercions the ten arguments are. -/
theorem reals_of_pre (m : (ℓ : Loc nD τ sig) → Buf (Elt Ideal) ℓ) (h : Cert.Pre_KernelIdeal m) (c : Dev nD) :
    ∃ r : Cert.Spec.RealArgs, Cert.Spec.Reads r
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) := by
  have h0 := congrFun (h c) ValueIdx.ix0
  dsimp only [Cert.Pre_finite_inputs.fn, Cert.Pre_finite_inputs.fn_part1, Cert.Pre_finite_inputs.fn_part2, andi] at h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  choose f0 hf0 using real_of_all _ _ _ _ _ _ e0
  choose f1 hf1 using real_of_all _ _ _ _ _ _ e1
  choose f2 hf2 using real_of_all _ _ _ _ _ _ e2
  choose f3 hf3 using real_of_all _ _ _ _ _ _ e3
  choose f4 hf4 using real_of_all _ _ _ _ _ _ e4
  choose f5 hf5 using real_of_all _ _ _ _ _ _ e5
  choose f6 hf6 using real_of_all _ _ _ _ _ _ e6
  choose f7 hf7 using real_of_all _ _ _ _ _ _ e7
  choose f8 hf8 using real_of_all _ _ _ _ _ _ e8
  choose f9 hf9 using real_of_all _ _ _ _ _ _ e9
  refine ⟨⟨fun n c h w => f0 (ix4 n c h w), fun d c => f1 (ix2 d c), fun d => f2 (ix1 d), f3 (ix1 0),
    fun d c => f4 (ix2 d c), fun d => f5 (ix1 d), f6 (ix1 0), fun d c => f7 (ix2 d c), fun d => f8 (ix1 d), f9 (ix1 0)⟩, ?_⟩
  refine ⟨fun n c h w => hf0 _, fun d c => hf1 _, fun d => hf2 _, fun j => ?_, fun d c => hf4 _, fun d => hf5 _, fun j => ?_,
    fun d c => hf7 _, fun d => hf8 _, fun j => ?_⟩
  · rw [Subsingleton.elim j 0]; exact hf3 _
  · rw [Subsingleton.elim j 0]; exact hf6 _
  · rw [Subsingleton.elim j 0]; exact hf9 _

end Cert.KernelIdeal.Finite

end
-- ==== Proof.lean ====
/- The certificate of a fused attention kernel against the plain softmax attention it implements.
   Both programs read an image of 128 channels on an 80 × 80 grid as 6400 tokens, project them to queries, keys and values
   by three linear maps followed by a leaky rectifier, weight the values by the softmax of the query–key scores and return
   the result in the image's layout. The kernel visits the keys in five tiles of 1280 per query tile of 3200, carrying a
   running maximum, sum of weights and weighted sum that it rescales whenever the maximum grows; on finite inputs the
   rescaled sums after the last tile are the whole row's sums up to a common factor that cancels in the quotient, so the two
   results agree as real numbers, hence as extended reals. The frames: each program runs to its end and leaves its arguments
   as it found them — the kernel's two programs by the launch of the one pipelined region with the image array shared by the
   query window and the key window, the reference by the run of its host operations. The idealization rewrote nothing. -/
import proofs.«404800_j8830452761398_3_alg».proof.Defs
import proofs.«404800_j8830452761398_3_alg».proof.Proof.Gen.Kernel
import proofs.«404800_j8830452761398_3_alg».proof.Proof.Gen.KernelIdeal
import proofs.«404800_j8830452761398_3_alg».proof.Proof.Gen.ReferenceIdeal
import proofs.«404800_j8830452761398_3_alg».proof.Proof.Gen.Pre_finite_inputs
import proofs.«404800_j8830452761398_3_alg».proof.Proof.Gen.ReferenceIdeal.Run
import proofs.«404800_j8830452761398_3_alg».proof.Proof.K.Post
import proofs.«404800_j8830452761398_3_alg».proof.Proof.KI.Post
import proofs.«404800_j8830452761398_3_alg».proof.Proof.KI.Result
import proofs.«404800_j8830452761398_3_alg».proof.Proof.RefValue
import proofs.«404800_j8830452761398_3_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- On finite inputs both programs end with the coercion of the attention function of the real arguments. -/
theorem algebraic : Cert.algebraic_KernelIdeal_ReferenceIdeal := by
  intro m ρ m' ρ' hpre hagree
  choose r hr using fun c => Cert.KernelIdeal.Finite.reals_of_pre m hpre c
  refine ⟨fun c i => (((r c).out (i 0) (i 1) (i 2) (i 3) : ℝ) : EReal), ?_, ?_⟩
  · exact (θ_run Cert.KernelIdeal.defs _ _).mono
      (fun _ h c => ⟨(h c).1.trans (Cert.KernelIdeal.Hand.result_eq m c (r c) (hr c)), (h c).2⟩)
      (Cert.KernelIdeal.Hand.run_out (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    refine Cert.ReferenceIdeal.RefValue.res_eq m' c (r c) ?_
    rw [h0, h1, h2, h3, h4, h5, h6, h7, h8, h9]
    exact hr c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
